-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S20000x128 : Shape := ⟨2, ![20000, 128]⟩
abbrev S200000 : Shape := ⟨1, ![200000]⟩
abbrev S400000 : Shape := ⟨1, ![400000]⟩
abbrev S512x256 : Shape := ⟨2, ![512, 256]⟩
abbrev S256 : Shape := ⟨1, ![256]⟩
abbrev S128x256 : Shape := ⟨2, ![128, 256]⟩
abbrev S256x256 : Shape := ⟨2, ![256, 256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S200000 : S_.BroadcastsInDim S200000 (![] : Fin 0 → Fin S200000.rank)
  reducesTo_S200000_S_d0 : S200000.ReducesTo [0] S_
  bcast_S_S400000 : S_.BroadcastsInDim S400000 (![] : Fin 0 → Fin S400000.rank)
  reducesTo_S400000_S_d0 : S400000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg22 : FVec F S256x256 .f32) (main_arg23 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg22
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg23
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg18 : FVec F S256x256 .f32) (main_arg19 : FVec F S256 .f32) (main_arg20 : FVec F S256x256 .f32) (main_arg21 : FVec F S256 .f32) (main_arg22 : FVec F S256x256 .f32) (main_arg23 : FVec F S256 .f32) (main_v63 : IVec S_ 1) (main_v67 : IVec S_ 1) : IVec S_ 1 :=
  let main_v68 : IVec S_ 1 := andi main_v63 main_v67
  let main_v69 : FVec F S256x256 .f32 := Host.absf main_arg18
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg20
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg21
  let main_cst_32 : FVec F S_ .f32 := constant S_ .f32 0x7F800000#32
  fn_part5 (F := F) main_arg22 main_arg23 main_v83 main_v84 main_cst_32

def fn_part3 {F : FTy → Type} [FloatOps F] (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg15
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg16
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg18 main_arg19 main_arg20 main_arg21 main_arg22 main_arg23 main_v63 main_v67

def fn_part2 {F : FTy → Type} [FloatOps F] (main_arg11 : FVec F S256 .f32) (main_arg12 : FVec F S128x256 .f32) (main_arg13 : FVec F S256 .f32) (main_arg14 : FVec F S512x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg12
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S512x256 .f32 := Host.absf main_arg14
  let main_cst_18 : FVec F S_ .f32 := constant S_ .f32 0x7F800000#32
  let main_v50 : FVec F S512x256 .f32 := broadcastInDim S512x256 ![] bcast_S_S512x256 main_cst_18
  fn_part3 (F := F) main_arg15 main_arg16 main_arg17 main_arg18 main_arg19 main_arg20 main_arg21 main_arg22 main_arg23 main_v48 main_v49 main_v50

def fn_part1 {F : FTy → Type} [FloatOps F] (main_arg8 : FVec F S512x256 .f32) (main_arg9 : FVec F S256 .f32) (main_arg10 : FVec F S128x256 .f32) (main_arg11 : FVec F S256 .f32) (main_arg12 : FVec F S128x256 .f32) (main_arg13 : FVec F S256 .f32) (main_arg14 : FVec F S512x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S512x256 .f32 := Host.absf main_arg8
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_v33

def fn {F : FTy → Type} [FloatOps F] (main_arg0 : FVec F S100000x512 .f32) (main_arg1 : FVec F S20000x128 .f32) (main_arg2 : IVec S200000 32) (main_arg3 : IVec S200000 32) (main_arg4 : FVec F S200000 .f32) (main_arg5 : IVec S400000 32) (main_arg6 : IVec S400000 32) (main_arg7 : FVec F S400000 .f32) (main_arg8 : FVec F S512x256 .f32) (main_arg9 : FVec F S256 .f32) (main_arg10 : FVec F S128x256 .f32) (main_arg11 : FVec F S256 .f32) (main_arg12 : FVec F S128x256 .f32) (main_arg13 : FVec F S256 .f32) (main_arg14 : FVec F S512x256 .f32) (main_arg15 : FVec F S256 .f32) (main_arg16 : FVec F S256x256 .f32) (main_arg17 : FVec F S256 .f32) (main_arg18 : FVec F S256x256 .f32) (main_arg19 : FVec F S256 .f32) (main_arg20 : FVec F S256x256 .f32) (main_arg21 : FVec F S256 .f32) (main_arg22 : FVec F S256x256 .f32) (main_arg23 : FVec F S256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S200000 .f32 := Host.absf main_arg4
  let main_cst_2 : FVec F S_ .f32 := constant S_ .f32 0x7F800000#32
  let main_v10 : FVec F S200000 .f32 := broadcastInDim S200000 ![] bcast_S_S200000 main_cst_2
  let main_v11 : IVec S200000 1 := cmpf .olt main_v9 main_v10
  let main_c_3 : IVec S_ 1 := constantI S_ 1 1#1
  let main_v12 : IVec S_ 1 := (fun x v => Host.reduce IntOp.andi x v reducesTo_S200000_S_d0 h_S_) main_v11 main_c_3
  let main_v13 : IVec S_ 1 := andi main_v8 main_v12
  let main_v14 : FVec F S400000 .f32 := Host.absf main_arg7
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x512 : Shape := ⟨2, ![100000, 512]⟩
abbrev S20000x128 : Shape := ⟨2, ![20000, 128]⟩
abbrev S200000 : Shape := ⟨1, ![200000]⟩
abbrev S400000 : Shape := ⟨1, ![400000]⟩
abbrev S512x256 : Shape := ⟨2, ![512, 256]⟩
abbrev S256 : Shape := ⟨1, ![256]⟩
abbrev S128x256 : Shape := ⟨2, ![128, 256]⟩
abbrev S256x256 : Shape := ⟨2, ![256, 256]⟩
abbrev S1x256 : Shape := ⟨2, ![1, 256]⟩
abbrev S100000x256 : Shape := ⟨2, ![100000, 256]⟩
abbrev S2000x512 : Shape := ⟨2, ![2000, 512]⟩
abbrev S2000x256 : Shape := ⟨2, ![2000, 256]⟩
abbrev S20000x256 : Shape := ⟨2, ![20000, 256]⟩
abbrev S2000x128 : Shape := ⟨2, ![2000, 128]⟩
abbrev S_ : Shape := ⟨0, ![]⟩
abbrev S200000x1 : Shape := ⟨2, ![200000, 1]⟩
abbrev S200000x256 : Shape := ⟨2, ![200000, 256]⟩
abbrev S400000x1 : Shape := ⟨2, ![400000, 1]⟩
abbrev S400000x256 : Shape := ⟨2, ![400000, 256]⟩

abbrev nBuf : Space → Nat
  | .hbm => 106
  | .vmem => 64
  | .smem => 0
  | _ => 0

abbrev bufTy : (tb : Table) → Fin (tcTables nBuf tb) → BufTy
  | .hbm, ⟨0, _⟩ => ⟨S100000x512, .f32⟩
  | .hbm, ⟨1, _⟩ => ⟨S20000x128, .f32⟩
  | .hbm, ⟨2, _⟩ => ⟨S200000, .i32⟩
  | .hbm, ⟨3, _⟩ => ⟨S200000, .i32⟩
  | .hbm, ⟨4, _⟩ => ⟨S200000, .f32⟩
  | .hbm, ⟨5, _⟩ => ⟨S400000, .i32⟩
  | .hbm, ⟨6, _⟩ => ⟨S400000, .i32⟩
  | .hbm, ⟨7, _⟩ => ⟨S400000, .f32⟩
  | .hbm, ⟨8, _⟩ => ⟨S512x256, .f32⟩
  | .hbm, ⟨9, _⟩ => ⟨S256, .f32⟩
  | .hbm, ⟨10, _⟩ => ⟨S128x256, .f32⟩
  | .hbm, ⟨11, _⟩ => ⟨S256, .f32⟩
  | .hbm, ⟨12, _⟩ => ⟨S128x256, .f32⟩
  | .hbm, ⟨13, _⟩ => ⟨S256, .f32⟩
  | .hbm, ⟨14, _⟩ => ⟨S512x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x256, .f32⟩
  | .hbm, ⟨23, _⟩ => ⟨S256, .f32⟩
  | .hbm, ⟨24, _⟩ => ⟨S1x256, .f32⟩
  | .hbm, ⟨25, _⟩ => ⟨S100000x256, .f32⟩
  | .hbm, ⟨26, _⟩ => ⟨S1x256, .f32⟩
  | .hbm, ⟨27, _⟩ => ⟨S20000x256, .f32⟩
  | .hbm, ⟨28, _⟩ => ⟨S1x256, .f32⟩
  | .hbm, ⟨29, _⟩ => ⟨S20000x256, .f32⟩
  | .hbm, ⟨30, _⟩ => ⟨S1x256, .f32⟩
  | .hbm, ⟨31, _⟩ => ⟨S100000x256, .f32⟩
  | .hbm, ⟨32, _⟩ => ⟨S_, .i32⟩
  | .hbm, ⟨33, _⟩ => ⟨S200000, .i32⟩
  | .hbm, ⟨34, _⟩ => ⟨S200000, .i1⟩
  | .hbm, ⟨35, _⟩ => ⟨S_, .i32⟩
  | .hbm, ⟨36, _⟩ => ⟨S200000, .i32⟩
  | .hbm, ⟨37, _⟩ => ⟨S200000, .i32⟩
  | .hbm, ⟨38, _⟩ => ⟨S200000, .i32⟩
  | .hbm, ⟨39, _⟩ => ⟨S200000x1, .i32⟩
  | .hbm, ⟨40, _⟩ => ⟨S200000x256, .f32⟩
  | .hbm, ⟨41, _⟩ => ⟨S200000x1, .f32⟩
  | .hbm, ⟨42, _⟩ => ⟨S200000x256, .f32⟩
  | .hbm, ⟨43, _⟩ => ⟨S200000x256, .f32⟩
  | .hbm, ⟨44, _⟩ => ⟨S_, .f32⟩
  | .hbm, ⟨45, _⟩ => ⟨S100000x256, .f32⟩
  | .hbm, ⟨46, _⟩ => ⟨S200000x1, .i32⟩
  | .hbm, ⟨47, _⟩ => ⟨S100000x256, .f32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S400000x256, .f32⟩
  | .hbm, ⟨57, _⟩ => ⟨S400000x1, .f32⟩
  | .hbm, ⟨58, _⟩ => ⟨S400000x256, .f32⟩
  | .hbm, ⟨59, _⟩ => ⟨S400000x256, .f32⟩
  | .hbm, ⟨60, _⟩ => ⟨S_, .f32⟩
  | .hbm, ⟨61, _⟩ => ⟨S100000x256, .f32⟩
  | .hbm, ⟨62, _⟩ => ⟨S400000x1, .i32⟩
  | .hbm, ⟨63, _⟩ => ⟨S100000x256, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S1x256, .f32⟩
  | .hbm, ⟨68, _⟩ => ⟨S20000x256, .f32⟩
  | .hbm, ⟨69, _⟩ => ⟨S1x256, .f32⟩
  | .hbm, ⟨70, _⟩ => ⟨S20000x256, .f32⟩
  | .hbm, ⟨71, _⟩ => ⟨S1x256, .f32⟩
  | .hbm, ⟨72, _⟩ => ⟨S100000x256, .f32⟩
  | .hbm, ⟨73, _⟩ => ⟨S_, .i32⟩
  | .hbm, ⟨74, _⟩ => ⟨S200000, .i32⟩
  | .hbm, ⟨75, _⟩ => ⟨S200000, .i1⟩
  | .hbm, ⟨76, _⟩ => ⟨S_, .i32⟩
  | .hbm, ⟨77, _⟩ => ⟨S200000, .i32⟩
  | .hbm, ⟨78, _⟩ => ⟨S200000, .i32⟩
  | .hbm, ⟨79, _⟩ => ⟨S200000, .i32⟩
  | .hbm, ⟨80, _⟩ => ⟨S200000x1, .i32⟩
  | .hbm, ⟨81, _⟩ => ⟨S200000x256, .f32⟩
  | .hbm, ⟨82, _⟩ => ⟨S200000x1, .f32⟩
  | .hbm, ⟨83, _⟩ => ⟨S200000x256, .f32⟩
  | .hbm, ⟨84, _⟩ => ⟨S200000x256, .f32⟩
  | .hbm, ⟨85, _⟩ => ⟨S_, .f32⟩
  | .hbm, ⟨86, _⟩ => ⟨S100000x256, .f32⟩
  | .hbm, ⟨87, _⟩ => ⟨S200000x1, .i32⟩
  | .hbm, ⟨88, _⟩ => ⟨S100000x256, .f32⟩
  | .hbm, ⟨89, _⟩ => ⟨S_, .i32⟩
  | .hbm, ⟨90, _⟩ => ⟨S400000, .i32⟩
  | .hbm, ⟨91, _⟩ => ⟨S400000, .i1⟩
  | .hbm, ⟨92, _⟩ => ⟨S_, .i32⟩
  | .hbm, ⟨93, _⟩ => ⟨S400000, .i32⟩
  | .hbm, ⟨94, _⟩ => ⟨S400000, .i32⟩
  | .hbm, ⟨95, _⟩ => ⟨S400000, .i32⟩
  | .hbm, ⟨96, _⟩ => ⟨S400000x1, .i32⟩
  | .hbm, ⟨97, _⟩ => ⟨S400000x256, .f32⟩
  | .hbm, ⟨98, _⟩ => ⟨S400000x1, .f32⟩
  | .hbm, ⟨99, _⟩ => ⟨S400000x256, .f32⟩
  | .hbm, ⟨100, _⟩ => ⟨S400000x256, .f32⟩
  | .hbm, ⟨101, _⟩ => ⟨S_, .f32⟩
  | .hbm, ⟨102, _⟩ => ⟨S100000x256, .f32⟩
  | .hbm, ⟨103, _⟩ => ⟨S400000x1, .i32⟩
  | .hbm, ⟨104, _⟩ => ⟨S100000x256, .f32⟩
  | .hbm, ⟨105, _⟩ => ⟨S100000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x128, .f32⟩
  | .local _ .vmem, ⟨7, _⟩ => ⟨S2000x128, .f32⟩
  | .local _ .vmem, ⟨8, _⟩ => ⟨S128x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S128x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x512, .f32⟩
  | .local _ .vmem, ⟨19, _⟩ => ⟨S2000x512, .f32⟩
  | .local _ .vmem, ⟨20, _⟩ => ⟨S512x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S256x256, .f32⟩
  | .local _ .vmem, ⟨47, _⟩ => ⟨S1x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S256x256, .f32⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S2000x256, .f32⟩
  | .local _ .vmem, ⟨63, _⟩ => ⟨S2000x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_1 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_4 : Ref sig .tc := ⟨.hbm, 73, rfl⟩
abbrev main_v43 : Ref sig .tc := ⟨.hbm, 74, rfl⟩
abbrev main_v44 : Ref sig .tc := ⟨.hbm, 75, rfl⟩
abbrev main_c_5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_7 : Ref sig .tc := ⟨.hbm, 89, rfl⟩
abbrev main_v56 : Ref sig .tc := ⟨.hbm, 90, rfl⟩
abbrev main_v57 : Ref sig .tc := ⟨.hbm, 91, rfl⟩
abbrev main_c_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg3_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg3_0 : Ref sig .tc := ⟨.vmem, 54, rfl⟩
abbrev cc8_stg3_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc9_stg3_0 : Ref sig .tc := ⟨.vmem, 62, rfl⟩
abbrev cc9_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem3_0 : DmaSem sig := 54
abbrev cc8_sem3_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc9_sem3_0 : DmaSem sig := 62
abbrev cc9_sem3_1 : DmaSem sig := 63

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2000x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  bcast_S_S100000x256 : S_.BroadcastsInDim S100000x256 (![] : Fin 0 → Fin S100000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  dot_S2000x512_S512x256_S2000x256_1_0_0_1_n_n_wf : DotDims.WF S2000x512 S512x256 S2000x256 [1] [0] [0] [1] [] []
  dot_S2000x128_S128x256_S2000x256_1_0_0_1_n_n_wf : DotDims.WF S2000x128 S128x256 S2000x256 [1] [0] [0] [1] [] []
  gather_S20000x256_S200000x1_S200000x256_1_0_n_n_0_1_1256_wf : GatherDims.WF S20000x256 S200000x1 S200000x256 [1] [0] [] [0] [] 1 ![1, 256]
  scatter_S100000x256_S200000x1_S200000x256_1_0_0_1_wf : ScatterDims.WF S100000x256 S200000x1 S200000x256 [1] [0] [0] 1
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .f32 = 32 ∨ (Rect.block (s := S20000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S100000x512.size a
  hwx3_0 : ∀ i : grid3.Coords, EltTy.bits .f32 = 32 ∨ (Rect.block (s := S100000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S100000x256.size a
  hwx3_3 : ∀ i : grid3.Coords, EltTy.bits .f32 = 32 ∨ (Rect.block (s := S100000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S100000x256.size a
  hwx4_3 : ∀ i : grid4.Coords, EltTy.bits .f32 = 32 ∨ (Rect.block (s := S100000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S100000x256.size a
  hwx5_3 : ∀ i : grid5.Coords, EltTy.bits .f32 = 32 ∨ (Rect.block (s := S100000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S20000x256.size a
  hwx6_3 : ∀ i : grid6.Coords, EltTy.bits .f32 = 32 ∨ (Rect.block (s := S20000x256) S2000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x256.size a ≤ S20000x256.size a
  hwx7_3 : ∀ i : grid7.Coords, EltTy.bits .f32 = 32 ∨ (Rect.block (s := S20000x256) S2000x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S100000x256.size a
  hwx8_0 : ∀ i : grid8.Coords, EltTy.bits .f32 = 32 ∨ (Rect.block (s := S100000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x256.size a ≤ S100000x256.size a
  hwx8_3 : ∀ i : grid8.Coords, EltTy.bits .f32 = 32 ∨ (Rect.block (s := S100000x256) S2000x256.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S100000x256.size a
  hwx9_0 : ∀ i : grid9.Coords, EltTy.bits .f32 = 32 ∨ (Rect.block (s := S100000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x256.size a ≤ S100000x256.size a
  hwx9_1 : ∀ i : grid9.Coords, EltTy.bits .f32 = 32 ∨ (Rect.block (s := S100000x256) S2000x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x256.size a ≤ S100000x256.size a
  hwx9_2 : ∀ i : grid9.Coords, EltTy.bits .f32 = 32 ∨ (Rect.block (s := S100000x256) S2000x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x256.size a ≤ S100000x256.size a
  hwx9_3 : ∀ i : grid9.Coords, EltTy.bits .f32 = 32 ∨ (Rect.block (s := S100000x256) S2000x256.size (cc9_transform_3 i) (hinb9_3 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v34) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v34) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v3) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg18) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v37) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v38) S2000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v3) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg20) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v39) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v40) S2000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v34) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg22) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v41) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v42) S2000x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v36) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v55) S2000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v68) S2000x256.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v69) S2000x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x512 : Shape := ⟨2, ![100000, 512]⟩
abbrev S20000x128 : Shape := ⟨2, ![20000, 128]⟩
abbrev S200000 : Shape := ⟨1, ![200000]⟩
abbrev S400000 : Shape := ⟨1, ![400000]⟩
abbrev S512x256 : Shape := ⟨2, ![512, 256]⟩
abbrev S256 : Shape := ⟨1, ![256]⟩
abbrev S128x256 : Shape := ⟨2, ![128, 256]⟩
abbrev S256x256 : Shape := ⟨2, ![256, 256]⟩
abbrev S100000x256 : Shape := ⟨2, ![100000, 256]⟩
abbrev S1x256 : Shape := ⟨2, ![1, 256]⟩
abbrev S20000x256 : Shape := ⟨2, ![20000, 256]⟩
abbrev S_ : Shape := ⟨0, ![]⟩
abbrev S200000x1 : Shape := ⟨2, ![200000, 1]⟩
abbrev S200000x256 : Shape := ⟨2, ![200000, 256]⟩
abbrev S400000x1 : Shape := ⟨2, ![400000, 1]⟩
abbrev S400000x256 : Shape := ⟨2, ![400000, 256]⟩

abbrev nBuf : Space → Nat
  | .hbm => 154
  | .vmem => 0
  | .smem => 0
  | _ => 0

abbrev hbmTy0_0 (i : Nat) : BufTy := match i % 128 with
  | 0 => ⟨S100000x512, .f32⟩
  | 1 => ⟨S20000x128, .f32⟩
  | 2 => ⟨S200000, .i32⟩
  | 3 => ⟨S200000, .i32⟩
  | 4 => ⟨S200000, .f32⟩
  | 5 => ⟨S400000, .i32⟩
  | 6 => ⟨S400000, .i32⟩
  | 7 => ⟨S400000, .f32⟩
  | 8 => ⟨S512x256, .f32⟩
  | 9 => ⟨S256, .f32⟩
  | 10 => ⟨S128x256, .f32⟩
  | 11 => ⟨S256, .f32⟩
  | 12 => ⟨S128x256, .f32⟩
  | 13 => ⟨S256, .f32⟩
  | 14 => ⟨S512x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x256, .f32⟩
  | 21 => ⟨S256, .f32⟩
  | 22 => ⟨S256x256, .f32⟩
  | 23 => ⟨S256, .f32⟩
  | 24 => ⟨S100000x256, .f32⟩
  | 25 => ⟨S1x256, .f32⟩
  | 26 => ⟨S100000x256, .f32⟩
  | 27 => ⟨S100000x256, .f32⟩
  | 28 => ⟨S20000x256, .f32⟩
  | 29 => ⟨S1x256, .f32⟩
  | 30 => ⟨S20000x256, .f32⟩
  | 31 => ⟨S20000x256, .f32⟩
  | 32 => ⟨S20000x256, .f32⟩
  | 33 => ⟨S1x256, .f32⟩
  | 34 => ⟨S20000x256, .f32⟩
  | 35 => ⟨S20000x256, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x256, .f32⟩
  | 45 => ⟨S200000x1, .f32⟩
  | 46 => ⟨S200000x256, .f32⟩
  | 47 => ⟨S200000x256, .f32⟩
  | 48 => ⟨S_, .f32⟩
  | 49 => ⟨S100000x256, .f32⟩
  | 50 => ⟨S200000x1, .i32⟩
  | 51 => ⟨S100000x256, .f32⟩
  | 52 => ⟨S100000x256, .f32⟩
  | 53 => ⟨S100000x256, .f32⟩
  | 54 => ⟨S1x256, .f32⟩
  | 55 => ⟨S100000x256, .f32⟩
  | 56 => ⟨S100000x256, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x256, .f32⟩
  | 66 => ⟨S400000x1, .f32⟩
  | 67 => ⟨S400000x256, .f32⟩
  | 68 => ⟨S400000x256, .f32⟩
  | 69 => ⟨S_, .f32⟩
  | 70 => ⟨S100000x256, .f32⟩
  | 71 => ⟨S400000x1, .i32⟩
  | 72 => ⟨S100000x256, .f32⟩
  | 73 => ⟨S100000x256, .f32⟩
  | 74 => ⟨S_, .f32⟩
  | 75 => ⟨S100000x256, .f32⟩
  | 76 => ⟨S100000x256, .i1⟩
  | 77 => ⟨S_, .f32⟩
  | 78 => ⟨S100000x256, .f32⟩
  | 79 => ⟨S100000x256, .i1⟩
  | 80 => ⟨S_, .f32⟩
  | 81 => ⟨S_, .f32⟩
  | 82 => ⟨S100000x256, .f32⟩
  | 83 => ⟨S100000x256, .f32⟩
  | 84 => ⟨S100000x256, .f32⟩
  | 85 => ⟨S_, .f32⟩
  | 86 => ⟨S100000x256, .f32⟩
  | 87 => ⟨S100000x256, .f32⟩
  | 88 => ⟨S100000x256, .f32⟩
  | 89 => ⟨S_, .f32⟩
  | 90 => ⟨S20000x256, .f32⟩
  | 91 => ⟨S20000x256, .i1⟩
  | 92 => ⟨S_, .f32⟩
  | 93 => ⟨S20000x256, .f32⟩
  | 94 => ⟨S20000x256, .i1⟩
  | 95 => ⟨S_, .f32⟩
  | 96 => ⟨S_, .f32⟩
  | 97 => ⟨S20000x256, .f32⟩
  | 98 => ⟨S20000x256, .f32⟩
  | 99 => ⟨S20000x256, .f32⟩
  | 100 => ⟨S_, .f32⟩
  | 101 => ⟨S20000x256, .f32⟩
  | 102 => ⟨S20000x256, .f32⟩
  | 103 => ⟨S20000x256, .f32⟩
  | 104 => ⟨S100000x256, .f32⟩
  | 105 => ⟨S1x256, .f32⟩
  | 106 => ⟨S100000x256, .f32⟩
  | 107 => ⟨S100000x256, .f32⟩
  | 108 => ⟨S20000x256, .f32⟩
  | 109 => ⟨S1x256, .f32⟩
  | 110 => ⟨S20000x256, .f32⟩
  | 111 => ⟨S20000x256, .f32⟩
  | 112 => ⟨S20000x256, .f32⟩
  | 113 => ⟨S1x256, .f32⟩
  | 114 => ⟨S20000x256, .f32⟩
  | 115 => ⟨S20000x256, .f32⟩
  | 116 => ⟨S_, .i32⟩
  | 117 => ⟨S200000, .i32⟩
  | 118 => ⟨S200000, .i1⟩
  | 119 => ⟨S_, .i32⟩
  | 120 => ⟨S200000, .i32⟩
  | 121 => ⟨S200000, .i32⟩
  | 122 => ⟨S200000, .i32⟩
  | 123 => ⟨S200000x1, .i32⟩
  | 124 => ⟨S200000x256, .f32⟩
  | 125 => ⟨S200000x1, .f32⟩
  | 126 => ⟨S200000x256, .f32⟩
  | 127 => ⟨S200000x256, .f32⟩
  | _ => ⟨S100000x512, .f32⟩

abbrev hbmTy0_1 (i : Nat) : BufTy := match i % 128 with
  | 0 => ⟨S_, .f32⟩
  | 1 => ⟨S100000x256, .f32⟩
  | 2 => ⟨S200000x1, .i32⟩
  | 3 => ⟨S100000x256, .f32⟩
  | 4 => ⟨S100000x256, .f32⟩
  | 5 => ⟨S100000x256, .f32⟩
  | 6 => ⟨S1x256, .f32⟩
  | 7 => ⟨S100000x256, .f32⟩
  | 8 => ⟨S100000x256, .f32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x256, .f32⟩
  | 18 => ⟨S400000x1, .f32⟩
  | 19 => ⟨S400000x256, .f32⟩
  | 20 => ⟨S400000x256, .f32⟩
  | 21 => ⟨S_, .f32⟩
  | 22 => ⟨S100000x256, .f32⟩
  | 23 => ⟨S400000x1, .i32⟩
  | 24 => ⟨S100000x256, .f32⟩
  | 25 => ⟨S100000x256, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_1 : Ref sig .tc := ⟨.hbm, 57, rfl⟩
abbrev main_v30 : Ref sig .tc := ⟨.hbm, 58, rfl⟩
abbrev main_v31 : Ref sig .tc := ⟨.hbm, 59, rfl⟩
abbrev main_c_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_3 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_cst_1 : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_v4 : Ref sig .tc := ⟨.hbm, 83, rfl⟩
abbrev main_call0_v5 : Ref sig .tc := ⟨.hbm, 84, rfl⟩
abbrev main_call0_cst_2 : Ref sig .tc := ⟨.hbm, 85, rfl⟩
abbrev main_call0_v6 : Ref sig .tc := ⟨.hbm, 86, rfl⟩
abbrev main_call0_v7 : Ref sig .tc := ⟨.hbm, 87, rfl⟩
abbrev main_v44 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_cst_1 : Ref sig .tc := ⟨.hbm, 95, rfl⟩
abbrev main_call1_call0_v0 : Ref sig .tc := ⟨.hbm, 96, rfl⟩
abbrev main_call1_call0_v1 : Ref sig .tc := ⟨.hbm, 97, rfl⟩
abbrev main_call1_v4 : Ref sig .tc := ⟨.hbm, 98, rfl⟩
abbrev main_call1_v5 : Ref sig .tc := ⟨.hbm, 99, rfl⟩
abbrev main_call1_cst_2 : Ref sig .tc := ⟨.hbm, 100, rfl⟩
abbrev main_call1_v6 : Ref sig .tc := ⟨.hbm, 101, rfl⟩
abbrev main_call1_v7 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_c_4 : Ref sig .tc := ⟨.hbm, 116, rfl⟩
abbrev main_v58 : Ref sig .tc := ⟨.hbm, 117, rfl⟩
abbrev main_v59 : Ref sig .tc := ⟨.hbm, 118, rfl⟩
abbrev main_c_5 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_6 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_c_7 : Ref sig .tc := ⟨.hbm, 137, rfl⟩
abbrev main_v76 : Ref sig .tc := ⟨.hbm, 138, rfl⟩
abbrev main_v77 : Ref sig .tc := ⟨.hbm, 139, rfl⟩
abbrev main_c_8 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_9 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1x256_S20000x256_0_1 : S1x256.BroadcastsInDim S20000x256 (![0, 1] : Fin 2 → Fin S20000x256.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  bcast_S_S100000x256 : S_.BroadcastsInDim S100000x256 (![] : Fin 0 → Fin S100000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S20000x256 : S_.BroadcastsInDim S20000x256 (![] : Fin 0 → Fin S20000x256.rank)
  dot_S100000x512_S512x256_S100000x256_1_0_0_1_n_n_wf : DotDims.WF S100000x512 S512x256 S100000x256 [1] [0] [0] [1] [] []
  dot_S20000x128_S128x256_S20000x256_1_0_0_1_n_n_wf : DotDims.WF S20000x128 S128x256 S20000x256 [1] [0] [0] [1] [] []
  gather_S20000x256_S200000x1_S200000x256_1_0_n_n_0_1_1256_wf : GatherDims.WF S20000x256 S200000x1 S200000x256 [1] [0] [] [0] [] 1 ![1, 256]
  scatter_S100000x256_S200000x1_S200000x256_1_0_0_1_wf : ScatterDims.WF S100000x256 S200000x1 S200000x256 [1] [0] [0] 1
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x256_S100000x256_1_0_0_1_n_n_wf : DotDims.WF S100000x256 S256x256 S100000x256 [1] [0] [0] [1] [] []
  dot_S20000x256_S256x256_S20000x256_1_0_0_1_n_n_wf : DotDims.WF S20000x256 S256x256 S20000x256 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.Spec.lean ====
/-
  The mathematics both programs compute, stated once over the extended reals.

  A two-layer heterogeneous message-passing encoder over two node types (papers, authors) and two relations
  (author → paper, paper → paper).  One layer gives every paper the sum of three terms — an affine map of
  its own feature row, and for each relation the weighted sum, over the edges that end at that paper, of an affine
  map of the edge's source row — and gives every author an affine map of its own row.  The first layer is followed
  by the exponential linear unit on both node types, the second by nothing.

  The gather of source rows and the scatter-add onto destination rows are the same host operations in both
  programs, so they enter here only as two functions `aggW`, `aggC` from a table of messages to a table of sums.
-/
import Idealize.ShloMosaic.PureOps.Ideal
import Idealize.ShloMosaic.Lib.ValueIdx

noncomputable section

namespace Cert.Hetero

open Idealize.ShloMosaic Idealize.ShloMosaic.ValueIdx

/-- The affine map: entry `(i, j)` is row `i` of `x` against column `j` of `w`, plus the bias of column `j`. -/
def lin (M K N : Nat) (x : Vec Ideal ⟨2, ![M, K]⟩ .f32) (w : Vec Ideal ⟨2, ![K, N]⟩ .f32) (b : Fin N → EReal) :
    Vec Ideal ⟨2, ![M, N]⟩ .f32 :=
  fun i => (∑ k : Fin K, x (ix2 (i 0) k) * w (ix2 k (i 1))) + b (i 1)

/-- The exponential linear unit on one extended real: the identity on the positives, `eˣ − 1` elsewhere. -/
def eluR (x : EReal) : EReal := if 0 < x then x else Ideal.exp x - 1

/-- The exponential linear unit, entry by entry. -/
def elu {S : Shape} (x : Vec Ideal S .f32) : Vec Ideal S .f32 := fun i => eluR (x i)

/-- The sum of three tables, entry by entry, associated to the left. -/
def add3 {S : Shape} (a b c : Vec Ideal S .f32) : Vec Ideal S .f32 := fun i => a i + b i + c i

/-- A bias vector as a function of the column. -/
def col {N : Nat} (b : Vec Ideal ⟨1, ![N]⟩ .f32) : Fin N → EReal := fun j => b (ix1 j)

/-- A bias stored as a one-row table, as a function of the column. -/
def row0 {N : Nat} (b : Vec Ideal ⟨2, ![1, N]⟩ .f32) : Fin N → EReal := fun j => b (ix2 0 j)

/-- One layer at the papers, before any activation: own affine map plus the two relations' aggregated messages. -/
def layerP (NP NA KP KA H : Nat) (aggW : Vec Ideal ⟨2, ![NA, H]⟩ .f32 → Vec Ideal ⟨2, ![NP, H]⟩ .f32)
    (aggC : Vec Ideal ⟨2, ![NP, H]⟩ .f32 → Vec Ideal ⟨2, ![NP, H]⟩ .f32)
    (xp : Vec Ideal ⟨2, ![NP, KP]⟩ .f32) (xa : Vec Ideal ⟨2, ![NA, KA]⟩ .f32)
    (wsp : Vec Ideal ⟨2, ![KP, H]⟩ .f32) (bsp : Fin H → EReal)
    (wrw : Vec Ideal ⟨2, ![KA, H]⟩ .f32) (brw : Fin H → EReal)
    (wrc : Vec Ideal ⟨2, ![KP, H]⟩ .f32) (brc : Fin H → EReal) : Vec Ideal ⟨2, ![NP, H]⟩ .f32 :=
  add3 (lin NP KP H xp wsp bsp) (aggW (lin NA KA H xa wrw brw)) (aggC (lin NP KP H xp wrc brc))

/-- The authors' result: two affine maps with the exponential linear unit between them. -/
def outA (NA KA H : Nat) (xa : Vec Ideal ⟨2, ![NA, KA]⟩ .f32)
    (wsa1 : Vec Ideal ⟨2, ![KA, H]⟩ .f32) (bsa1 : Fin H → EReal)
    (wsa2 : Vec Ideal ⟨2, ![H, H]⟩ .f32) (bsa2 : Fin H → EReal) : Vec Ideal ⟨2, ![NA, H]⟩ .f32 :=
  lin NA H H (elu (lin NA KA H xa wsa1 bsa1)) wsa2 bsa2

/-- The papers' result: the second layer at the papers, fed the first layer's activated outputs of both node types. -/
def outP (NP NA KP KA H : Nat) (aggW : Vec Ideal ⟨2, ![NA, H]⟩ .f32 → Vec Ideal ⟨2, ![NP, H]⟩ .f32)
    (aggC : Vec Ideal ⟨2, ![NP, H]⟩ .f32 → Vec Ideal ⟨2, ![NP, H]⟩ .f32)
    (xp : Vec Ideal ⟨2, ![NP, KP]⟩ .f32) (xa : Vec Ideal ⟨2, ![NA, KA]⟩ .f32)
    (wsp1 : Vec Ideal ⟨2, ![KP, H]⟩ .f32) (bsp1 : Fin H → EReal)
    (wsa1 : Vec Ideal ⟨2, ![KA, H]⟩ .f32) (bsa1 : Fin H → EReal)
    (wrw1 : Vec Ideal ⟨2, ![KA, H]⟩ .f32) (brw1 : Fin H → EReal)
    (wrc1 : Vec Ideal ⟨2, ![KP, H]⟩ .f32) (brc1 : Fin H → EReal)
    (wsp2 : Vec Ideal ⟨2, ![H, H]⟩ .f32) (bsp2 : Fin H → EReal)
    (wrw2 : Vec Ideal ⟨2, ![H, H]⟩ .f32) (brw2 : Fin H → EReal)
    (wrc2 : Vec Ideal ⟨2, ![H, H]⟩ .f32) (brc2 : Fin H → EReal) : Vec Ideal ⟨2, ![NP, H]⟩ .f32 :=
  layerP NP NA H H H aggW aggC
    (elu (layerP NP NA KP KA H aggW aggC xp xa wsp1 bsp1 wrw1 brw1 wrc1 brc1))
    (elu (lin NA KA H xa wsa1 bsa1))
    wsp2 bsp2 wrw2 brw2 wrc2 brc2

end Cert.Hetero

end
-- ==== Proof.KPay.lean ====
/-
  What each kernel body stores, as one function of the three blocks it loads.
-/
import proofs.«143226_j11252814315838_1_alg».proof.Proof.Gen.KernelIdeal.Skeleton
import proofs.«143226_j11252814315838_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.TcCoe Idealize.ShloMosaic.ValueIdx
open Idealize.SL Idealize.SL.Sem

/-! ### Two words as numbers, and the activation on one extended real -/

/-- The word `0x3F800000` denotes the number one. -/
theorem ofBits_one_f32 : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- "If `y` is above zero then `y`, else `eʸ − 1`", as the body computes it, is the exponential linear unit. -/
theorem elu_word (y : EReal) :
    Scalar.select (Ideal.cmp .ogt y (Ideal.ofBits .f32 0x00000000#32)) y (Ideal.exp y - Ideal.ofBits .f32 0x3F800000#32)
      = Hetero.eluR y := by
  rw [Ideal.ofBits_zero_f32, ofBits_one_f32]
  unfold Hetero.eluR
  by_cases h : 0 < y
  · rw [if_pos h, show Ideal.cmp .ogt y 0 = 1#1 by simp [Ideal.cmp, h], select_one]
  · rw [if_neg h, show Ideal.cmp .ogt y 0 = 0#1 by simp [Ideal.cmp, h], select_zero]

/-- The activation of a whole table, read at one entry. -/
theorem elu_apply (y : FVec Ideal S2000x256 .f32) (i : S2000x256.Idx) :
    select (cmpf .ogt y (broadcast S2000x256 (Scalar.ofBits (F := Ideal) .f32 0x00000000#32))) y
        (subf (exp y) (broadcast S2000x256 (Scalar.ofBits (F := Ideal) .f32 0x3F800000#32))) i = Hetero.eluR (y i) :=
  elu_word (y i)

/-! ### The bias row under every row of the block -/

/-- The one-row table spread over the 2000 rows reads, at `(p, q)`, its entry of column `q`. -/
theorem bias_apply (b : Vec Ideal S1x256 .f32) (p : Fin 2000) (q : Fin 256) :
    broadcastTo S2000x256 b broadcasts_S1x256_S2000x256 (ix2 p q) = b (ix2 0 q) := by
  refine broadcastTo_apply b broadcasts_S1x256_S2000x256 (ix2 p q) (ix2 0 q) ?_
  intro a
  match a with
  | ⟨0, _⟩ => rfl
  | ⟨1, _⟩ => rfl

/-! ### The 512-deep product: which entries of its operands a term reads -/

theorem lhs512_0 (j : S2000x256.Idx) (k : dot_S2000x512_S512x256_S2000x256_1_0_0_1_n_n.contr.Idx) :
    (dot_S2000x512_S512x256_S2000x256_1_0_0_1_n_n.lhsIdx j k 0 : ℕ) = j 0 := by
  simp [DotDims.lhsIdx, dot_S2000x512_S512x256_S2000x256_1_0_0_1_n_n]; rfl
theorem lhs512_1 (j : S2000x256.Idx) (k : dot_S2000x512_S512x256_S2000x256_1_0_0_1_n_n.contr.Idx) :
    (dot_S2000x512_S512x256_S2000x256_1_0_0_1_n_n.lhsIdx j k 1 : ℕ) = k ⟨0, by decide⟩ := by
  simp [DotDims.lhsIdx, dot_S2000x512_S512x256_S2000x256_1_0_0_1_n_n]; rfl
theorem rhs512_0 (j : S2000x256.Idx) (k : dot_S2000x512_S512x256_S2000x256_1_0_0_1_n_n.contr.Idx) :
    (dot_S2000x512_S512x256_S2000x256_1_0_0_1_n_n.rhsIdx j k 0 : ℕ) = k ⟨0, by decide⟩ := by
  simp [DotDims.rhsIdx, dot_S2000x512_S512x256_S2000x256_1_0_0_1_n_n]; rfl
theorem rhs512_1 (j : S2000x256.Idx) (k : dot_S2000x512_S512x256_S2000x256_1_0_0_1_n_n.contr.Idx) :
    (dot_S2000x512_S512x256_S2000x256_1_0_0_1_n_n.rhsIdx j k 1 : ℕ) = j 1 := by
  simp [DotDims.rhsIdx, dot_S2000x512_S512x256_S2000x256_1_0_0_1_n_n]; rfl

/-- Entry `(p, q)` of the product from the zero table is row `p` of the left operand against column `q` of the right
    one, the contracted index running over `Fin 512`. -/
theorem mm512 (lhs : FVec Ideal S2000x512 .bf16) (rhs : FVec Ideal S512x256 .bf16) (p : Fin 2000) (q : Fin 256) :
    matmul dot_S2000x512_S512x256_S2000x256_1_0_0_1_n_n none lhs rhs (constant (F := Ideal) S2000x256 .f32 0x00000000#32) (ix2 p q)
      = ∑ k : Fin 512, lhs (ix2 p k) * rhs (ix2 k q) := by
  refine (Ideal.matmul_constant_zero_apply dot_S2000x512_S512x256_S2000x256_1_0_0_1_n_n none lhs rhs (ix2 p q)).trans ?_
  rw [← Equiv.sum_comp (contrEquiv1 dot_S2000x512_S512x256_S2000x256_1_0_0_1_n_n 512 rfl rfl).symm]
  refine Finset.sum_congr rfl fun k _ => ?_
  refine congrArg₂ (· * ·) (congrArg lhs ?_) (congrArg rhs ?_)
  · exact Shape.idx_ext₂ (lhs512_0 _ _)
      ((lhs512_1 _ _).trans (contrEquiv1_symm_val dot_S2000x512_S512x256_S2000x256_1_0_0_1_n_n 512 rfl rfl k))
  · exact Shape.idx_ext₂
      ((rhs512_0 _ _).trans (contrEquiv1_symm_val dot_S2000x512_S512x256_S2000x256_1_0_0_1_n_n 512 rfl rfl k)) (rhs512_1 _ _)

/-- The product of the two operands, each first narrowed (narrowing changes nothing here), plus the spread bias row:
    at `(p, q)` it is the affine map's entry. -/
theorem lin512_apply (x0 : Vec Ideal S2000x512 .f32) (x1 : Vec Ideal S512x256 .f32) (x2 : Vec Ideal S1x256 .f32)
    (p : Fin 2000) (q : Fin 256) :
    addf (matmul dot_S2000x512_S512x256_S2000x256_1_0_0_1_n_n none (truncf .bf16 x0 bitsLt_bf16_f32) (truncf .bf16 x1 bitsLt_bf16_f32)
          (constant (F := Ideal) S2000x256 .f32 0x00000000#32))
        (broadcastTo S2000x256 x2 broadcasts_S1x256_S2000x256) (ix2 p q)
      = Hetero.lin 2000 512 256 x0 x1 (Hetero.row0 x2) (ix2 p q) := by
  refine (congrArg₂ (· + ·) (mm512 _ _ p q) (bias_apply x2 p q)).trans ?_
  rfl

/-! ### The 128-deep product: which entries of its operands a term reads -/

theorem lhs128_0 (j : S2000x256.Idx) (k : dot_S2000x128_S128x256_S2000x256_1_0_0_1_n_n.contr.Idx) :
    (dot_S2000x128_S128x256_S2000x256_1_0_0_1_n_n.lhsIdx j k 0 : ℕ) = j 0 := by
  simp [DotDims.lhsIdx, dot_S2000x128_S128x256_S2000x256_1_0_0_1_n_n]; rfl
theorem lhs128_1 (j : S2000x256.Idx) (k : dot_S2000x128_S128x256_S2000x256_1_0_0_1_n_n.contr.Idx) :
    (dot_S2000x128_S128x256_S2000x256_1_0_0_1_n_n.lhsIdx j k 1 : ℕ) = k ⟨0, by decide⟩ := by
  simp [DotDims.lhsIdx, dot_S2000x128_S128x256_S2000x256_1_0_0_1_n_n]; rfl
theorem rhs128_0 (j : S2000x256.Idx) (k : dot_S2000x128_S128x256_S2000x256_1_0_0_1_n_n.contr.Idx) :
    (dot_S2000x128_S128x256_S2000x256_1_0_0_1_n_n.rhsIdx j k 0 : ℕ) = k ⟨0, by decide⟩ := by
  simp [DotDims.rhsIdx, dot_S2000x128_S128x256_S2000x256_1_0_0_1_n_n]; rfl
theorem rhs128_1 (j : S2000x256.Idx) (k : dot_S2000x128_S128x256_S2000x256_1_0_0_1_n_n.contr.Idx) :
    (dot_S2000x128_S128x256_S2000x256_1_0_0_1_n_n.rhsIdx j k 1 : ℕ) = j 1 := by
  simp [DotDims.rhsIdx, dot_S2000x128_S128x256_S2000x256_1_0_0_1_n_n]; rfl

/-- Entry `(p, q)` of the product from the zero table is row `p` of the left operand against column `q` of the right
    one, the contracted index running over `Fin 128`. -/
theorem mm128 (lhs : FVec Ideal S2000x128 .bf16) (rhs : FVec Ideal S128x256 .bf16) (p : Fin 2000) (q : Fin 256) :
    matmul dot_S2000x128_S128x256_S2000x256_1_0_0_1_n_n none lhs rhs (constant (F := Ideal) S2000x256 .f32 0x00000000#32) (ix2 p q)
      = ∑ k : Fin 128, lhs (ix2 p k) * rhs (ix2 k q) := by
  refine (Ideal.matmul_constant_zero_apply dot_S2000x128_S128x256_S2000x256_1_0_0_1_n_n none lhs rhs (ix2 p q)).trans ?_
  rw [← Equiv.sum_comp (contrEquiv1 dot_S2000x128_S128x256_S2000x256_1_0_0_1_n_n 128 rfl rfl).symm]
  refine Finset.sum_congr rfl fun k _ => ?_
  refine congrArg₂ (· * ·) (congrArg lhs ?_) (congrArg rhs ?_)
  · exact Shape.idx_ext₂ (lhs128_0 _ _)
      ((lhs128_1 _ _).trans (contrEquiv1_symm_val dot_S2000x128_S128x256_S2000x256_1_0_0_1_n_n 128 rfl rfl k))
  · exact Shape.idx_ext₂
      ((rhs128_0 _ _).trans (contrEquiv1_symm_val dot_S2000x128_S128x256_S2000x256_1_0_0_1_n_n 128 rfl rfl k)) (rhs128_1 _ _)

/-- The product of the two operands, each first narrowed (narrowing changes nothing here), plus the spread bias row:
    at `(p, q)` it is the affine map's entry. -/
theorem lin128_apply (x0 : Vec Ideal S2000x128 .f32) (x1 : Vec Ideal S128x256 .f32) (x2 : Vec Ideal S1x256 .f32)
    (p : Fin 2000) (q : Fin 256) :
    addf (matmul dot_S2000x128_S128x256_S2000x256_1_0_0_1_n_n none (truncf .bf16 x0 bitsLt_bf16_f32) (truncf .bf16 x1 bitsLt_bf16_f32)
          (constant (F := Ideal) S2000x256 .f32 0x00000000#32))
        (broadcastTo S2000x256 x2 broadcasts_S1x256_S2000x256) (ix2 p q)
      = Hetero.lin 2000 128 256 x0 x1 (Hetero.row0 x2) (ix2 p q) := by
  refine (congrArg₂ (· + ·) (mm128 _ _ p q) (bias_apply x2 p q)).trans ?_
  rfl

/-! ### The 256-deep product: which entries of its operands a term reads -/

theorem lhs256_0 (j : S2000x256.Idx) (k : dot_S2000x256_S256x256_S2000x256_1_0_0_1_n_n.contr.Idx) :
    (dot_S2000x256_S256x256_S2000x256_1_0_0_1_n_n.lhsIdx j k 0 : ℕ) = j 0 := by
  simp [DotDims.lhsIdx, dot_S2000x256_S256x256_S2000x256_1_0_0_1_n_n]; rfl
theorem lhs256_1 (j : S2000x256.Idx) (k : dot_S2000x256_S256x256_S2000x256_1_0_0_1_n_n.contr.Idx) :
    (dot_S2000x256_S256x256_S2000x256_1_0_0_1_n_n.lhsIdx j k 1 : ℕ) = k ⟨0, by decide⟩ := by
  simp [DotDims.lhsIdx, dot_S2000x256_S256x256_S2000x256_1_0_0_1_n_n]; rfl
theorem rhs256_0 (j : S2000x256.Idx) (k : dot_S2000x256_S256x256_S2000x256_1_0_0_1_n_n.contr.Idx) :
    (dot_S2000x256_S256x256_S2000x256_1_0_0_1_n_n.rhsIdx j k 0 : ℕ) = k ⟨0, by decide⟩ := by
  simp [DotDims.rhsIdx, dot_S2000x256_S256x256_S2000x256_1_0_0_1_n_n]; rfl
theorem rhs256_1 (j : S2000x256.Idx) (k : dot_S2000x256_S256x256_S2000x256_1_0_0_1_n_n.contr.Idx) :
    (dot_S2000x256_S256x256_S2000x256_1_0_0_1_n_n.rhsIdx j k 1 : ℕ) = j 1 := by
  simp [DotDims.rhsIdx, dot_S2000x256_S256x256_S2000x256_1_0_0_1_n_n]; rfl

/-- Entry `(p, q)` of the product from the zero table is row `p` of the left operand against column `q` of the right
    one, the contracted index running over `Fin 256`. -/
theorem mm256 (lhs : FVec Ideal S2000x256 .bf16) (rhs : FVec Ideal S256x256 .bf16) (p : Fin 2000) (q : Fin 256) :
    matmul dot_S2000x256_S256x256_S2000x256_1_0_0_1_n_n none lhs rhs (constant (F := Ideal) S2000x256 .f32 0x00000000#32) (ix2 p q)
      = ∑ k : Fin 256, lhs (ix2 p k) * rhs (ix2 k q) := by
  refine (Ideal.matmul_constant_zero_apply dot_S2000x256_S256x256_S2000x256_1_0_0_1_n_n none lhs rhs (ix2 p q)).trans ?_
  rw [← Equiv.sum_comp (contrEquiv1 dot_S2000x256_S256x256_S2000x256_1_0_0_1_n_n 256 rfl rfl).symm]
  refine Finset.sum_congr rfl fun k _ => ?_
  refine congrArg₂ (· * ·) (congrArg lhs ?_) (congrArg rhs ?_)
  · exact Shape.idx_ext₂ (lhs256_0 _ _)
      ((lhs256_1 _ _).trans (contrEquiv1_symm_val dot_S2000x256_S256x256_S2000x256_1_0_0_1_n_n 256 rfl rfl k))
  · exact Shape.idx_ext₂
      ((rhs256_0 _ _).trans (contrEquiv1_symm_val dot_S2000x256_S256x256_S2000x256_1_0_0_1_n_n 256 rfl rfl k)) (rhs256_1 _ _)

/-- The product of the two operands, each first narrowed (narrowing changes nothing here), plus the spread bias row:
    at `(p, q)` it is the affine map's entry. -/
theorem lin256_apply (x0 : Vec Ideal S2000x256 .f32) (x1 : Vec Ideal S256x256 .f32) (x2 : Vec Ideal S1x256 .f32)
    (p : Fin 2000) (q : Fin 256) :
    addf (matmul dot_S2000x256_S256x256_S2000x256_1_0_0_1_n_n none (truncf .bf16 x0 bitsLt_bf16_f32) (truncf .bf16 x1 bitsLt_bf16_f32)
          (constant (F := Ideal) S2000x256 .f32 0x00000000#32))
        (broadcastTo S2000x256 x2 broadcasts_S1x256_S2000x256) (ix2 p q)
      = Hetero.lin 2000 256 256 x0 x1 (Hetero.row0 x2) (ix2 p q) := by
  refine (congrArg₂ (· + ·) (mm256 _ _ p q) (bias_apply x2 p q)).trans ?_
  rfl

/-! ### The ten bodies -/

/-- The first body stores the affine map of its 512-column block: the block against the weights, plus the bias row. -/
theorem pay0 (x0 : Vec Ideal S2000x512 .f32) (x1 : Vec Ideal S512x256 .f32) (x2 : Vec Ideal S1x256 .f32) :
    k0_pay1 (F := Ideal) x0 x1 x2 = Hetero.lin 2000 512 256 x0 x1 (Hetero.row0 x2) := by
  funext i
  obtain ⟨p, q, rfl⟩ : ∃ (p : Fin 2000) (q : Fin 256), i = ix2 p q := ⟨i 0, i 1, eq_ix2 i⟩
  unfold k0_pay1
  simp only [shapeCast_self]
  exact lin512_apply x0 x1 x2 p q

/-- The second body stores the exponential linear unit of the affine map of its 128-column block. -/
theorem pay1 (x0 : Vec Ideal S2000x128 .f32) (x1 : Vec Ideal S128x256 .f32) (x2 : Vec Ideal S1x256 .f32) :
    k1_pay1 (F := Ideal) x0 x1 x2 = Hetero.elu (Hetero.lin 2000 128 256 x0 x1 (Hetero.row0 x2)) := by
  funext i
  obtain ⟨p, q, rfl⟩ : ∃ (p : Fin 2000) (q : Fin 256), i = ix2 p q := ⟨i 0, i 1, eq_ix2 i⟩
  unfold k1_pay1
  simp only [shapeCast_self]
  exact (elu_apply _ (ix2 p q)).trans (congrArg Hetero.eluR (lin128_apply x0 x1 x2 p q))

/-- The third body stores the affine map of its 128-column block. -/
theorem pay2 (x0 : Vec Ideal S2000x128 .f32) (x1 : Vec Ideal S128x256 .f32) (x2 : Vec Ideal S1x256 .f32) :
    k2_pay1 (F := Ideal) x0 x1 x2 = Hetero.lin 2000 128 256 x0 x1 (Hetero.row0 x2) := by
  funext i
  obtain ⟨p, q, rfl⟩ : ∃ (p : Fin 2000) (q : Fin 256), i = ix2 p q := ⟨i 0, i 1, eq_ix2 i⟩
  unfold k2_pay1
  simp only [shapeCast_self]
  exact lin128_apply x0 x1 x2 p q

/-- The fourth body stores the affine map of its 512-column block. -/
theorem pay3 (x0 : Vec Ideal S2000x512 .f32) (x1 : Vec Ideal S512x256 .f32) (x2 : Vec Ideal S1x256 .f32) :
    k3_pay1 (F := Ideal) x0 x1 x2 = Hetero.lin 2000 512 256 x0 x1 (Hetero.row0 x2) := by
  funext i
  obtain ⟨p, q, rfl⟩ : ∃ (p : Fin 2000) (q : Fin 256), i = ix2 p q := ⟨i 0, i 1, eq_ix2 i⟩
  unfold k3_pay1
  simp only [shapeCast_self]
  exact lin512_apply x0 x1 x2 p q

/-- The fifth body stores the exponential linear unit of the sum of its three blocks. -/
theorem pay4 (x0 : Vec Ideal S2000x256 .f32) (x1 : Vec Ideal S2000x256 .f32) (x2 : Vec Ideal S2000x256 .f32) :
    k4_pay1 (F := Ideal) x0 x1 x2 = Hetero.elu (Hetero.add3 x0 x1 x2) := by
  funext i
  unfold k4_pay1
  simp only [shapeCast_self]
  exact elu_apply _ i

/-- The sixth body stores the affine map of its 256-column block. -/
theorem pay5 (x0 : Vec Ideal S2000x256 .f32) (x1 : Vec Ideal S256x256 .f32) (x2 : Vec Ideal S1x256 .f32) :
    k5_pay1 (F := Ideal) x0 x1 x2 = Hetero.lin 2000 256 256 x0 x1 (Hetero.row0 x2) := by
  funext i
  obtain ⟨p, q, rfl⟩ : ∃ (p : Fin 2000) (q : Fin 256), i = ix2 p q := ⟨i 0, i 1, eq_ix2 i⟩
  unfold k5_pay1
  simp only [shapeCast_self]
  exact lin256_apply x0 x1 x2 p q

/-- The seventh body stores the affine map of its 256-column block. -/
theorem pay6 (x0 : Vec Ideal S2000x256 .f32) (x1 : Vec Ideal S256x256 .f32) (x2 : Vec Ideal S1x256 .f32) :
    k6_pay1 (F := Ideal) x0 x1 x2 = Hetero.lin 2000 256 256 x0 x1 (Hetero.row0 x2) := by
  funext i
  obtain ⟨p, q, rfl⟩ : ∃ (p : Fin 2000) (q : Fin 256), i = ix2 p q := ⟨i 0, i 1, eq_ix2 i⟩
  unfold k6_pay1
  simp only [shapeCast_self]
  exact lin256_apply x0 x1 x2 p q

/-- The eighth body stores the affine map of its 256-column block. -/
theorem pay7 (x0 : Vec Ideal S2000x256 .f32) (x1 : Vec Ideal S256x256 .f32) (x2 : Vec Ideal S1x256 .f32) :
    k7_pay1 (F := Ideal) x0 x1 x2 = Hetero.lin 2000 256 256 x0 x1 (Hetero.row0 x2) := by
  funext i
  obtain ⟨p, q, rfl⟩ : ∃ (p : Fin 2000) (q : Fin 256), i = ix2 p q := ⟨i 0, i 1, eq_ix2 i⟩
  unfold k7_pay1
  simp only [shapeCast_self]
  exact lin256_apply x0 x1 x2 p q

/-- The ninth body stores the affine map of its 256-column block. -/
theorem pay8 (x0 : Vec Ideal S2000x256 .f32) (x1 : Vec Ideal S256x256 .f32) (x2 : Vec Ideal S1x256 .f32) :
    k8_pay1 (F := Ideal) x0 x1 x2 = Hetero.lin 2000 256 256 x0 x1 (Hetero.row0 x2) := by
  funext i
  obtain ⟨p, q, rfl⟩ : ∃ (p : Fin 2000) (q : Fin 256), i = ix2 p q := ⟨i 0, i 1, eq_ix2 i⟩
  unfold k8_pay1
  simp only [shapeCast_self]
  exact lin256_apply x0 x1 x2 p q

/-- The tenth body stores the sum of its three blocks. -/
theorem pay9 (x0 : Vec Ideal S2000x256 .f32) (x1 : Vec Ideal S2000x256 .f32) (x2 : Vec Ideal S2000x256 .f32) :
    k9_pay1 (F := Ideal) x0 x1 x2 = Hetero.add3 x0 x1 x2 := by
  funext i
  unfold k9_pay1
  simp only [shapeCast_self]
  rfl

end Cert.KernelIdeal.Pay

end
-- ==== Proof.KRegion0.lean ====
/-
  Region 0: the array its output window leaves after the last grid point, as one function of the three arrays its input windows read.
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- An entry of the affine map depends only on one row of the table, one column of the weight and one entry of the bias. -/
theorem lin_entry_congr0 {M M' K N : Nat} (x : Vec Ideal ⟨2, ![M, K]⟩ .f32) (x' : Vec Ideal ⟨2, ![M', K]⟩ .f32)
    (w w' : Vec Ideal ⟨2, ![K, N]⟩ .f32) (b b' : Fin N → EReal) (p : Fin M) (p' : Fin M') (q : Fin N)
    (hx : ∀ k : Fin K, x (ix2 p k) = x' (ix2 p' k)) (hw : ∀ k : Fin K, w (ix2 k q) = w' (ix2 k q)) (hb : b q = b' q) :
    Hetero.lin M K N x w b (ix2 p q) = Hetero.lin M' K N x' w' b' (ix2 p' q) := by
  show (∑ k : Fin K, x (ix2 p k) * w (ix2 k q)) + b q = (∑ k : Fin K, x' (ix2 p' k) * w' (ix2 k q)) + b' q
  rw [hb]
  exact congrArg (· + b' q) (Finset.sum_congr rfl fun k _ => by rw [hx k, hw k])

/-- The offsets of a store or load of a whole block are zero on both axes. -/
theorem zero_offsets0 : (![0, 0] : Fin 2 → Nat) = fun _ => 0 := funext fun a => by fin_cases a <;> rfl

/-- The index maps over the grid: the table's window and the output window sit at row block `t`, column block 0;
    the weight's and the bias's windows are their whole arrays at every point. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the table's block at point `t` is row `2000 t + p` of the table. -/
theorem table_block0 (V : (c : Dev nD) → (b : Ref sig .tc) → Buf (Elt Ideal) ((c : Thread nD τ).loc b)) (c : Dev nD)
    (t : Fin cfg0.N) (p : Fin 2000) (k : Fin 512) (r : Fin 100000) (hr : r.val = 2000 * t.val + p.val) :
    (iblk0 (F := Ideal) V c 0 t : Vec Ideal S2000x512 .f32) (ix2 p k) = (V c main_arg0 : Vec Ideal S100000x512 .f32) (ix2 r k) := by
  obtain ⟨e0, e1, -⟩ := index_facts0 t
  show V c main_arg0 (((cfg0.win 0).blk t).view.emb (ix2 p k)) = V c main_arg0 (ix2 r k)
  refine congrArg _ ?_
  funext a; apply Fin.ext
  match a with
  | ⟨0, _⟩ => show win0_0.index t (0 : Fin 2) * 2000 + 1 * p.val = r.val; omega
  | ⟨1, _⟩ => show win0_0.index t (1 : Fin 2) * 512 + 1 * k.val = k.val; omega

/-- The weight's block at any point is the weight. -/
theorem weight_block0 (V : (c : Dev nD) → (b : Ref sig .tc) → Buf (Elt Ideal) ((c : Thread nD τ).loc b)) (c : Dev nD)
    (t : Fin cfg0.N) (k : Fin 512) (q : Fin 256) :
    (iblk0 (F := Ideal) V c 1 t : Vec Ideal S512x256 .f32) (ix2 k q) = (V c main_arg8 : Vec Ideal S512x256 .f32) (ix2 k q) := by
  obtain ⟨-, -, e0, e1, -⟩ := index_facts0 t
  show V c main_arg8 (((cfg0.win 1).blk t).view.emb (ix2 k q)) = V c main_arg8 (ix2 k q)
  refine congrArg _ ?_
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- The bias's block at any point is the bias row. -/
theorem bias_block0 (V : (c : Dev nD) → (b : Ref sig .tc) → Buf (Elt Ideal) ((c : Thread nD τ).loc b)) (c : Dev nD)
    (t : Fin cfg0.N) (z : Fin 1) (q : Fin 256) :
    (iblk0 (F := Ideal) V c 2 t : Vec Ideal S1x256 .f32) (ix2 z q) = (V c main_v0 : Vec Ideal S1x256 .f32) (ix2 z q) := by
  obtain ⟨-, -, -, -, e0, e1, -⟩ := index_facts0 t
  show V c main_v0 (((cfg0.win 2).blk t).view.emb (ix2 z q)) = V c main_v0 (ix2 z q)
  refine congrArg _ ?_
  funext a; apply Fin.ext
  match a with
  | ⟨0, _⟩ => show win0_2.index t (0 : Fin 2) * 1 + 1 * z.val = z.val; omega
  | ⟨1, _⟩ => show win0_2.index t (1 : Fin 2) * 256 + 1 * q.val = q.val; omega

/-- What point `t` writes back: the block at `t` of the affine map of the whole table. -/
theorem flushed_block0 (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal)
      (Hetero.lin 100000 512 256 (V c main_arg0) (V c main_arg8) (Hetero.row0 (V c main_v0))) := by
  show (cfg0.win 3).cut (grid0.coords t) ((dat0 (F := Ideal) V c).after 3 t) = _
  rw [after0_3]
  unfold out0_3
  rw [View.canon_unit_zero zero_offsets0]
  simp only [View.ld_unit_zero (S := S2000x512) zero_offsets0, View.ld_unit_zero (S := S512x256) zero_offsets0,
    View.ld_unit_zero (S := S1x256) zero_offsets0]
  obtain ⟨-, -, -, -, -, -, e0, e1⟩ := index_facts0 t
  have ht : t.val < 50 := lt_of_lt_of_eq t.isLt N_0
  funext j
  obtain ⟨p, q, rfl⟩ : ∃ (p : Fin 2000) (q : Fin 256), j = ix2 p q := ⟨j 0, j 1, eq_ix2 j⟩
  refine (congrFun (Pay.pay0 (iblk0 (F := Ideal) V c 0 t) (iblk0 (F := Ideal) V c 1 t) (iblk0 (F := Ideal) V c 2 t)) (ix2 p q)).trans ?_
  have hi : ((cfg0.win 3).blk t).view.emb (ix2 p q) = (ix2 (⟨2000 * t.val + p.val, by omega⟩ : Fin 100000) q : S100000x256.Idx) := by
    funext a; apply Fin.ext
    match a with
    | ⟨0, _⟩ => show win0_3.index t (0 : Fin 2) * 2000 + 1 * p.val = 2000 * t.val + p.val; omega
    | ⟨1, _⟩ => show win0_3.index t (1 : Fin 2) * 256 + 1 * q.val = q.val; omega
  refine Eq.trans ?_ (congrArg (Hetero.lin 100000 512 256 (V c main_arg0) (V c main_arg8) (Hetero.row0 (V c main_v0))) hi).symm
  exact lin_entry_congr0 _ _ _ _ _ _ p _ q (fun k => table_block0 V c t p k _ rfl) (fun k => weight_block0 V c t k q)
    (bias_block0 V c t 0 q)

/-- An index of the output array lies in point `t`'s block iff, on each axis, it lies in the block's range. -/
theorem mem_block0 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v1).slice (win0_3.rect t)).set ↔ _
  rw [View.set_slice_whole, Rect.mem_set_unit]
  exact Iff.rfl

/-- Every row of the output lies in the block of the point `row / 2000`, and every point writes back. -/
theorem cover0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  obtain ⟨-, -, -, -, -, -, e0, e1⟩ := index_facts0 t
  have ht : t.val = (i 0).val / 2000 := rfl
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

theorem region0_value (V : (c : Dev nD) → (b : Ref sig .tc) → Buf (Elt Ideal) ((c : Thread nD τ).loc b)) (c : Dev nD) :
    (dat0 (F := Ideal) V c).arrAt 3 cfg0.N = Hetero.lin 100000 512 256 (V c main_arg0) (V c main_arg8) (Hetero.row0 (V c main_v0)) :=
  (dat0 (F := Ideal) V c).arrAt_eq_of_cover 3 _ (fun t _ => flushed_block0 V c t) cover0

end Cert.KernelIdeal.Region

end
-- ==== Proof.KRegion1.lean ====
/-
  Region 1: the array its output window leaves after the last grid point, as one function of the three arrays its input windows read.
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The two zero offsets of a whole-block access, as the constant function. -/
theorem zero_offsets1 : (![0, 0] : Fin 2 → Nat) = fun _ => 0 := funext fun a => by fin_cases a <;> rfl

/-- Where each window's block sits at grid point `t`: the input table's and the result's blocks are block `t` of
    the rows, all columns; the weight's and the bias row's blocks are the whole of their arrays at every point. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The activated affine map of a block of 2000 consecutive rows is those rows of the activated affine map of the whole
    table: the activation acts entry by entry, and entry `(p, q)` of the block's affine map is entry `(2000 n + p, q)`
    of the table's, when the block holds rows `2000 n … 2000 n + 1999` of the table and the weight and the bias are the
    same. -/
theorem elu_lin_rows1 (X : Vec Ideal S20000x128 .f32) (W : Vec Ideal S128x256 .f32) (B : Vec Ideal S1x256 .f32)
    (x0 : Vec Ideal S2000x128 .f32) (x1 : Vec Ideal S128x256 .f32) (x2 : Vec Ideal S1x256 .f32) (n : Nat)
    (h0 : ∀ (p : Fin 2000) (k : Fin 128) (r : Fin 20000), r.val = n * 2000 + p.val → x0 (ix2 p k) = X (ix2 r k))
    (h1 : x1 = W) (h2 : x2 = B)
    (p : Fin 2000) (q : Fin 256) (r : Fin 20000) (hr : r.val = n * 2000 + p.val) :
    Hetero.elu (Hetero.lin 2000 128 256 x0 x1 (Hetero.row0 x2)) (ix2 p q)
      = Hetero.elu (Hetero.lin 20000 128 256 X W (Hetero.row0 B)) (ix2 r q) := by
  subst h1 h2
  show Hetero.eluR ((∑ k : Fin 128, x0 (ix2 p k) * x1 (ix2 k q)) + x2 (ix2 0 q))
    = Hetero.eluR ((∑ k : Fin 128, X (ix2 r k) * x1 (ix2 k q)) + x2 (ix2 0 q))
  congr 2
  exact Finset.sum_congr rfl fun k _ => by rw [h0 p k r hr]

section Blocks
variable (V : (c : Dev nD) → (b : Ref sig .tc) → Buf (Elt Ideal) ((c : Thread nD τ).loc b))

/-- The input table's block at point `t` holds rows `2000 t … 2000 t + 1999` of the table. -/
theorem rows_block1 (c : Dev nD) (t : Fin cfg1.N) (p : Fin 2000) (k : Fin 128) (r : Fin 20000)
    (hr : r.val = t.val * 2000 + p.val) :
    (iblk1 V c 0 t : Vec Ideal S2000x128 .f32) (ix2 p k) = (V c main_arg1 : Vec Ideal S20000x128 .f32) (ix2 r k) := by
  obtain ⟨e0, e1, -⟩ := index_facts1 t
  show V c main_arg1 (((cfg1.win 0).blk t).view.emb (ix2 p k)) = V c main_arg1 (ix2 r k)
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The weight's block at every point is the whole weight. -/
theorem weight_block1 (c : Dev nD) (t : Fin cfg1.N) :
    (iblk1 V c 1 t : Vec Ideal S128x256 .f32) = (V c main_arg10 : Vec Ideal S128x256 .f32) := by
  obtain ⟨-, -, e2, e3, -⟩ := index_facts1 t
  funext y
  show V c main_arg10 (((cfg1.win 1).blk t).view.emb y) = V c main_arg10 y
  refine congrArg _ (funext fun a => Fin.ext ?_)
  match a with
  | ⟨0, _⟩ => show win1_1.index t (0 : Fin 2) * 128 + 1 * (y 0).val = (y 0).val; rw [e2]; omega
  | ⟨1, _⟩ => show win1_1.index t (1 : Fin 2) * 256 + 1 * (y 1).val = (y 1).val; rw [e3]; omega

/-- The bias row's block at every point is the whole row. -/
theorem bias_block1 (c : Dev nD) (t : Fin cfg1.N) :
    (iblk1 V c 2 t : Vec Ideal S1x256 .f32) = (V c main_v2 : Vec Ideal S1x256 .f32) := by
  obtain ⟨-, -, -, -, e4, e5, -⟩ := index_facts1 t
  funext y
  show V c main_v2 (((cfg1.win 2).blk t).view.emb y) = V c main_v2 y
  refine congrArg _ (funext fun a => Fin.ext ?_)
  match a with
  | ⟨0, _⟩ => show win1_2.index t (0 : Fin 2) * 1 + 1 * (y 0).val = (y 0).val; rw [e4]; omega
  | ⟨1, _⟩ => show win1_2.index t (1 : Fin 2) * 256 + 1 * (y 1).val = (y 1).val; rw [e5]; omega

end Blocks

section Array
variable (V : (c : Dev nD) → (b : Ref sig .tc) → Buf (Elt Ideal) ((c : Thread nD τ).loc b))

/-- What grid point `t` writes back is block `t` of the activated affine map of the whole table: the body stores the
    activated affine map of its three blocks, and the blocks are rows `2000 t …` of the table, the whole weight and the
    whole bias row. -/
theorem flushed1_eq (c : Dev nD) (t : Fin cfg1.N) :
    (dat1 (F := Ideal) V c).flushed 3 t
      = ((cfg1.win 3).blk t).view.read (Elt Ideal)
          (Hetero.elu (Hetero.lin 20000 128 256 (V c main_arg1) (V c main_arg10) (Hetero.row0 (V c main_v2)))) := by
  show (cfg1.win 3).cut (grid1.coords t) ((dat1 V c).after 3 t) = _
  rw [after1_3]
  unfold out1_3
  rw [View.canon_unit_zero zero_offsets1]
  simp only [View.ld_unit_zero (S := S2000x128) zero_offsets1, View.ld_unit_zero (S := S128x256) zero_offsets1,
    View.ld_unit_zero (S := S1x256) zero_offsets1]
  rw [Pay.pay1]
  obtain ⟨-, -, -, -, -, -, e6, e7⟩ := index_facts1 t
  have hN : t.val < 10 := lt_of_lt_of_eq t.isLt N_1
  funext j
  have hj0 : (j 0).val < 2000 := (j 0).isLt
  show Hetero.elu (Hetero.lin 2000 128 256 (iblk1 V c 0 t) (iblk1 V c 1 t) (Hetero.row0 (iblk1 V c 2 t))) j
    = Hetero.elu (Hetero.lin 20000 128 256 (V c main_arg1) (V c main_arg10) (Hetero.row0 (V c main_v2)))
        (((cfg1.win 3).blk t).view.emb j)
  have hemb : ((cfg1.win 3).blk t).view.emb j
      = (ix2 (⟨t.val * 2000 + (j 0).val, by omega⟩ : Fin 20000) (j 1) : S20000x256.Idx) := by
    funext a; apply Fin.ext
    match a with
    | ⟨0, _⟩ => show win1_3.index t (0 : Fin 2) * 2000 + 1 * (j 0).val = t.val * 2000 + (j 0).val; rw [e6]; omega
    | ⟨1, _⟩ => show win1_3.index t (1 : Fin 2) * 256 + 1 * (j 1).val = (j 1).val; rw [e7]; omega
  rw [hemb]
  refine (congrArg _ (eq_ix2 j)).trans ?_
  exact elu_lin_rows1 (V c main_arg1) (V c main_arg10) (V c main_v2) (iblk1 V c 0 t) (iblk1 V c 1 t) (iblk1 V c 2 t) t.val
    (fun p k r hr => rows_block1 V c t p k r hr) (weight_block1 V c t) (bias_block1 V c t) (j 0) (j 1) _ rfl

/-- An entry of the result is in point `t`'s block iff each of its coordinates is in the block's range on its axis. -/
theorem mem_block1 (t : Fin cfg1.N) (i : S20000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v3).slice (win1_3.rect t)).set ↔ _
  rw [View.set_slice_whole, Rect.mem_set_unit]
  exact Iff.rfl

/-- Every entry of the result is in some point's block: row `r` is in the block of point `r / 2000`. -/
theorem cover1 (i : S20000x256.Idx) :
    ∃ t : Fin cfg1.N, (cfg1.win 3).flush t = true ∧ i ∈ ((cfg1.win 3).blk t).view.set := by
  have hi0 : (i 0).val < 20000 := (i 0).isLt
  have hi1 : (i 1).val < 256 := (i 1).isLt
  have ht : (i 0).val / 2000 < cfg1.N := lt_of_lt_of_eq (by omega : (i 0).val / 2000 < 10) N_1.symm
  refine ⟨⟨(i 0).val / 2000, ht⟩, flush1_3 _, ?_⟩
  obtain ⟨-, -, -, -, -, -, e6, e7⟩ := index_facts1 ⟨(i 0).val / 2000, ht⟩
  rw [mem_block1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val
      ∧ (i 1).val < win1_3.index ⟨(i 0).val / 2000, ht⟩ (1 : Fin 2) * 256 + 256
    rw [e7]; omega

end Array

/-- The result array after the last grid point is the activated affine map of the whole table: every point writes its
    block of that one function, and the blocks cover the array. -/
theorem region1_value (V : (c : Dev nD) → (b : Ref sig .tc) → Buf (Elt Ideal) ((c : Thread nD τ).loc b)) (c : Dev nD) :
    (dat1 (F := Ideal) V c).arrAt 3 cfg1.N = Hetero.elu (Hetero.lin 20000 128 256 (V c main_arg1) (V c main_arg10) (Hetero.row0 (V c main_v2))) :=
  (dat1 (F := Ideal) V c).arrAt_eq_of_cover 3 _ (fun t _ => flushed1_eq V c t) cover1

end Cert.KernelIdeal.Region

end
-- ==== Proof.KRegion2.lean ====
/-
  Region 2: the array its output window leaves after the last grid point, as one function of the three arrays its input windows read.
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The two zero offsets of a whole-block access, as the constant function. -/
theorem zero_offsets2 : (![0, 0] : Fin 2 → Nat) = fun _ => 0 := funext fun a => by fin_cases a <;> rfl

/-- Where each window's block sits at grid point `t`: the input table's and the result's blocks are block `t` of
    the rows, all columns; the weight's and the bias row's blocks are the whole of their arrays at every point. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The affine map of a block of 2000 consecutive rows is those rows of the affine map of the whole table: entry
    `(p, q)` of the block's map is entry `(2000 n + p, q)` of the table's, when the block holds rows
    `2000 n … 2000 n + 1999` of the table and the weight and the bias are the same. -/
theorem lin_rows2 (X : Vec Ideal S20000x128 .f32) (W : Vec Ideal S128x256 .f32) (B : Vec Ideal S1x256 .f32)
    (x0 : Vec Ideal S2000x128 .f32) (x1 : Vec Ideal S128x256 .f32) (x2 : Vec Ideal S1x256 .f32) (n : Nat)
    (h0 : ∀ (p : Fin 2000) (k : Fin 128) (r : Fin 20000), r.val = n * 2000 + p.val → x0 (ix2 p k) = X (ix2 r k))
    (h1 : x1 = W) (h2 : x2 = B)
    (p : Fin 2000) (q : Fin 256) (r : Fin 20000) (hr : r.val = n * 2000 + p.val) :
    Hetero.lin 2000 128 256 x0 x1 (Hetero.row0 x2) (ix2 p q)
      = Hetero.lin 20000 128 256 X W (Hetero.row0 B) (ix2 r q) := by
  subst h1 h2
  show (∑ k : Fin 128, x0 (ix2 p k) * x1 (ix2 k q)) + x2 (ix2 0 q)
    = (∑ k : Fin 128, X (ix2 r k) * x1 (ix2 k q)) + x2 (ix2 0 q)
  congr 1
  exact Finset.sum_congr rfl fun k _ => by rw [h0 p k r hr]

section Blocks
variable (V : (c : Dev nD) → (b : Ref sig .tc) → Buf (Elt Ideal) ((c : Thread nD τ).loc b))

/-- The input table's block at point `t` holds rows `2000 t … 2000 t + 1999` of the table. -/
theorem rows_block2 (c : Dev nD) (t : Fin cfg2.N) (p : Fin 2000) (k : Fin 128) (r : Fin 20000)
    (hr : r.val = t.val * 2000 + p.val) :
    (iblk2 V c 0 t : Vec Ideal S2000x128 .f32) (ix2 p k) = (V c main_arg1 : Vec Ideal S20000x128 .f32) (ix2 r k) := by
  obtain ⟨e0, e1, -⟩ := index_facts2 t
  show V c main_arg1 (((cfg2.win 0).blk t).view.emb (ix2 p k)) = V c main_arg1 (ix2 r k)
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weight's block at every point is the whole weight. -/
theorem weight_block2 (c : Dev nD) (t : Fin cfg2.N) :
    (iblk2 V c 1 t : Vec Ideal S128x256 .f32) = (V c main_arg12 : Vec Ideal S128x256 .f32) := by
  obtain ⟨-, -, e2, e3, -⟩ := index_facts2 t
  funext y
  show V c main_arg12 (((cfg2.win 1).blk t).view.emb y) = V c main_arg12 y
  refine congrArg _ (funext fun a => Fin.ext ?_)
  match a with
  | ⟨0, _⟩ => show win2_1.index t (0 : Fin 2) * 128 + 1 * (y 0).val = (y 0).val; rw [e2]; omega
  | ⟨1, _⟩ => show win2_1.index t (1 : Fin 2) * 256 + 1 * (y 1).val = (y 1).val; rw [e3]; omega

/-- The bias row's block at every point is the whole row. -/
theorem bias_block2 (c : Dev nD) (t : Fin cfg2.N) :
    (iblk2 V c 2 t : Vec Ideal S1x256 .f32) = (V c main_v4 : Vec Ideal S1x256 .f32) := by
  obtain ⟨-, -, -, -, e4, e5, -⟩ := index_facts2 t
  funext y
  show V c main_v4 (((cfg2.win 2).blk t).view.emb y) = V c main_v4 y
  refine congrArg _ (funext fun a => Fin.ext ?_)
  match a with
  | ⟨0, _⟩ => show win2_2.index t (0 : Fin 2) * 1 + 1 * (y 0).val = (y 0).val; rw [e4]; omega
  | ⟨1, _⟩ => show win2_2.index t (1 : Fin 2) * 256 + 1 * (y 1).val = (y 1).val; rw [e5]; omega

end Blocks

section Array
variable (V : (c : Dev nD) → (b : Ref sig .tc) → Buf (Elt Ideal) ((c : Thread nD τ).loc b))

/-- What grid point `t` writes back is block `t` of the affine map of the whole table: the body stores the affine
    map of its three blocks, and the blocks are rows `2000 t …` of the table, the whole weight and the whole bias row. -/
theorem flushed2_eq (c : Dev nD) (t : Fin cfg2.N) :
    (dat2 (F := Ideal) V c).flushed 3 t
      = ((cfg2.win 3).blk t).view.read (Elt Ideal)
          (Hetero.lin 20000 128 256 (V c main_arg1) (V c main_arg12) (Hetero.row0 (V c main_v4))) := by
  show (cfg2.win 3).cut (grid2.coords t) ((dat2 V c).after 3 t) = _
  rw [after2_3]
  unfold out2_3
  rw [View.canon_unit_zero zero_offsets2]
  simp only [View.ld_unit_zero (S := S2000x128) zero_offsets2, View.ld_unit_zero (S := S128x256) zero_offsets2,
    View.ld_unit_zero (S := S1x256) zero_offsets2]
  rw [Pay.pay2]
  obtain ⟨-, -, -, -, -, -, e6, e7⟩ := index_facts2 t
  have hN : t.val < 10 := lt_of_lt_of_eq t.isLt N_2
  funext j
  have hj0 : (j 0).val < 2000 := (j 0).isLt
  show Hetero.lin 2000 128 256 (iblk2 V c 0 t) (iblk2 V c 1 t) (Hetero.row0 (iblk2 V c 2 t)) j
    = Hetero.lin 20000 128 256 (V c main_arg1) (V c main_arg12) (Hetero.row0 (V c main_v4)) (((cfg2.win 3).blk t).view.emb j)
  have hemb : ((cfg2.win 3).blk t).view.emb j
      = (ix2 (⟨t.val * 2000 + (j 0).val, by omega⟩ : Fin 20000) (j 1) : S20000x256.Idx) := by
    funext a; apply Fin.ext
    match a with
    | ⟨0, _⟩ => show win2_3.index t (0 : Fin 2) * 2000 + 1 * (j 0).val = t.val * 2000 + (j 0).val; rw [e6]; omega
    | ⟨1, _⟩ => show win2_3.index t (1 : Fin 2) * 256 + 1 * (j 1).val = (j 1).val; rw [e7]; omega
  rw [hemb]
  refine (congrArg _ (eq_ix2 j)).trans ?_
  exact lin_rows2 (V c main_arg1) (V c main_arg12) (V c main_v4) (iblk2 V c 0 t) (iblk2 V c 1 t) (iblk2 V c 2 t) t.val
    (fun p k r hr => rows_block2 V c t p k r hr) (weight_block2 V c t) (bias_block2 V c t) (j 0) (j 1) _ rfl

/-- An entry of the result is in point `t`'s block iff each of its coordinates is in the block's range on its axis. -/
theorem mem_block2 (t : Fin cfg2.N) (i : S20000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v5).slice (win2_3.rect t)).set ↔ _
  rw [View.set_slice_whole, Rect.mem_set_unit]
  exact Iff.rfl

/-- Every entry of the result is in some point's block: row `r` is in the block of point `r / 2000`. -/
theorem cover2 (i : S20000x256.Idx) :
    ∃ t : Fin cfg2.N, (cfg2.win 3).flush t = true ∧ i ∈ ((cfg2.win 3).blk t).view.set := by
  have hi0 : (i 0).val < 20000 := (i 0).isLt
  have hi1 : (i 1).val < 256 := (i 1).isLt
  have ht : (i 0).val / 2000 < cfg2.N := lt_of_lt_of_eq (by omega : (i 0).val / 2000 < 10) N_2.symm
  refine ⟨⟨(i 0).val / 2000, ht⟩, flush2_3 _, ?_⟩
  obtain ⟨-, -, -, -, -, -, e6, e7⟩ := index_facts2 ⟨(i 0).val / 2000, ht⟩
  rw [mem_block2]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, ht⟩ (1 : Fin 2) * 256 ≤ (i 1).val
      ∧ (i 1).val < win2_3.index ⟨(i 0).val / 2000, ht⟩ (1 : Fin 2) * 256 + 256
    rw [e7]; omega

end Array

/-- The result array after the last grid point is the affine map of the whole table: every point writes its block of
    that one function, and the blocks cover the array. -/
theorem region2_value (V : (c : Dev nD) → (b : Ref sig .tc) → Buf (Elt Ideal) ((c : Thread nD τ).loc b)) (c : Dev nD) :
    (dat2 (F := Ideal) V c).arrAt 3 cfg2.N = Hetero.lin 20000 128 256 (V c main_arg1) (V c main_arg12) (Hetero.row0 (V c main_v4)) :=
  (dat2 (F := Ideal) V c).arrAt_eq_of_cover 3 _ (fun t _ => flushed2_eq V c t) cover2

end Cert.KernelIdeal.Region

end
-- ==== Proof.KRegion3.lean ====
/-
  Region 3: the array its output window leaves after the last grid point, as one function of the three arrays its input windows read.
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- An entry of the affine map depends only on one row of the table, one column of the weight and one entry of the bias. -/
theorem lin_entry_congr3 {M M' K N : Nat} (x : Vec Ideal ⟨2, ![M, K]⟩ .f32) (x' : Vec Ideal ⟨2, ![M', K]⟩ .f32)
    (w w' : Vec Ideal ⟨2, ![K, N]⟩ .f32) (b b' : Fin N → EReal) (p : Fin M) (p' : Fin M') (q : Fin N)
    (hx : ∀ k : Fin K, x (ix2 p k) = x' (ix2 p' k)) (hw : ∀ k : Fin K, w (ix2 k q) = w' (ix2 k q)) (hb : b q = b' q) :
    Hetero.lin M K N x w b (ix2 p q) = Hetero.lin M' K N x' w' b' (ix2 p' q) := by
  show (∑ k : Fin K, x (ix2 p k) * w (ix2 k q)) + b q = (∑ k : Fin K, x' (ix2 p' k) * w' (ix2 k q)) + b' q
  rw [hb]
  exact congrArg (· + b' q) (Finset.sum_congr rfl fun k _ => by rw [hx k, hw k])

/-- The offsets of a store or load of a whole block are zero on both axes. -/
theorem zero_offsets3 : (![0, 0] : Fin 2 → Nat) = fun _ => 0 := funext fun a => by fin_cases a <;> rfl

/-- The index maps over the grid: the table's window and the output window sit at row block `t`, column block 0;
    the weight's and the bias's windows are their whole arrays at every point. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the table's block at point `t` is row `2000 t + p` of the table. -/
theorem table_block3 (V : (c : Dev nD) → (b : Ref sig .tc) → Buf (Elt Ideal) ((c : Thread nD τ).loc b)) (c : Dev nD)
    (t : Fin cfg3.N) (p : Fin 2000) (k : Fin 512) (r : Fin 100000) (hr : r.val = 2000 * t.val + p.val) :
    (iblk3 (F := Ideal) V c 0 t : Vec Ideal S2000x512 .f32) (ix2 p k) = (V c main_arg0 : Vec Ideal S100000x512 .f32) (ix2 r k) := by
  obtain ⟨e0, e1, -⟩ := index_facts3 t
  show V c main_arg0 (((cfg3.win 0).blk t).view.emb (ix2 p k)) = V c main_arg0 (ix2 r k)
  refine congrArg _ ?_
  funext a; apply Fin.ext
  match a with
  | ⟨0, _⟩ => show win3_0.index t (0 : Fin 2) * 2000 + 1 * p.val = r.val; omega
  | ⟨1, _⟩ => show win3_0.index t (1 : Fin 2) * 512 + 1 * k.val = k.val; omega

/-- The weight's block at any point is the weight. -/
theorem weight_block3 (V : (c : Dev nD) → (b : Ref sig .tc) → Buf (Elt Ideal) ((c : Thread nD τ).loc b)) (c : Dev nD)
    (t : Fin cfg3.N) (k : Fin 512) (q : Fin 256) :
    (iblk3 (F := Ideal) V c 1 t : Vec Ideal S512x256 .f32) (ix2 k q) = (V c main_arg14 : Vec Ideal S512x256 .f32) (ix2 k q) := by
  obtain ⟨-, -, e0, e1, -⟩ := index_facts3 t
  show V c main_arg14 (((cfg3.win 1).blk t).view.emb (ix2 k q)) = V c main_arg14 (ix2 k q)
  refine congrArg _ ?_
  funext a; apply Fin.ext
  match a with
  | ⟨0, _⟩ => show win3_1.index t (0 : Fin 2) * 512 + 1 * k.val = k.val; omega
  | ⟨1, _⟩ => show win3_1.index t (1 : Fin 2) * 256 + 1 * q.val = q.val; omega

/-- The bias's block at any point is the bias row. -/
theorem bias_block3 (V : (c : Dev nD) → (b : Ref sig .tc) → Buf (Elt Ideal) ((c : Thread nD τ).loc b)) (c : Dev nD)
    (t : Fin cfg3.N) (z : Fin 1) (q : Fin 256) :
    (iblk3 (F := Ideal) V c 2 t : Vec Ideal S1x256 .f32) (ix2 z q) = (V c main_v6 : Vec Ideal S1x256 .f32) (ix2 z q) := by
  obtain ⟨-, -, -, -, e0, e1, -⟩ := index_facts3 t
  show V c main_v6 (((cfg3.win 2).blk t).view.emb (ix2 z q)) = V c main_v6 (ix2 z q)
  refine congrArg _ ?_
  funext a; apply Fin.ext
  match a with
  | ⟨0, _⟩ => show win3_2.index t (0 : Fin 2) * 1 + 1 * z.val = z.val; omega
  | ⟨1, _⟩ => show win3_2.index t (1 : Fin 2) * 256 + 1 * q.val = q.val; omega

/-- What point `t` writes back: the block at `t` of the affine map of the whole table. -/
theorem flushed_block3 (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal)
      (Hetero.lin 100000 512 256 (V c main_arg0) (V c main_arg14) (Hetero.row0 (V c main_v6))) := by
  show (cfg3.win 3).cut (grid3.coords t) ((dat3 (F := Ideal) V c).after 3 t) = _
  rw [after3_3]
  unfold out3_3
  rw [View.canon_unit_zero zero_offsets3]
  simp only [View.ld_unit_zero (S := S2000x512) zero_offsets3, View.ld_unit_zero (S := S512x256) zero_offsets3,
    View.ld_unit_zero (S := S1x256) zero_offsets3]
  obtain ⟨-, -, -, -, -, -, e0, e1⟩ := index_facts3 t
  have ht : t.val < 50 := lt_of_lt_of_eq t.isLt N_3
  funext j
  obtain ⟨p, q, rfl⟩ : ∃ (p : Fin 2000) (q : Fin 256), j = ix2 p q := ⟨j 0, j 1, eq_ix2 j⟩
  refine (congrFun (Pay.pay3 (iblk3 (F := Ideal) V c 0 t) (iblk3 (F := Ideal) V c 1 t) (iblk3 (F := Ideal) V c 2 t)) (ix2 p q)).trans ?_
  have hi : ((cfg3.win 3).blk t).view.emb (ix2 p q) = (ix2 (⟨2000 * t.val + p.val, by omega⟩ : Fin 100000) q : S100000x256.Idx) := by
    funext a; apply Fin.ext
    match a with
    | ⟨0, _⟩ => show win3_3.index t (0 : Fin 2) * 2000 + 1 * p.val = 2000 * t.val + p.val; omega
    | ⟨1, _⟩ => show win3_3.index t (1 : Fin 2) * 256 + 1 * q.val = q.val; omega
  refine Eq.trans ?_ (congrArg (Hetero.lin 100000 512 256 (V c main_arg0) (V c main_arg14) (Hetero.row0 (V c main_v6))) hi).symm
  exact lin_entry_congr3 _ _ _ _ _ _ p _ q (fun k => table_block3 V c t p k _ rfl) (fun k => weight_block3 V c t k q)
    (bias_block3 V c t 0 q)

/-- An index of the output array lies in point `t`'s block iff, on each axis, it lies in the block's range. -/
theorem mem_block3 (t : Fin cfg3.N) (i : S100000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v7).slice (win3_3.rect t)).set ↔ _
  rw [View.set_slice_whole, Rect.mem_set_unit]
  exact Iff.rfl

/-- Every row of the output lies in the block of the point `row / 2000`, and every point writes back. -/
theorem cover3 (i : S100000x256.Idx) :
    ∃ t : Fin cfg3.N, (cfg3.win 3).flush t = true ∧ i ∈ ((cfg3.win 3).blk t).view.set := by
  have hi0 : (i 0).val < 100000 := (i 0).isLt
  have hi1 : (i 1).val < 256 := (i 1).isLt
  have hN : cfg3.N = 50 := N_3
  let t : Fin cfg3.N := ⟨(i 0).val / 2000, by rw [hN]; omega⟩
  obtain ⟨-, -, -, -, -, -, e0, e1⟩ := index_facts3 t
  have ht : t.val = (i 0).val / 2000 := rfl
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

theorem region3_value (V : (c : Dev nD) → (b : Ref sig .tc) → Buf (Elt Ideal) ((c : Thread nD τ).loc b)) (c : Dev nD) :
    (dat3 (F := Ideal) V c).arrAt 3 cfg3.N = Hetero.lin 100000 512 256 (V c main_arg0) (V c main_arg14) (Hetero.row0 (V c main_v6)) :=
  (dat3 (F := Ideal) V c).arrAt_eq_of_cover 3 _ (fun t _ => flushed_block3 V c t) cover3

end Cert.KernelIdeal.Region

end
-- ==== Proof.KRegion4.lean ====
/-
  Region 4: the array its output window leaves after the last grid point, as one function of the three arrays its input windows read.

  The region computes the exponential linear unit of the entrywise sum of three 100000 × 256 tables. The grid is one axis of 50 points; at point `t` each of the
  four windows (three inputs, one output) holds rows `2000·t … 2000·t + 1999` and all 256 columns of its table, so the
  fifty output blocks tile the output table and each entry is written exactly once, with the value the three input tables
  give at the SAME row and column. The steps: the four index maps over the grid (`row_blocks4`); what one point writes
  back is its block of the whole-table function (`flushed4_eq`); the blocks cover every row (`cover4`: row `r` lies
  in block `r / 2000`); hence the table after the last point (`region4_value`).
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The one store and the three loads all start at row 0, column 0 of the 2000 × 256 block. -/
theorem zero_offsets4 : (![0, 0] : Fin 2 → Nat) = fun _ => 0 := funext fun a => by fin_cases a <;> rfl

/-- The four index maps over the 50 grid points: at point `t` every window is at block row `t`, block column 0. -/
theorem row_blocks4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The first summand (the nodes' own affine map), as a 100000 × 256 table of extended reals. -/
abbrev selfTerm4 (V : (c : Dev nD) → (b : Ref sig .tc) → Buf (Elt Ideal) ((c : Thread nD τ).loc b)) (c : Dev nD) : Vec Ideal S100000x256 .f32 := V c main_v1
/-- The second summand (the messages gathered along the first relation), as a 100000 × 256 table. -/
abbrev writesTerm4 (V : (c : Dev nD) → (b : Ref sig .tc) → Buf (Elt Ideal) ((c : Thread nD τ).loc b)) (c : Dev nD) : Vec Ideal S100000x256 .f32 := V c main_v20
/-- The third summand (the messages gathered along the second relation), as a 100000 × 256 table. -/
abbrev citesTerm4 (V : (c : Dev nD) → (b : Ref sig .tc) → Buf (Elt Ideal) ((c : Thread nD τ).loc b)) (c : Dev nD) : Vec Ideal S100000x256 .f32 := V c main_v33

/-- WHAT POINT `t` WRITES BACK is block `t` of the activated sum of the three whole tables: the payload is the activated sum of the
    three loaded blocks entry by entry, and entry `j` of each input block is its table's entry at the row and column where
    the output block's entry `j` lands (all four windows sit at block row `t`, block column 0). -/
theorem flushed4_eq (V : (c : Dev nD) → (b : Ref sig .tc) → Buf (Elt Ideal) ((c : Thread nD τ).loc b)) (c : Dev nD) (t : Fin cfg4.N) :
    (dat4 (F := Ideal) V c).flushed 3 t
      = ((cfg4.win 3).blk t).view.read (Elt Ideal) (Hetero.elu (Hetero.add3 (V c main_v1) (V c main_v20) (V c main_v33))) := by
  show (cfg4.win 3).cut (grid4.coords t) ((dat4 (F := Ideal) V c).after 3 t) = _
  rw [after4_3]
  unfold out4_3
  rw [View.canon_unit_zero zero_offsets4]
  simp only [View.ld_unit_zero (S := S2000x256) zero_offsets4]
  rw [Pay.pay4]
  obtain ⟨e00, e01, e10, e11, e20, e21, e30, e31⟩ := row_blocks4 t
  funext j
  show Hetero.eluR (selfTerm4 V c (((cfg4.win 0).blk t).view.emb j) + writesTerm4 V c (((cfg4.win 1).blk t).view.emb j) + citesTerm4 V c (((cfg4.win 2).blk t).view.emb j))
     = Hetero.eluR (selfTerm4 V c (((cfg4.win 3).blk t).view.emb j) + writesTerm4 V c (((cfg4.win 3).blk t).view.emb j) + citesTerm4 V c (((cfg4.win 3).blk t).view.emb j))
  have h0 : ((cfg4.win 0).blk t).view.emb j = ((cfg4.win 3).blk t).view.emb j := by
    funext a; apply Fin.ext
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 256 + 1 * (j 1).val = win4_3.index t (1 : Fin 2) * 256 + 1 * (j 1).val; omega
  have h1 : ((cfg4.win 1).blk t).view.emb j = ((cfg4.win 3).blk t).view.emb j := by
    funext a; apply Fin.ext
    match a with
    | ⟨0, _⟩ => show win4_1.index t (0 : Fin 2) * 2000 + 1 * (j 0).val = win4_3.index t (0 : Fin 2) * 2000 + 1 * (j 0).val; omega
    | ⟨1, _⟩ => show win4_1.index t (1 : Fin 2) * 256 + 1 * (j 1).val = win4_3.index t (1 : Fin 2) * 256 + 1 * (j 1).val; omega
  have h2 : ((cfg4.win 2).blk t).view.emb j = ((cfg4.win 3).blk t).view.emb j := by
    funext a; apply Fin.ext
    match a with
    | ⟨0, _⟩ => show win4_2.index t (0 : Fin 2) * 2000 + 1 * (j 0).val = win4_3.index t (0 : Fin 2) * 2000 + 1 * (j 0).val; omega
    | ⟨1, _⟩ => show win4_2.index t (1 : Fin 2) * 256 + 1 * (j 1).val = win4_3.index t (1 : Fin 2) * 256 + 1 * (j 1).val; omega
  rw [h0, h1, h2]

/-- A table index lies in point `t`'s output block iff each coordinate is within the block's range on its axis. -/
theorem mem_block4 (t : Fin cfg4.N) (i : S100000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v34).slice (win4_3.rect t)).set ↔ _
  rw [View.set_slice_whole, Rect.mem_set_unit]
  exact Iff.rfl

/-- THE BLOCKS TILE THE TABLE: row `r`, any column, lies in the block of point `r / 2000`, which is one of the 50 points
    because `r < 100000`; every point writes its block back. -/
theorem cover4 (i : S100000x256.Idx) :
    ∃ t : Fin cfg4.N, (cfg4.win 3).flush t = true ∧ i ∈ ((cfg4.win 3).blk t).view.set := by
  have hi0 : (i 0).val < 100000 := (i 0).isLt
  have hi1 : (i 1).val < 256 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨-, -, -, -, -, -, e30, e31⟩ := row_blocks4 t
  refine ⟨t, flush4_3 t, ?_⟩
  rw [mem_block4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- THE TABLE after the last point: every entry is covered by exactly the block that computes it, so the whole table is
    the activated sum of the three input tables as the region finds them. -/
theorem region4_value (V : (c : Dev nD) → (b : Ref sig .tc) → Buf (Elt Ideal) ((c : Thread nD τ).loc b)) (c : Dev nD) :
    (dat4 (F := Ideal) V c).arrAt 3 cfg4.N = Hetero.elu (Hetero.add3 (V c main_v1) (V c main_v20) (V c main_v33)) :=
  (dat4 (F := Ideal) V c).arrAt_eq_of_cover 3 _ (fun t _ => flushed4_eq V c t) cover4

end Cert.KernelIdeal.Region

end
-- ==== Proof.KRegion5.lean ====
/-
  Region 5: the array its output window leaves after the last grid point, as one function of the three arrays its input windows read.
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- An entry of the affine map depends only on one row of the table, one column of the weight and one entry of the bias. -/
theorem lin_entry_congr5 {M M' K N : Nat} (x : Vec Ideal ⟨2, ![M, K]⟩ .f32) (x' : Vec Ideal ⟨2, ![M', K]⟩ .f32)
    (w w' : Vec Ideal ⟨2, ![K, N]⟩ .f32) (b b' : Fin N → EReal) (p : Fin M) (p' : Fin M') (q : Fin N)
    (hx : ∀ k : Fin K, x (ix2 p k) = x' (ix2 p' k)) (hw : ∀ k : Fin K, w (ix2 k q) = w' (ix2 k q)) (hb : b q = b' q) :
    Hetero.lin M K N x w b (ix2 p q) = Hetero.lin M' K N x' w' b' (ix2 p' q) := by
  show (∑ k : Fin K, x (ix2 p k) * w (ix2 k q)) + b q = (∑ k : Fin K, x' (ix2 p' k) * w' (ix2 k q)) + b' q
  rw [hb]
  exact congrArg (· + b' q) (Finset.sum_congr rfl fun k _ => by rw [hx k, hw k])

/-- The offsets of a store or load of a whole block are zero on both axes. -/
theorem zero_offsets5 : (![0, 0] : Fin 2 → Nat) = fun _ => 0 := funext fun a => by fin_cases a <;> rfl

/-- The index maps over the grid: the table's window and the output window sit at row block `t`, column block 0;
    the weight's and the bias's windows are their whole arrays at every point. -/
theorem index_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of the table's block at point `t` is row `2000 t + p` of the table. -/
theorem table_block5 (V : (c : Dev nD) → (b : Ref sig .tc) → Buf (Elt Ideal) ((c : Thread nD τ).loc b)) (c : Dev nD)
    (t : Fin cfg5.N) (p : Fin 2000) (k : Fin 256) (r : Fin 100000) (hr : r.val = 2000 * t.val + p.val) :
    (iblk5 (F := Ideal) V c 0 t : Vec Ideal S2000x256 .f32) (ix2 p k) = (V c main_v34 : Vec Ideal S100000x256 .f32) (ix2 r k) := by
  obtain ⟨e0, e1, -⟩ := index_facts5 t
  show V c main_v34 (((cfg5.win 0).blk t).view.emb (ix2 p k)) = V c main_v34 (ix2 r k)
  refine congrArg _ ?_
  funext a; apply Fin.ext
  match a with
  | ⟨0, _⟩ => show win5_0.index t (0 : Fin 2) * 2000 + 1 * p.val = r.val; omega
  | ⟨1, _⟩ => show win5_0.index t (1 : Fin 2) * 256 + 1 * k.val = k.val; omega

/-- The weight's block at any point is the weight. -/
theorem weight_block5 (V : (c : Dev nD) → (b : Ref sig .tc) → Buf (Elt Ideal) ((c : Thread nD τ).loc b)) (c : Dev nD)
    (t : Fin cfg5.N) (k : Fin 256) (q : Fin 256) :
    (iblk5 (F := Ideal) V c 1 t : Vec Ideal S256x256 .f32) (ix2 k q) = (V c main_arg16 : Vec Ideal S256x256 .f32) (ix2 k q) := by
  obtain ⟨-, -, e0, e1, -⟩ := index_facts5 t
  show V c main_arg16 (((cfg5.win 1).blk t).view.emb (ix2 k q)) = V c main_arg16 (ix2 k q)
  refine congrArg _ ?_
  funext a; apply Fin.ext
  match a with
  | ⟨0, _⟩ => show win5_1.index t (0 : Fin 2) * 256 + 1 * k.val = k.val; omega
  | ⟨1, _⟩ => show win5_1.index t (1 : Fin 2) * 256 + 1 * q.val = q.val; omega

/-- The bias's block at any point is the bias row. -/
theorem bias_block5 (V : (c : Dev nD) → (b : Ref sig .tc) → Buf (Elt Ideal) ((c : Thread nD τ).loc b)) (c : Dev nD)
    (t : Fin cfg5.N) (z : Fin 1) (q : Fin 256) :
    (iblk5 (F := Ideal) V c 2 t : Vec Ideal S1x256 .f32) (ix2 z q) = (V c main_v35 : Vec Ideal S1x256 .f32) (ix2 z q) := by
  obtain ⟨-, -, -, -, e0, e1, -⟩ := index_facts5 t
  show V c main_v35 (((cfg5.win 2).blk t).view.emb (ix2 z q)) = V c main_v35 (ix2 z q)
  refine congrArg _ ?_
  funext a; apply Fin.ext
  match a with
  | ⟨0, _⟩ => show win5_2.index t (0 : Fin 2) * 1 + 1 * z.val = z.val; omega
  | ⟨1, _⟩ => show win5_2.index t (1 : Fin 2) * 256 + 1 * q.val = q.val; omega

/-- What point `t` writes back: the block at `t` of the affine map of the whole table. -/
theorem flushed_block5 (V : (c : Dev nD) → (b : Ref sig .tc) → Buf (Elt Ideal) ((c : Thread nD τ).loc b)) (c : Dev nD) (t : Fin cfg5.N) :
    (dat5 (F := Ideal) V c).flushed 3 t = ((cfg5.win 3).blk t).view.read (Elt Ideal)
      (Hetero.lin 100000 256 256 (V c main_v34) (V c main_arg16) (Hetero.row0 (V c main_v35))) := by
  show (cfg5.win 3).cut (grid5.coords t) ((dat5 (F := Ideal) V c).after 3 t) = _
  rw [after5_3]
  unfold out5_3
  rw [View.canon_unit_zero zero_offsets5]
  simp only [View.ld_unit_zero (S := S2000x256) zero_offsets5, View.ld_unit_zero (S := S256x256) zero_offsets5,
    View.ld_unit_zero (S := S1x256) zero_offsets5]
  obtain ⟨-, -, -, -, -, -, e0, e1⟩ := index_facts5 t
  have ht : t.val < 50 := lt_of_lt_of_eq t.isLt N_5
  funext j
  obtain ⟨p, q, rfl⟩ : ∃ (p : Fin 2000) (q : Fin 256), j = ix2 p q := ⟨j 0, j 1, eq_ix2 j⟩
  refine (congrFun (Pay.pay5 (iblk5 (F := Ideal) V c 0 t) (iblk5 (F := Ideal) V c 1 t) (iblk5 (F := Ideal) V c 2 t)) (ix2 p q)).trans ?_
  have hi : ((cfg5.win 3).blk t).view.emb (ix2 p q) = (ix2 (⟨2000 * t.val + p.val, by omega⟩ : Fin 100000) q : S100000x256.Idx) := by
    funext a; apply Fin.ext
    match a with
    | ⟨0, _⟩ => show win5_3.index t (0 : Fin 2) * 2000 + 1 * p.val = 2000 * t.val + p.val; omega
    | ⟨1, _⟩ => show win5_3.index t (1 : Fin 2) * 256 + 1 * q.val = q.val; omega
  refine Eq.trans ?_ (congrArg (Hetero.lin 100000 256 256 (V c main_v34) (V c main_arg16) (Hetero.row0 (V c main_v35))) hi).symm
  exact lin_entry_congr5 _ _ _ _ _ _ p _ q (fun k => table_block5 V c t p k _ rfl) (fun k => weight_block5 V c t k q)
    (bias_block5 V c t 0 q)

/-- An index of the output array lies in point `t`'s block iff, on each axis, it lies in the block's range. -/
theorem mem_block5 (t : Fin cfg5.N) (i : S100000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v36).slice (win5_3.rect t)).set ↔ _
  rw [View.set_slice_whole, Rect.mem_set_unit]
  exact Iff.rfl

/-- Every row of the output lies in the block of the point `row / 2000`, and every point writes back. -/
theorem cover5 (i : S100000x256.Idx) :
    ∃ t : Fin cfg5.N, (cfg5.win 3).flush t = true ∧ i ∈ ((cfg5.win 3).blk t).view.set := by
  have hi0 : (i 0).val < 100000 := (i 0).isLt
  have hi1 : (i 1).val < 256 := (i 1).isLt
  have hN : cfg5.N = 50 := N_5
  let t : Fin cfg5.N := ⟨(i 0).val / 2000, by rw [hN]; omega⟩
  obtain ⟨-, -, -, -, -, -, e0, e1⟩ := index_facts5 t
  have ht : t.val = (i 0).val / 2000 := rfl
  refine ⟨t, flush5_3 t, ?_⟩
  rw [mem_block5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 256 ≤ (i 1).val ∧ (i 1).val < win5_3.index t (1 : Fin 2) * 256 + 256; omega

theorem region5_value (V : (c : Dev nD) → (b : Ref sig .tc) → Buf (Elt Ideal) ((c : Thread nD τ).loc b)) (c : Dev nD) :
    (dat5 (F := Ideal) V c).arrAt 3 cfg5.N = Hetero.lin 100000 256 256 (V c main_v34) (V c main_arg16) (Hetero.row0 (V c main_v35)) :=
  (dat5 (F := Ideal) V c).arrAt_eq_of_cover 3 _ (fun t _ => flushed_block5 V c t) cover5

end Cert.KernelIdeal.Region

end
-- ==== Proof.KRegion8.lean ====
/-
  Region 8: the array its output window leaves after the last grid point, as one function of the three arrays its input windows read.
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- An entry of the affine map depends only on one row of the table, one column of the weight and one entry of the bias. -/
theorem lin_entry_congr8 {M M' K N : Nat} (x : Vec Ideal ⟨2, ![M, K]⟩ .f32) (x' : Vec Ideal ⟨2, ![M', K]⟩ .f32)
    (w w' : Vec Ideal ⟨2, ![K, N]⟩ .f32) (b b' : Fin N → EReal) (p : Fin M) (p' : Fin M') (q : Fin N)
    (hx : ∀ k : Fin K, x (ix2 p k) = x' (ix2 p' k)) (hw : ∀ k : Fin K, w (ix2 k q) = w' (ix2 k q)) (hb : b q = b' q) :
    Hetero.lin M K N x w b (ix2 p q) = Hetero.lin M' K N x' w' b' (ix2 p' q) := by
  show (∑ k : Fin K, x (ix2 p k) * w (ix2 k q)) + b q = (∑ k : Fin K, x' (ix2 p' k) * w' (ix2 k q)) + b' q
  rw [hb]
  exact congrArg (· + b' q) (Finset.sum_congr rfl fun k _ => by rw [hx k, hw k])

/-- The offsets of a store or load of a whole block are zero on both axes. -/
theorem zero_offsets8 : (![0, 0] : Fin 2 → Nat) = fun _ => 0 := funext fun a => by fin_cases a <;> rfl

/-- The index maps over the grid: the table's window and the output window sit at row block `t`, column block 0;
    the weight's and the bias's windows are their whole arrays at every point. -/
theorem index_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row `p` of the table's block at point `t` is row `2000 t + p` of the table. -/
theorem table_block8 (V : (c : Dev nD) → (b : Ref sig .tc) → Buf (Elt Ideal) ((c : Thread nD τ).loc b)) (c : Dev nD)
    (t : Fin cfg8.N) (p : Fin 2000) (k : Fin 256) (r : Fin 100000) (hr : r.val = 2000 * t.val + p.val) :
    (iblk8 (F := Ideal) V c 0 t : Vec Ideal S2000x256 .f32) (ix2 p k) = (V c main_v34 : Vec Ideal S100000x256 .f32) (ix2 r k) := by
  obtain ⟨e0, e1, -⟩ := index_facts8 t
  show V c main_v34 (((cfg8.win 0).blk t).view.emb (ix2 p k)) = V c main_v34 (ix2 r k)
  refine congrArg _ ?_
  funext a; apply Fin.ext
  match a with
  | ⟨0, _⟩ => show win8_0.index t (0 : Fin 2) * 2000 + 1 * p.val = r.val; omega
  | ⟨1, _⟩ => show win8_0.index t (1 : Fin 2) * 256 + 1 * k.val = k.val; omega

/-- The weight's block at any point is the weight. -/
theorem weight_block8 (V : (c : Dev nD) → (b : Ref sig .tc) → Buf (Elt Ideal) ((c : Thread nD τ).loc b)) (c : Dev nD)
    (t : Fin cfg8.N) (k : Fin 256) (q : Fin 256) :
    (iblk8 (F := Ideal) V c 1 t : Vec Ideal S256x256 .f32) (ix2 k q) = (V c main_arg22 : Vec Ideal S256x256 .f32) (ix2 k q) := by
  obtain ⟨-, -, e0, e1, -⟩ := index_facts8 t
  show V c main_arg22 (((cfg8.win 1).blk t).view.emb (ix2 k q)) = V c main_arg22 (ix2 k q)
  refine congrArg _ ?_
  funext a; apply Fin.ext
  match a with
  | ⟨0, _⟩ => show win8_1.index t (0 : Fin 2) * 256 + 1 * k.val = k.val; omega
  | ⟨1, _⟩ => show win8_1.index t (1 : Fin 2) * 256 + 1 * q.val = q.val; omega

/-- The bias's block at any point is the bias row. -/
theorem bias_block8 (V : (c : Dev nD) → (b : Ref sig .tc) → Buf (Elt Ideal) ((c : Thread nD τ).loc b)) (c : Dev nD)
    (t : Fin cfg8.N) (z : Fin 1) (q : Fin 256) :
    (iblk8 (F := Ideal) V c 2 t : Vec Ideal S1x256 .f32) (ix2 z q) = (V c main_v41 : Vec Ideal S1x256 .f32) (ix2 z q) := by
  obtain ⟨-, -, -, -, e0, e1, -⟩ := index_facts8 t
  show V c main_v41 (((cfg8.win 2).blk t).view.emb (ix2 z q)) = V c main_v41 (ix2 z q)
  refine congrArg _ ?_
  funext a; apply Fin.ext
  match a with
  | ⟨0, _⟩ => show win8_2.index t (0 : Fin 2) * 1 + 1 * z.val = z.val; omega
  | ⟨1, _⟩ => show win8_2.index t (1 : Fin 2) * 256 + 1 * q.val = q.val; omega

/-- What point `t` writes back: the block at `t` of the affine map of the whole table. -/
theorem flushed_block8 (V : (c : Dev nD) → (b : Ref sig .tc) → Buf (Elt Ideal) ((c : Thread nD τ).loc b)) (c : Dev nD) (t : Fin cfg8.N) :
    (dat8 (F := Ideal) V c).flushed 3 t = ((cfg8.win 3).blk t).view.read (Elt Ideal)
      (Hetero.lin 100000 256 256 (V c main_v34) (V c main_arg22) (Hetero.row0 (V c main_v41))) := by
  show (cfg8.win 3).cut (grid8.coords t) ((dat8 (F := Ideal) V c).after 3 t) = _
  rw [after8_3]
  unfold out8_3
  rw [View.canon_unit_zero zero_offsets8]
  simp only [View.ld_unit_zero (S := S2000x256) zero_offsets8, View.ld_unit_zero (S := S256x256) zero_offsets8,
    View.ld_unit_zero (S := S1x256) zero_offsets8]
  obtain ⟨-, -, -, -, -, -, e0, e1⟩ := index_facts8 t
  have ht : t.val < 50 := lt_of_lt_of_eq t.isLt N_8
  funext j
  obtain ⟨p, q, rfl⟩ : ∃ (p : Fin 2000) (q : Fin 256), j = ix2 p q := ⟨j 0, j 1, eq_ix2 j⟩
  refine (congrFun (Pay.pay8 (iblk8 (F := Ideal) V c 0 t) (iblk8 (F := Ideal) V c 1 t) (iblk8 (F := Ideal) V c 2 t)) (ix2 p q)).trans ?_
  have hi : ((cfg8.win 3).blk t).view.emb (ix2 p q) = (ix2 (⟨2000 * t.val + p.val, by omega⟩ : Fin 100000) q : S100000x256.Idx) := by
    funext a; apply Fin.ext
    match a with
    | ⟨0, _⟩ => show win8_3.index t (0 : Fin 2) * 2000 + 1 * p.val = 2000 * t.val + p.val; omega
    | ⟨1, _⟩ => show win8_3.index t (1 : Fin 2) * 256 + 1 * q.val = q.val; omega
  refine Eq.trans ?_ (congrArg (Hetero.lin 100000 256 256 (V c main_v34) (V c main_arg22) (Hetero.row0 (V c main_v41))) hi).symm
  exact lin_entry_congr8 _ _ _ _ _ _ p _ q (fun k => table_block8 V c t p k _ rfl) (fun k => weight_block8 V c t k q)
    (bias_block8 V c t 0 q)

/-- An index of the output array lies in point `t`'s block iff, on each axis, it lies in the block's range. -/
theorem mem_block8 (t : Fin cfg8.N) (i : S100000x256.Idx) :
    i ∈ ((cfg8.win 3).blk t).view.set ↔ ∀ a : Fin 2, win8_3.index t a * S2000x256.size a ≤ (i a).val ∧ (i a).val < win8_3.index t a * S2000x256.size a + S2000x256.size a := by
  show i ∈ ((View.whole main_v42).slice (win8_3.rect t)).set ↔ _
  rw [View.set_slice_whole, Rect.mem_set_unit]
  exact Iff.rfl

/-- Every row of the output lies in the block of the point `row / 2000`, and every point writes back. -/
theorem cover8 (i : S100000x256.Idx) :
    ∃ t : Fin cfg8.N, (cfg8.win 3).flush t = true ∧ i ∈ ((cfg8.win 3).blk t).view.set := by
  have hi0 : (i 0).val < 100000 := (i 0).isLt
  have hi1 : (i 1).val < 256 := (i 1).isLt
  have hN : cfg8.N = 50 := N_8
  let t : Fin cfg8.N := ⟨(i 0).val / 2000, by rw [hN]; omega⟩
  obtain ⟨-, -, -, -, -, -, e0, e1⟩ := index_facts8 t
  have ht : t.val = (i 0).val / 2000 := rfl
  refine ⟨t, flush8_3 t, ?_⟩
  rw [mem_block8]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 256 ≤ (i 1).val ∧ (i 1).val < win8_3.index t (1 : Fin 2) * 256 + 256; omega

theorem region8_value (V : (c : Dev nD) → (b : Ref sig .tc) → Buf (Elt Ideal) ((c : Thread nD τ).loc b)) (c : Dev nD) :
    (dat8 (F := Ideal) V c).arrAt 3 cfg8.N = Hetero.lin 100000 256 256 (V c main_v34) (V c main_arg22) (Hetero.row0 (V c main_v41)) :=
  (dat8 (F := Ideal) V c).arrAt_eq_of_cover 3 _ (fun t _ => flushed_block8 V c t) cover8

end Cert.KernelIdeal.Region

end
-- ==== Proof.KRegion9.lean ====
/-
  Region 9: the array its output window leaves after the last grid point, as one function of the three arrays its input windows read.

  The region computes the entrywise sum of three 100000 × 256 tables. The grid is one axis of 50 points; at point `t` each of the
  four windows (three inputs, one output) holds rows `2000·t … 2000·t + 1999` and all 256 columns of its table, so the
  fifty output blocks tile the output table and each entry is written exactly once, with the value the three input tables
  give at the SAME row and column. The steps: the four index maps over the grid (`row_blocks9`); what one point writes
  back is its block of the whole-table function (`flushed9_eq`); the blocks cover every row (`cover9`: row `r` lies
  in block `r / 2000`); hence the table after the last point (`region9_value`).
-/
import proofs.«143226_j11252814315838_1_alg».proof.Proof.Gen.KernelIdeal.Frame
import proofs.«143226_j11252814315838_1_alg».proof.Proof.KPay
import proofs.«143226_j11252814315838_1_alg».proof.Proof.Spec
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The one store and the three loads all start at row 0, column 0 of the 2000 × 256 block. -/
theorem zero_offsets9 : (![0, 0] : Fin 2 → Nat) = fun _ => 0 := funext fun a => by fin_cases a <;> rfl

/-- The four index maps over the 50 grid points: at point `t` every window is at block row `t`, block column 0. -/
theorem row_blocks9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- The first summand (the nodes' own affine map), as a 100000 × 256 table of extended reals. -/
abbrev selfTerm9 (V : (c : Dev nD) → (b : Ref sig .tc) → Buf (Elt Ideal) ((c : Thread nD τ).loc b)) (c : Dev nD) : Vec Ideal S100000x256 .f32 := V c main_v36
/-- The second summand (the messages gathered along the first relation), as a 100000 × 256 table. -/
abbrev writesTerm9 (V : (c : Dev nD) → (b : Ref sig .tc) → Buf (Elt Ideal) ((c : Thread nD τ).loc b)) (c : Dev nD) : Vec Ideal S100000x256 .f32 := V c main_v55
/-- The third summand (the messages gathered along the second relation), as a 100000 × 256 table. -/
abbrev citesTerm9 (V : (c : Dev nD) → (b : Ref sig .tc) → Buf (Elt Ideal) ((c : Thread nD τ).loc b)) (c : Dev nD) : Vec Ideal S100000x256 .f32 := V c main_v68

/-- WHAT POINT `t` WRITES BACK is block `t` of the sum of the three whole tables: the payload is the sum of the
    three loaded blocks entry by entry, and entry `j` of each input block is its table's entry at the row and column where
    the output block's entry `j` lands (all four windows sit at block row `t`, block column 0). -/
theorem flushed9_eq (V : (c : Dev nD) → (b : Ref sig .tc) → Buf (Elt Ideal) ((c : Thread nD τ).loc b)) (c : Dev nD) (t : Fin cfg9.N) :
    (dat9 (F := Ideal) V c).flushed 3 t
      = ((cfg9.win 3).blk t).view.read (Elt Ideal) (Hetero.add3 (V c main_v36) (V c main_v55) (V c main_v68)) := by
  show (cfg9.win 3).cut (grid9.coords t) ((dat9 (F := Ideal) V c).after 3 t) = _
  rw [after9_3]
  unfold out9_3
  rw [View.canon_unit_zero zero_offsets9]
  simp only [View.ld_unit_zero (S := S2000x256) zero_offsets9]
  rw [Pay.pay9]
  obtain ⟨e00, e01, e10, e11, e20, e21, e30, e31⟩ := row_blocks9 t
  funext j
  show selfTerm9 V c (((cfg9.win 0).blk t).view.emb j) + writesTerm9 V c (((cfg9.win 1).blk t).view.emb j) + citesTerm9 V c (((cfg9.win 2).blk t).view.emb j)
     = selfTerm9 V c (((cfg9.win 3).blk t).view.emb j) + writesTerm9 V c (((cfg9.win 3).blk t).view.emb j) + citesTerm9 V c (((cfg9.win 3).blk t).view.emb j)
  have h0 : ((cfg9.win 0).blk t).view.emb j = ((cfg9.win 3).blk t).view.emb j := by
    funext a; apply Fin.ext
    match a with
    | ⟨0, _⟩ => show win9_0.index t (0 : Fin 2) * 2000 + 1 * (j 0).val = win9_3.index t (0 : Fin 2) * 2000 + 1 * (j 0).val; omega
    | ⟨1, _⟩ => show win9_0.index t (1 : Fin 2) * 256 + 1 * (j 1).val = win9_3.index t (1 : Fin 2) * 256 + 1 * (j 1).val; omega
  have h1 : ((cfg9.win 1).blk t).view.emb j = ((cfg9.win 3).blk t).view.emb j := by
    funext a; apply Fin.ext
    match a with
    | ⟨0, _⟩ => show win9_1.index t (0 : Fin 2) * 2000 + 1 * (j 0).val = win9_3.index t (0 : Fin 2) * 2000 + 1 * (j 0).val; omega
    | ⟨1, _⟩ => show win9_1.index t (1 : Fin 2) * 256 + 1 * (j 1).val = win9_3.index t (1 : Fin 2) * 256 + 1 * (j 1).val; omega
  have h2 : ((cfg9.win 2).blk t).view.emb j = ((cfg9.win 3).blk t).view.emb j := by
    funext a; apply Fin.ext
    match a with
    | ⟨0, _⟩ => show win9_2.index t (0 : Fin 2) * 2000 + 1 * (j 0).val = win9_3.index t (0 : Fin 2) * 2000 + 1 * (j 0).val; omega
    | ⟨1, _⟩ => show win9_2.index t (1 : Fin 2) * 256 + 1 * (j 1).val = win9_3.index t (1 : Fin 2) * 256 + 1 * (j 1).val; omega
  rw [h0, h1, h2]

/-- A table index lies in point `t`'s output block iff each coordinate is within the block's range on its axis. -/
theorem mem_block9 (t : Fin cfg9.N) (i : S100000x256.Idx) :
    i ∈ ((cfg9.win 3).blk t).view.set ↔ ∀ a : Fin 2, win9_3.index t a * S2000x256.size a ≤ (i a).val ∧ (i a).val < win9_3.index t a * S2000x256.size a + S2000x256.size a := by
  show i ∈ ((View.whole main_v69).slice (win9_3.rect t)).set ↔ _
  rw [View.set_slice_whole, Rect.mem_set_unit]
  exact Iff.rfl

/-- THE BLOCKS TILE THE TABLE: row `r`, any column, lies in the block of point `r / 2000`, which is one of the 50 points
    because `r < 100000`; every point writes its block back. -/
theorem cover9 (i : S100000x256.Idx) :
    ∃ t : Fin cfg9.N, (cfg9.win 3).flush t = true ∧ i ∈ ((cfg9.win 3).blk t).view.set := by
  have hi0 : (i 0).val < 100000 := (i 0).isLt
  have hi1 : (i 1).val < 256 := (i 1).isLt
  have hN : cfg9.N = 50 := N_9
  obtain ⟨t, ht⟩ : ∃ t : Fin cfg9.N, t.val = (i 0).val / 2000 := ⟨⟨(i 0).val / 2000, by rw [hN]; omega⟩, rfl⟩
  obtain ⟨-, -, -, -, -, -, e30, e31⟩ := row_blocks9 t
  refine ⟨t, flush9_3 t, ?_⟩
  rw [mem_block9]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 256 ≤ (i 1).val ∧ (i 1).val < win9_3.index t (1 : Fin 2) * 256 + 256; omega

/-- THE TABLE after the last point: every entry is covered by exactly the block that computes it, so the whole table is
    the sum of the three input tables as the region finds them. -/
theorem region9_value (V : (c : Dev nD) → (b : Ref sig .tc) → Buf (Elt Ideal) ((c : Thread nD τ).loc b)) (c : Dev nD) :
    (dat9 (F := Ideal) V c).arrAt 3 cfg9.N = Hetero.add3 (V c main_v36) (V c main_v55) (V c main_v68) :=
  (dat9 (F := Ideal) V c).arrAt_eq_of_cover 3 _ (fun t _ => flushed9_eq V c t) cover9

end Cert.KernelIdeal.Region

end
-- ==== Proof.KTerms.lean ====
/-
  The kernel program's host glue, named: the two relations' aggregations (gather, scale by the edge weight, scatter-add),
  each one stretch of host operations composed into a single pure term of its operands, in the operations' own spelling.
-/
import proofs.«143226_j11252814315838_1_alg».proof.KernelIdeal
import proofs.«143226_j11252814315838_1_alg».proof.Proof.Gen.KernelIdeal

noncomputable section

namespace Cert.KernelIdeal.Terms

open Cert.KernelIdeal Cert.KernelIdeal.Facts₀ Cert.KernelIdeal.Facts Idealize.ShloMosaic Idealize.ShloMosaic.TcCoe Idealize.SL.Sem

variable {F : FTy → Type} [FloatOps F]

/-- The author → paper relation's aggregation, as the host operations spell it: source indices below zero are
    wrapped once, the message rows are gathered at them, each gathered row is scaled by its edge's weight, and the
    scaled rows are added into a zero table at the destination indices. -/
def aggW (msg : (⟨S20000x256, .f32⟩ : BufTy).Contents (Elt F)) (src dst : (⟨S200000, .i32⟩ : BufTy).Contents (Elt F))
    (ew : (⟨S200000, .f32⟩ : BufTy).Contents (Elt F)) : (⟨S100000x256, .f32⟩ : BufTy).Contents (Elt F) :=
  Host.scatterAdd scatter_S100000x256_S200000x1_S200000x256_1_0_0_1
    (broadcastInDim S100000x256 ![] bcast_S_S100000x256 (constant S_ .f32 0x00000000#32))
    (broadcastInDim S200000x1 ![0] bcast_S200000_S200000x1_0 dst)
    (mulf (Host.gather gather_S20000x256_S200000x1_S200000x256_1_0_n_n_0_1_1256 msg
        (broadcastInDim S200000x1 ![0] bcast_S200000_S200000x1_0
          (select (cmpi .slt src (broadcastInDim S200000 ![] bcast_S_S200000 (constantI S_ 32 0#32)))
            (addi src (broadcastInDim S200000 ![] bcast_S_S200000 (constantI S_ 32 20000#32))) src)))
      (broadcastInDim S200000x256 ![0, 1] bcast_S200000x1_S200000x256_0_1 (broadcastInDim S200000x1 ![0] bcast_S200000_S200000x1_0 ew)))

/-- The paper → paper relation's aggregation: the same four steps over that relation's edges. -/
def aggC (msg : (⟨S100000x256, .f32⟩ : BufTy).Contents (Elt F)) (src dst : (⟨S400000, .i32⟩ : BufTy).Contents (Elt F))
    (ew : (⟨S400000, .f32⟩ : BufTy).Contents (Elt F)) : (⟨S100000x256, .f32⟩ : BufTy).Contents (Elt F) :=
  Host.scatterAdd scatter_S100000x256_S400000x1_S400000x256_1_0_0_1
    (broadcastInDim S100000x256 ![] bcast_S_S100000x256 (constant S_ .f32 0x00000000#32))
    (broadcastInDim S400000x1 ![0] bcast_S400000_S400000x1_0 dst)
    (mulf (Host.gather gather_S100000x256_S400000x1_S400000x256_1_0_n_n_0_1_1256 msg
        (broadcastInDim S400000x1 ![0] bcast_S400000_S400000x1_0
          (select (cmpi .slt src (broadcastInDim S400000 ![] bcast_S_S400000 (constantI S_ 32 0#32)))
            (addi src (broadcastInDim S400000 ![] bcast_S_S400000 (constantI S_ 32 100000#32))) src)))
      (broadcastInDim S400000x256 ![0, 1] bcast_S400000x1_S400000x256_0_1 (broadcastInDim S400000x1 ![0] bcast_S400000_S400000x1_0 ew)))

end Cert.KernelIdeal.Terms

end
-- ==== Proof.KChain.lean ====
/-
  The kernel program's two results, read back through every host stretch and every region to the launch memory.

  The program is twenty segments: ten host stretches alternating with ten regions.  A host stretch writes only its
  own results and a region writes only its output array, so a buffer's contents pass unchanged through every
  segment that does not write it (the "keep" lemmas, one per segment).  An argument is written by no segment and
  holds its launch contents at every boundary.  Each intermediate table is then named once as a term of the launch
  memory, and the buffer that holds it is read at the boundary where it is written and carried to every boundary
  where it is read; the last two tables are the two results.
-/
import proofs.«143226_j11252814315838_1_alg».proof.Proof.Gen.KernelIdeal.Frame
import proofs.«143226_j11252814315838_1_alg».proof.Proof.KRegion0
import proofs.«143226_j11252814315838_1_alg».proof.Proof.KRegion1
import proofs.«143226_j11252814315838_1_alg».proof.Proof.KRegion2
import proofs.«143226_j11252814315838_1_alg».proof.Proof.KRegion3
import proofs.«143226_j11252814315838_1_alg».proof.Proof.KRegion4
import proofs.«143226_j11252814315838_1_alg».proof.Proof.KRegion5
import proofs.«143226_j11252814315838_1_alg».proof.Proof.KRegion6
import proofs.«143226_j11252814315838_1_alg».proof.Proof.KRegion7
import proofs.«143226_j11252814315838_1_alg».proof.Proof.KRegion8
import proofs.«143226_j11252814315838_1_alg».proof.Proof.KRegion9
import proofs.«143226_j11252814315838_1_alg».proof.Proof.KTerms
import proofs.«143226_j11252814315838_1_alg».proof.Proof.Spec
import Idealize.ShloMosaic.Lib.StableHlo.Run
import Idealize.ShloMosaic.Lib.Pipeline.Value
import Idealize.ShloMosaic.Lib.ValueLayout

noncomputable section

namespace Cert.KernelIdeal.Chain

open Cert.KernelIdeal Cert.KernelIdeal.Gen Idealize.ShloMosaic Idealize.ShloMosaic.TcCoe Idealize.ShloMosaic.ValueIdx
open Idealize.SL Idealize.SL.Sem
open Cert.KernelIdeal.Region
variable (m : (ℓ : Loc nD τ sig) → Buf (Elt Ideal) ℓ) (ρ : Dev nD → PrngReg)

/-! ## A buffer passes unchanged through a segment that does not write it -/

theorem ne_of_not_mem {l : List (Ref sig .tc)} {b x : Ref sig .tc} (hb : b ∉ l) (hx : x ∈ l) : b ≠ x :=
  fun e => hb (e ▸ hx)

/-- The buffers the fifth host stretch writes: the first layer's gather, scaling and scatter-add of both relations. -/
def wr4 : List (Ref sig .tc) :=
  [main_c, main_v8, main_v9, main_c_0, main_v10, main_v11, main_v12, main_v13, main_v14, main_v15, main_v16, main_v17,
   main_cst, main_v18, main_v19, main_v20, main_c_1, main_v21, main_v22, main_c_2, main_v23, main_v24, main_v25, main_v26,
   main_v27, main_v28, main_v29, main_v30, main_cst_3, main_v31, main_v32, main_v33]

/-- The buffers the tenth host stretch writes: the second layer's gather, scaling and scatter-add of both relations. -/
def wr9 : List (Ref sig .tc) :=
  [main_c_4, main_v43, main_v44, main_c_5, main_v45, main_v46, main_v47, main_v48, main_v49, main_v50, main_v51, main_v52,
   main_cst_6, main_v53, main_v54, main_v55, main_c_7, main_v56, main_v57, main_c_8, main_v58, main_v59, main_v60, main_v61,
   main_v62, main_v63, main_v64, main_v65, main_cst_9, main_v66, main_v67, main_v68]

/-- Host stretch 0 writes only the reshaped bias `main_v0`. -/
theorem keepH0 (c : Dev nD) (b : Ref sig .tc) (hb : b ≠ main_v0) :
    W1 (F := Ideal) m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Host stretch 1 writes only the reshaped bias `main_v2`. -/
theorem keepH1 (c : Dev nD) (b : Ref sig .tc) (hb : b ≠ main_v2) :
    W3 (F := Ideal) m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- Host stretch 2 writes only the reshaped bias `main_v4`. -/
theorem keepH2 (c : Dev nD) (b : Ref sig .tc) (hb : b ≠ main_v4) :
    W5 (F := Ideal) m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- Host stretch 3 writes only the reshaped bias `main_v6`. -/
theorem keepH3 (c : Dev nD) (b : Ref sig .tc) (hb : b ≠ main_v6) :
    W7 (F := Ideal) m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- Host stretch 4 writes only the buffers of `wr4`. -/
theorem keepH4 (c : Dev nD) (b : Ref sig .tc) (hb : ∀ x ∈ wr4, b ≠ x) :
    W9 (F := Ideal) m ρ c (Proc.devRef .tc b) = W8 m ρ c (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, Finset.mem_singleton]
    repeat' apply And.intro
    all_goals exact StableHlo.devRef_ne_of_ne (hb _ (by decide))))

/-- Host stretch 5 writes only the reshaped bias `main_v35`. -/
theorem keepH5 (c : Dev nD) (b : Ref sig .tc) (hb : b ≠ main_v35) :
    W11 (F := Ideal) m ρ c (Proc.devRef .tc b) = W10 m ρ c (Proc.devRef .tc b) :=
  StableHlo.after_of_forall_not_mem (b := Proc.devRef .tc b) _ _ (List.forall_iff_forall_mem.mp (by
    simp only [hostOps5, List.Forall, StableHlo.reshape_writes, Finset.mem_singleton]
    exact StableHlo.devRef_ne_of_ne hb))

/-- Host stretch 6 writes only the reshaped bias `main_v37`. -/
theorem keepH6 (c : Dev nD) (b : Ref sig .tc) (hb : b ≠ main_v37) :
    W13 (F := Ideal) m ρ c (Proc.devRef .tc b) = W12 m ρ c (Proc.devRef .tc b) :=
  StableHlo.after_of_forall_not_mem (b := Proc.devRef .tc b) _ _ (List.forall_iff_forall_mem.mp (by
    simp only [hostOps6, List.Forall, StableHlo.reshape_writes, Finset.mem_singleton]
    exact StableHlo.devRef_ne_of_ne hb))

/-- Host stretch 7 writes only the reshaped bias `main_v39`. -/
theorem keepH7 (c : Dev nD) (b : Ref sig .tc) (hb : b ≠ main_v39) :
    W15 (F := Ideal) m ρ c (Proc.devRef .tc b) = W14 m ρ c (Proc.devRef .tc b) :=
  StableHlo.after_of_forall_not_mem (b := Proc.devRef .tc b) _ _ (List.forall_iff_forall_mem.mp (by
    simp only [hostOps7, List.Forall, StableHlo.reshape_writes, Finset.mem_singleton]
    exact StableHlo.devRef_ne_of_ne hb))

/-- Host stretch 8 writes only the reshaped bias `main_v41`. -/
theorem keepH8 (c : Dev nD) (b : Ref sig .tc) (hb : b ≠ main_v41) :
    W17 (F := Ideal) m ρ c (Proc.devRef .tc b) = W16 m ρ c (Proc.devRef .tc b) :=
  StableHlo.after_of_forall_not_mem (b := Proc.devRef .tc b) _ _ (List.forall_iff_forall_mem.mp (by
    simp only [hostOps8, List.Forall, StableHlo.reshape_writes, Finset.mem_singleton]
    exact StableHlo.devRef_ne_of_ne hb))

/-- Host stretch 9 writes only the buffers of `wr9`. -/
theorem keepH9 (c : Dev nD) (b : Ref sig .tc) (hb : ∀ x ∈ wr9, b ≠ x) :
    W19 (F := Ideal) m ρ c (Proc.devRef .tc b) = W18 m ρ c (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes,
      StableHlo.ternary_writes, Finset.mem_singleton]
    repeat' apply And.intro
    all_goals exact StableHlo.devRef_ne_of_ne (hb _ (by decide))))

/-- Region 0 leaves every buffer but its output `main_v1` as entered: an input array is read only, any other
    buffer is not one of the region's arrays. -/
theorem keepR0 (c : Dev nD) (b : Ref sig .tc) (hb : b ≠ main_v1) :
    W2 (F := Ideal) m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg8
  · subst h1; exact (W2_arr m ρ c 1).trans (((dat0 (V1 m ρ) c).arrAt_in 1 rfl _).trans (A_eq0 (V1 m ρ) c 1))
  by_cases h2 : b = main_v0
  · subst h2; exact (W2_arr m ρ c 2).trans (((dat0 (V1 m ρ) c).arrAt_in 2 rfl _).trans (A_eq0 (V1 m ρ) c 2))
  exact W2_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 1 leaves every buffer but its output `main_v3` as entered. -/
theorem keepR1 (c : Dev nD) (b : Ref sig .tc) (hb : b ≠ main_v3) :
    W4 (F := Ideal) m ρ c (Proc.devRef .tc b) = W3 m ρ c (Proc.devRef .tc b) := by
  by_cases h0 : b = main_arg1
  · subst h0; exact (W4_arr m ρ c 0).trans (((dat1 (V3 m ρ) c).arrAt_in 0 rfl _).trans (A_eq1 (V3 m ρ) c 0))
  by_cases h1 : b = main_arg10
  · subst h1; exact (W4_arr m ρ c 1).trans (((dat1 (V3 m ρ) c).arrAt_in 1 rfl _).trans (A_eq1 (V3 m ρ) c 1))
  by_cases h2 : b = main_v2
  · subst h2; exact (W4_arr m ρ c 2).trans (((dat1 (V3 m ρ) c).arrAt_in 2 rfl _).trans (A_eq1 (V3 m ρ) c 2))
  exact W4_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 2 leaves every buffer but its output `main_v5` as entered. -/
theorem keepR2 (c : Dev nD) (b : Ref sig .tc) (hb : b ≠ main_v5) :
    W6 (F := Ideal) m ρ c (Proc.devRef .tc b) = W5 m ρ c (Proc.devRef .tc b) := by
  by_cases h0 : b = main_arg1
  · subst h0; exact (W6_arr m ρ c 0).trans (((dat2 (V5 m ρ) c).arrAt_in 0 rfl _).trans (A_eq2 (V5 m ρ) c 0))
  by_cases h1 : b = main_arg12
  · subst h1; exact (W6_arr m ρ c 1).trans (((dat2 (V5 m ρ) c).arrAt_in 1 rfl _).trans (A_eq2 (V5 m ρ) c 1))
  by_cases h2 : b = main_v4
  · subst h2; exact (W6_arr m ρ c 2).trans (((dat2 (V5 m ρ) c).arrAt_in 2 rfl _).trans (A_eq2 (V5 m ρ) c 2))
  exact W6_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 3 leaves every buffer but its output `main_v7` as entered. -/
theorem keepR3 (c : Dev nD) (b : Ref sig .tc) (hb : b ≠ main_v7) :
    W8 (F := Ideal) m ρ c (Proc.devRef .tc b) = W7 m ρ c (Proc.devRef .tc b) := by
  by_cases h0 : b = main_arg0
  · subst h0; exact (W8_arr m ρ c 0).trans (((dat3 (V7 m ρ) c).arrAt_in 0 rfl _).trans (A_eq3 (V7 m ρ) c 0))
  by_cases h1 : b = main_arg14
  · subst h1; exact (W8_arr m ρ c 1).trans (((dat3 (V7 m ρ) c).arrAt_in 1 rfl _).trans (A_eq3 (V7 m ρ) c 1))
  by_cases h2 : b = main_v6
  · subst h2; exact (W8_arr m ρ c 2).trans (((dat3 (V7 m ρ) c).arrAt_in 2 rfl _).trans (A_eq3 (V7 m ρ) c 2))
  exact W8_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 4 leaves every buffer but its output `main_v34` as entered. -/
theorem keepR4 (c : Dev nD) (b : Ref sig .tc) (hb : b ≠ main_v34) :
    W10 (F := Ideal) m ρ c (Proc.devRef .tc b) = W9 m ρ c (Proc.devRef .tc b) := by
  by_cases h0 : b = main_v1
  · subst h0; exact (W10_arr m ρ c 0).trans (((dat4 (V9 m ρ) c).arrAt_in 0 rfl _).trans (A_eq4 (V9 m ρ) c 0))
  by_cases h1 : b = main_v20
  · subst h1; exact (W10_arr m ρ c 1).trans (((dat4 (V9 m ρ) c).arrAt_in 1 rfl _).trans (A_eq4 (V9 m ρ) c 1))
  by_cases h2 : b = main_v33
  · subst h2; exact (W10_arr m ρ c 2).trans (((dat4 (V9 m ρ) c).arrAt_in 2 rfl _).trans (A_eq4 (V9 m ρ) c 2))
  exact W10_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 5 leaves every buffer but its output `main_v36` as entered. -/
theorem keepR5 (c : Dev nD) (b : Ref sig .tc) (hb : b ≠ main_v36) :
    W12 (F := Ideal) m ρ c (Proc.devRef .tc b) = W11 m ρ c (Proc.devRef .tc b) := by
  by_cases h0 : b = main_v34
  · subst h0; exact (W12_arr m ρ c 0).trans (((dat5 (V11 m ρ) c).arrAt_in 0 rfl _).trans (A_eq5 (V11 m ρ) c 0))
  by_cases h1 : b = main_arg16
  · subst h1; exact (W12_arr m ρ c 1).trans (((dat5 (V11 m ρ) c).arrAt_in 1 rfl _).trans (A_eq5 (V11 m ρ) c 1))
  by_cases h2 : b = main_v35
  · subst h2; exact (W12_arr m ρ c 2).trans (((dat5 (V11 m ρ) c).arrAt_in 2 rfl _).trans (A_eq5 (V11 m ρ) c 2))
  exact W12_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 6 leaves every buffer but its output `main_v38` as entered. -/
theorem keepR6 (c : Dev nD) (b : Ref sig .tc) (hb : b ≠ main_v38) :
    W14 (F := Ideal) m ρ c (Proc.devRef .tc b) = W13 m ρ c (Proc.devRef .tc b) := by
  by_cases h0 : b = main_v3
  · subst h0; exact (W14_arr m ρ c 0).trans (((dat6 (V13 m ρ) c).arrAt_in 0 rfl _).trans (A_eq6 (V13 m ρ) c 0))
  by_cases h1 : b = main_arg18
  · subst h1; exact (W14_arr m ρ c 1).trans (((dat6 (V13 m ρ) c).arrAt_in 1 rfl _).trans (A_eq6 (V13 m ρ) c 1))
  by_cases h2 : b = main_v37
  · subst h2; exact (W14_arr m ρ c 2).trans (((dat6 (V13 m ρ) c).arrAt_in 2 rfl _).trans (A_eq6 (V13 m ρ) c 2))
  exact W14_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 7 leaves every buffer but its output `main_v40` as entered. -/
theorem keepR7 (c : Dev nD) (b : Ref sig .tc) (hb : b ≠ main_v40) :
    W16 (F := Ideal) m ρ c (Proc.devRef .tc b) = W15 m ρ c (Proc.devRef .tc b) := by
  by_cases h0 : b = main_v3
  · subst h0; exact (W16_arr m ρ c 0).trans (((dat7 (V15 m ρ) c).arrAt_in 0 rfl _).trans (A_eq7 (V15 m ρ) c 0))
  by_cases h1 : b = main_arg20
  · subst h1; exact (W16_arr m ρ c 1).trans (((dat7 (V15 m ρ) c).arrAt_in 1 rfl _).trans (A_eq7 (V15 m ρ) c 1))
  by_cases h2 : b = main_v39
  · subst h2; exact (W16_arr m ρ c 2).trans (((dat7 (V15 m ρ) c).arrAt_in 2 rfl _).trans (A_eq7 (V15 m ρ) c 2))
  exact W16_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 8 leaves every buffer but its output `main_v42` as entered. -/
theorem keepR8 (c : Dev nD) (b : Ref sig .tc) (hb : b ≠ main_v42) :
    W18 (F := Ideal) m ρ c (Proc.devRef .tc b) = W17 m ρ c (Proc.devRef .tc b) := by
  by_cases h0 : b = main_v34
  · subst h0; exact (W18_arr m ρ c 0).trans (((dat8 (V17 m ρ) c).arrAt_in 0 rfl _).trans (A_eq8 (V17 m ρ) c 0))
  by_cases h1 : b = main_arg22
  · subst h1; exact (W18_arr m ρ c 1).trans (((dat8 (V17 m ρ) c).arrAt_in 1 rfl _).trans (A_eq8 (V17 m ρ) c 1))
  by_cases h2 : b = main_v41
  · subst h2; exact (W18_arr m ρ c 2).trans (((dat8 (V17 m ρ) c).arrAt_in 2 rfl _).trans (A_eq8 (V17 m ρ) c 2))
  exact W18_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-- Region 9 leaves every buffer but its output `main_v69` as entered. -/
theorem keepR9 (c : Dev nD) (b : Ref sig .tc) (hb : b ≠ main_v69) :
    W20 (F := Ideal) m ρ c (Proc.devRef .tc b) = W19 m ρ c (Proc.devRef .tc b) := by
  by_cases h0 : b = main_v36
  · subst h0; exact (W20_arr m ρ c 0).trans (((dat9 (V19 m ρ) c).arrAt_in 0 rfl _).trans (A_eq9 (V19 m ρ) c 0))
  by_cases h1 : b = main_v55
  · subst h1; exact (W20_arr m ρ c 1).trans (((dat9 (V19 m ρ) c).arrAt_in 1 rfl _).trans (A_eq9 (V19 m ρ) c 1))
  by_cases h2 : b = main_v68
  · subst h2; exact (W20_arr m ρ c 2).trans (((dat9 (V19 m ρ) c).arrAt_in 2 rfl _).trans (A_eq9 (V19 m ρ) c 2))
  exact W20_of_ne m ρ c b (fun w => by
    match w with
    | ⟨0, _⟩ => exact Ne.symm h0
    | ⟨1, _⟩ => exact Ne.symm h1
    | ⟨2, _⟩ => exact Ne.symm h2
    | ⟨3, _⟩ => exact Ne.symm hb)

/-! ## An argument holds its launch contents at every boundary -/

/-- Every buffer some segment writes: the host stretches' results and the regions' output arrays. -/
def written : List (Ref sig .tc) :=
  [main_v0, main_v1, main_v2, main_v3, main_v4, main_v5, main_v6, main_v7, main_v8, main_v9,
   main_v10, main_v11, main_v12, main_v13, main_v14, main_v15, main_v16, main_v17, main_v18, main_v19,
   main_v20, main_v21, main_v22, main_v23, main_v24, main_v25, main_v26, main_v27, main_v28, main_v29,
   main_v30, main_v31, main_v32, main_v33, main_v34, main_v35, main_v36, main_v37, main_v38, main_v39,
   main_v40, main_v41, main_v42, main_v43, main_v44, main_v45, main_v46, main_v47, main_v48, main_v49,
   main_v50, main_v51, main_v52, main_v53, main_v54, main_v55, main_v56, main_v57, main_v58, main_v59,
   main_v60, main_v61, main_v62, main_v63, main_v64, main_v65, main_v66, main_v67, main_v68, main_v69,
   main_c, main_c_0, main_c_1, main_c_2, main_c_4, main_c_5, main_c_7, main_c_8,
   main_cst, main_cst_3, main_cst_6, main_cst_9]

theorem wr4_sub : ∀ x ∈ wr4, x ∈ written := by decide
theorem wr9_sub : ∀ x ∈ wr9, x ∈ written := by decide

/-- What core `c`'s buffer `b` holds when the program is launched. -/
abbrev mem0 (c : Dev nD) (b : Ref sig .tc) : Buf (Elt Ideal) ((c : Thread nD τ).loc b) := m ((c : Thread nD τ).loc b)

theorem launch1 (c : Dev nD) (b : Ref sig .tc) (hb : b ∉ written) :
    W1 (F := Ideal) m ρ c (Proc.devRef .tc b) = mem0 m c b :=
  (keepH0 m ρ c b (ne_of_not_mem hb (x := main_v0) (by decide))).trans rfl
theorem launch2 (c : Dev nD) (b : Ref sig .tc) (hb : b ∉ written) :
    W2 (F := Ideal) m ρ c (Proc.devRef .tc b) = mem0 m c b :=
  (keepR0 m ρ c b (ne_of_not_mem hb (x := main_v1) (by decide))).trans (launch1 m ρ c b hb)
theorem launch3 (c : Dev nD) (b : Ref sig .tc) (hb : b ∉ written) :
    W3 (F := Ideal) m ρ c (Proc.devRef .tc b) = mem0 m c b :=
  (keepH1 m ρ c b (ne_of_not_mem hb (x := main_v2) (by decide))).trans (launch2 m ρ c b hb)
theorem launch4 (c : Dev nD) (b : Ref sig .tc) (hb : b ∉ written) :
    W4 (F := Ideal) m ρ c (Proc.devRef .tc b) = mem0 m c b :=
  (keepR1 m ρ c b (ne_of_not_mem hb (x := main_v3) (by decide))).trans (launch3 m ρ c b hb)
theorem launch5 (c : Dev nD) (b : Ref sig .tc) (hb : b ∉ written) :
    W5 (F := Ideal) m ρ c (Proc.devRef .tc b) = mem0 m c b :=
  (keepH2 m ρ c b (ne_of_not_mem hb (x := main_v4) (by decide))).trans (launch4 m ρ c b hb)
theorem launch6 (c : Dev nD) (b : Ref sig .tc) (hb : b ∉ written) :
    W6 (F := Ideal) m ρ c (Proc.devRef .tc b) = mem0 m c b :=
  (keepR2 m ρ c b (ne_of_not_mem hb (x := main_v5) (by decide))).trans (launch5 m ρ c b hb)
theorem launch7 (c : Dev nD) (b : Ref sig .tc) (hb : b ∉ written) :
    W7 (F := Ideal) m ρ c (Proc.devRef .tc b) = mem0 m c b :=
  (keepH3 m ρ c b (ne_of_not_mem hb (x := main_v6) (by decide))).trans (launch6 m ρ c b hb)
theorem launch8 (c : Dev nD) (b : Ref sig .tc) (hb : b ∉ written) :
    W8 (F := Ideal) m ρ c (Proc.devRef .tc b) = mem0 m c b :=
  (keepR3 m ρ c b (ne_of_not_mem hb (x := main_v7) (by decide))).trans (launch7 m ρ c b hb)
theorem launch9 (c : Dev nD) (b : Ref sig .tc) (hb : b ∉ written) :
    W9 (F := Ideal) m ρ c (Proc.devRef .tc b) = mem0 m c b :=
  (keepH4 m ρ c b (fun x hx => ne_of_not_mem hb (wr4_sub x hx))).trans (launch8 m ρ c b hb)
theorem launch10 (c : Dev nD) (b : Ref sig .tc) (hb : b ∉ written) :
    W10 (F := Ideal) m ρ c (Proc.devRef .tc b) = mem0 m c b :=
  (keepR4 m ρ c b (ne_of_not_mem hb (x := main_v34) (by decide))).trans (launch9 m ρ c b hb)
theorem launch11 (c : Dev nD) (b : Ref sig .tc) (hb : b ∉ written) :
    W11 (F := Ideal) m ρ c (Proc.devRef .tc b) = mem0 m c b :=
  (keepH5 m ρ c b (ne_of_not_mem hb (x := main_v35) (by decide))).trans (launch10 m ρ c b hb)
theorem launch12 (c : Dev nD) (b : Ref sig .tc) (hb : b ∉ written) :
    W12 (F := Ideal) m ρ c (Proc.devRef .tc b) = mem0 m c b :=
  (keepR5 m ρ c b (ne_of_not_mem hb (x := main_v36) (by decide))).trans (launch11 m ρ c b hb)
theorem launch13 (c : Dev nD) (b : Ref sig .tc) (hb : b ∉ written) :
    W13 (F := Ideal) m ρ c (Proc.devRef .tc b) = mem0 m c b :=
  (keepH6 m ρ c b (ne_of_not_mem hb (x := main_v37) (by decide))).trans (launch12 m ρ c b hb)
theorem launch14 (c : Dev nD) (b : Ref sig .tc) (hb : b ∉ written) :
    W14 (F := Ideal) m ρ c (Proc.devRef .tc b) = mem0 m c b :=
  (keepR6 m ρ c b (ne_of_not_mem hb (x := main_v38) (by decide))).trans (launch13 m ρ c b hb)
theorem launch15 (c : Dev nD) (b : Ref sig .tc) (hb : b ∉ written) :
    W15 (F := Ideal) m ρ c (Proc.devRef .tc b) = mem0 m c b :=
  (keepH7 m ρ c b (ne_of_not_mem hb (x := main_v39) (by decide))).trans (launch14 m ρ c b hb)
theorem launch16 (c : Dev nD) (b : Ref sig .tc) (hb : b ∉ written) :
    W16 (F := Ideal) m ρ c (Proc.devRef .tc b) = mem0 m c b :=
  (keepR7 m ρ c b (ne_of_not_mem hb (x := main_v40) (by decide))).trans (launch15 m ρ c b hb)
theorem launch17 (c : Dev nD) (b : Ref sig .tc) (hb : b ∉ written) :
    W17 (F := Ideal) m ρ c (Proc.devRef .tc b) = mem0 m c b :=
  (keepH8 m ρ c b (ne_of_not_mem hb (x := main_v41) (by decide))).trans (launch16 m ρ c b hb)
theorem launch18 (c : Dev nD) (b : Ref sig .tc) (hb : b ∉ written) :
    W18 (F := Ideal) m ρ c (Proc.devRef .tc b) = mem0 m c b :=
  (keepR8 m ρ c b (ne_of_not_mem hb (x := main_v42) (by decide))).trans (launch17 m ρ c b hb)

/-! ## The intermediate tables, as terms of the launch memory -/

/-- The papers' own affine map of the first layer (`main_v1`). -/
def selfP1 (c : Dev nD) : Vec Ideal ⟨2, ![100000, 256]⟩ .f32 :=
  Hetero.lin 100000 512 256 (mem0 m c main_arg0) (mem0 m c main_arg8) (Hetero.col (mem0 m c main_arg9))
/-- The authors' activated first layer (`main_v3`). -/
def hidA (c : Dev nD) : Vec Ideal ⟨2, ![20000, 256]⟩ .f32 :=
  Hetero.elu (Hetero.lin 20000 128 256 (mem0 m c main_arg1) (mem0 m c main_arg10) (Hetero.col (mem0 m c main_arg11)))
/-- The first layer's messages along the author → paper relation (`main_v5`). -/
def msgW1 (c : Dev nD) : Vec Ideal ⟨2, ![20000, 256]⟩ .f32 :=
  Hetero.lin 20000 128 256 (mem0 m c main_arg1) (mem0 m c main_arg12) (Hetero.col (mem0 m c main_arg13))
/-- The first layer's messages along the paper → paper relation (`main_v7`). -/
def msgC1 (c : Dev nD) : Vec Ideal ⟨2, ![100000, 256]⟩ .f32 :=
  Hetero.lin 100000 512 256 (mem0 m c main_arg0) (mem0 m c main_arg14) (Hetero.col (mem0 m c main_arg15))
/-- The first layer's messages summed at the papers, author → paper relation (`main_v20`). -/
def sumW1 (c : Dev nD) : Vec Ideal ⟨2, ![100000, 256]⟩ .f32 :=
  Terms.aggW (F := Ideal) (msgW1 m c) (mem0 m c main_arg2) (mem0 m c main_arg3) (mem0 m c main_arg4)
/-- The first layer's messages summed at the papers, paper → paper relation (`main_v33`). -/
def sumC1 (c : Dev nD) : Vec Ideal ⟨2, ![100000, 256]⟩ .f32 :=
  Terms.aggC (F := Ideal) (msgC1 m c) (mem0 m c main_arg5) (mem0 m c main_arg6) (mem0 m c main_arg7)
/-- The papers' activated first layer (`main_v34`). -/
def hidP (c : Dev nD) : Vec Ideal ⟨2, ![100000, 256]⟩ .f32 :=
  Hetero.elu (Hetero.add3 (selfP1 m c) (sumW1 m c) (sumC1 m c))
/-- The papers' own affine map of the second layer (`main_v36`). -/
def selfP2 (c : Dev nD) : Vec Ideal ⟨2, ![100000, 256]⟩ .f32 :=
  Hetero.lin 100000 256 256 (hidP m c) (mem0 m c main_arg16) (Hetero.col (mem0 m c main_arg17))
/-- The authors' result (`main_v38`). -/
def resA (c : Dev nD) : Vec Ideal ⟨2, ![20000, 256]⟩ .f32 :=
  Hetero.lin 20000 256 256 (hidA m c) (mem0 m c main_arg18) (Hetero.col (mem0 m c main_arg19))
/-- The second layer's messages along the author → paper relation (`main_v40`). -/
def msgW2 (c : Dev nD) : Vec Ideal ⟨2, ![20000, 256]⟩ .f32 :=
  Hetero.lin 20000 256 256 (hidA m c) (mem0 m c main_arg20) (Hetero.col (mem0 m c main_arg21))
/-- The second layer's messages along the paper → paper relation (`main_v42`). -/
def msgC2 (c : Dev nD) : Vec Ideal ⟨2, ![100000, 256]⟩ .f32 :=
  Hetero.lin 100000 256 256 (hidP m c) (mem0 m c main_arg22) (Hetero.col (mem0 m c main_arg23))
/-- The second layer's messages summed at the papers, author → paper relation (`main_v55`). -/
def sumW2 (c : Dev nD) : Vec Ideal ⟨2, ![100000, 256]⟩ .f32 :=
  Terms.aggW (F := Ideal) (msgW2 m c) (mem0 m c main_arg2) (mem0 m c main_arg3) (mem0 m c main_arg4)
/-- The second layer's messages summed at the papers, paper → paper relation (`main_v68`). -/
def sumC2 (c : Dev nD) : Vec Ideal ⟨2, ![100000, 256]⟩ .f32 :=
  Terms.aggC (F := Ideal) (msgC2 m c) (mem0 m c main_arg5) (mem0 m c main_arg6) (mem0 m c main_arg7)
/-- The papers' result (`main_v69`). -/
def resP (c : Dev nD) : Vec Ideal ⟨2, ![100000, 256]⟩ .f32 :=
  Hetero.add3 (selfP2 m c) (sumW2 m c) (sumC2 m c)

/-! ## The biases: a vector reshaped to a one-row table reads, at column `j` of its row, the vector at `j` -/

theorem row0_reshape (b : Vec Ideal ⟨1, ![256]⟩ .f32) (h : (⟨1, ![256]⟩ : Shape).ShapeCasts ⟨2, ![1, 256]⟩) :
    Hetero.row0 (shapeCast ⟨2, ![1, 256]⟩ b h) = Hetero.col b := by
  funext j
  exact shapeCast_a_1a_apply b h 0 j

theorem bias0 (c : Dev nD) :
    Hetero.row0 (W1 (F := Ideal) m ρ c (Proc.devRef .tc main_v0)) = Hetero.col (mem0 m c main_arg9) := by
  refine Eq.trans ?_ (row0_reshape (mem0 m c main_arg9) shapeCasts_S256_S1x256)
  refine congrArg Hetero.row0 ?_
  show StableHlo.after hostOps0 (W0 m ρ c) (Proc.devRef .tc main_v0) = _
  after_results
  rfl

theorem bias1 (c : Dev nD) :
    Hetero.row0 (W3 (F := Ideal) m ρ c (Proc.devRef .tc main_v2)) = Hetero.col (mem0 m c main_arg11) := by
  refine Eq.trans ?_ ((row0_reshape (W2 m ρ c (Proc.devRef .tc main_arg11)) shapeCasts_S256_S1x256).trans
    (congrArg (Hetero.col (N := 256)) (launch2 m ρ c main_arg11 (by decide))))
  refine congrArg Hetero.row0 ?_
  show StableHlo.after hostOps1 (W2 m ρ c) (Proc.devRef .tc main_v2) = _
  after_results
  rfl

theorem bias2 (c : Dev nD) :
    Hetero.row0 (W5 (F := Ideal) m ρ c (Proc.devRef .tc main_v4)) = Hetero.col (mem0 m c main_arg13) := by
  refine Eq.trans ?_ ((row0_reshape (W4 m ρ c (Proc.devRef .tc main_arg13)) shapeCasts_S256_S1x256).trans
    (congrArg (Hetero.col (N := 256)) (launch4 m ρ c main_arg13 (by decide))))
  refine congrArg Hetero.row0 ?_
  show StableHlo.after hostOps2 (W4 m ρ c) (Proc.devRef .tc main_v4) = _
  after_results
  rfl

theorem bias3 (c : Dev nD) :
    Hetero.row0 (W7 (F := Ideal) m ρ c (Proc.devRef .tc main_v6)) = Hetero.col (mem0 m c main_arg15) := by
  refine Eq.trans ?_ ((row0_reshape (W6 m ρ c (Proc.devRef .tc main_arg15)) shapeCasts_S256_S1x256).trans
    (congrArg (Hetero.col (N := 256)) (launch6 m ρ c main_arg15 (by decide))))
  refine congrArg Hetero.row0 ?_
  show StableHlo.after hostOps3 (W6 m ρ c) (Proc.devRef .tc main_v6) = _
  after_results
  rfl

theorem bias5 (c : Dev nD) :
    Hetero.row0 (W11 (F := Ideal) m ρ c (Proc.devRef .tc main_v35)) = Hetero.col (mem0 m c main_arg17) := by
  refine Eq.trans ?_ ((row0_reshape (W10 m ρ c (Proc.devRef .tc main_arg17)) shapeCasts_S256_S1x256).trans
    (congrArg (Hetero.col (N := 256)) (launch10 m ρ c main_arg17 (by decide))))
  refine congrArg Hetero.row0 ?_
  show StableHlo.after hostOps5 (W10 m ρ c) (Proc.devRef .tc main_v35) = _
  after_results
  rfl

theorem bias6 (c : Dev nD) :
    Hetero.row0 (W13 (F := Ideal) m ρ c (Proc.devRef .tc main_v37)) = Hetero.col (mem0 m c main_arg19) := by
  refine Eq.trans ?_ ((row0_reshape (W12 m ρ c (Proc.devRef .tc main_arg19)) shapeCasts_S256_S1x256).trans
    (congrArg (Hetero.col (N := 256)) (launch12 m ρ c main_arg19 (by decide))))
  refine congrArg Hetero.row0 ?_
  show StableHlo.after hostOps6 (W12 m ρ c) (Proc.devRef .tc main_v37) = _
  after_results
  rfl

theorem bias7 (c : Dev nD) :
    Hetero.row0 (W15 (F := Ideal) m ρ c (Proc.devRef .tc main_v39)) = Hetero.col (mem0 m c main_arg21) := by
  refine Eq.trans ?_ ((row0_reshape (W14 m ρ c (Proc.devRef .tc main_arg21)) shapeCasts_S256_S1x256).trans
    (congrArg (Hetero.col (N := 256)) (launch14 m ρ c main_arg21 (by decide))))
  refine congrArg Hetero.row0 ?_
  show StableHlo.after hostOps7 (W14 m ρ c) (Proc.devRef .tc main_v39) = _
  after_results
  rfl

theorem bias8 (c : Dev nD) :
    Hetero.row0 (W17 (F := Ideal) m ρ c (Proc.devRef .tc main_v41)) = Hetero.col (mem0 m c main_arg23) := by
  refine Eq.trans ?_ ((row0_reshape (W16 m ρ c (Proc.devRef .tc main_arg23)) shapeCasts_S256_S1x256).trans
    (congrArg (Hetero.col (N := 256)) (launch16 m ρ c main_arg23 (by decide))))
  refine congrArg Hetero.row0 ?_
  show StableHlo.after hostOps8 (W16 m ρ c) (Proc.devRef .tc main_v41) = _
  after_results
  rfl

/-! ## The first layer -/

/-- Region 0 writes the papers' own affine map. -/
theorem W2_v1 (c : Dev nD) : W2 (F := Ideal) m ρ c (Proc.devRef .tc main_v1) = selfP1 m c := by
  refine ((W2_arr m ρ c 3).trans (region0_value (V1 m ρ) c)).trans ?_
  rw [show V1 m ρ c main_arg0 = mem0 m c main_arg0 from launch1 m ρ c main_arg0 (by decide),
    show V1 m ρ c main_arg8 = mem0 m c main_arg8 from launch1 m ρ c main_arg8 (by decide),
    show Hetero.row0 (V1 m ρ c main_v0) = Hetero.col (mem0 m c main_arg9) from bias0 m ρ c]
  rfl

/-- … carried to region 4's entry. -/
theorem W9_v1 (c : Dev nD) : W9 (F := Ideal) m ρ c (Proc.devRef .tc main_v1) = selfP1 m c :=
  (keepH4 m ρ c main_v1 (by decide)).trans <| (keepR3 m ρ c main_v1 (by decide)).trans <|
  (keepH3 m ρ c main_v1 (by decide)).trans <| (keepR2 m ρ c main_v1 (by decide)).trans <|
  (keepH2 m ρ c main_v1 (by decide)).trans <| (keepR1 m ρ c main_v1 (by decide)).trans <|
  (keepH1 m ρ c main_v1 (by decide)).trans <| W2_v1 m ρ c

/-- Region 1 writes the authors' activated first layer. -/
theorem W4_v3 (c : Dev nD) : W4 (F := Ideal) m ρ c (Proc.devRef .tc main_v3) = hidA m c := by
  refine ((W4_arr m ρ c 3).trans (region1_value (V3 m ρ) c)).trans ?_
  rw [show V3 m ρ c main_arg1 = mem0 m c main_arg1 from launch3 m ρ c main_arg1 (by decide),
    show V3 m ρ c main_arg10 = mem0 m c main_arg10 from launch3 m ρ c main_arg10 (by decide),
    show Hetero.row0 (V3 m ρ c main_v2) = Hetero.col (mem0 m c main_arg11) from bias1 m ρ c]
  rfl

/-- … carried to region 6's entry. -/
theorem W13_v3 (c : Dev nD) : W13 (F := Ideal) m ρ c (Proc.devRef .tc main_v3) = hidA m c :=
  (keepH6 m ρ c main_v3 (by decide)).trans <| (keepR5 m ρ c main_v3 (by decide)).trans <|
  (keepH5 m ρ c main_v3 (by decide)).trans <| (keepR4 m ρ c main_v3 (by decide)).trans <|
  (keepH4 m ρ c main_v3 (by decide)).trans <| (keepR3 m ρ c main_v3 (by decide)).trans <|
  (keepH3 m ρ c main_v3 (by decide)).trans <| (keepR2 m ρ c main_v3 (by decide)).trans <|
  (keepH2 m ρ c main_v3 (by decide)).trans <| W4_v3 m ρ c

/-- … and on to region 7's entry. -/
theorem W15_v3 (c : Dev nD) : W15 (F := Ideal) m ρ c (Proc.devRef .tc main_v3) = hidA m c :=
  (keepH7 m ρ c main_v3 (by decide)).trans <| (keepR6 m ρ c main_v3 (by decide)).trans <| W13_v3 m ρ c

/-- Region 2 writes the first layer's author → paper messages. -/
theorem W6_v5 (c : Dev nD) : W6 (F := Ideal) m ρ c (Proc.devRef .tc main_v5) = msgW1 m c := by
  refine ((W6_arr m ρ c 3).trans (region2_value (V5 m ρ) c)).trans ?_
  rw [show V5 m ρ c main_arg1 = mem0 m c main_arg1 from launch5 m ρ c main_arg1 (by decide),
    show V5 m ρ c main_arg12 = mem0 m c main_arg12 from launch5 m ρ c main_arg12 (by decide),
    show Hetero.row0 (V5 m ρ c main_v4) = Hetero.col (mem0 m c main_arg13) from bias2 m ρ c]
  rfl

/-- … carried to the host stretch that aggregates them. -/
theorem W8_v5 (c : Dev nD) : W8 (F := Ideal) m ρ c (Proc.devRef .tc main_v5) = msgW1 m c :=
  (keepR3 m ρ c main_v5 (by decide)).trans <| (keepH3 m ρ c main_v5 (by decide)).trans <| W6_v5 m ρ c

/-- Region 3 writes the first layer's paper → paper messages. -/
theorem W8_v7 (c : Dev nD) : W8 (F := Ideal) m ρ c (Proc.devRef .tc main_v7) = msgC1 m c := by
  refine ((W8_arr m ρ c 3).trans (region3_value (V7 m ρ) c)).trans ?_
  rw [show V7 m ρ c main_arg0 = mem0 m c main_arg0 from launch7 m ρ c main_arg0 (by decide),
    show V7 m ρ c main_arg14 = mem0 m c main_arg14 from launch7 m ρ c main_arg14 (by decide),
    show Hetero.row0 (V7 m ρ c main_v6) = Hetero.col (mem0 m c main_arg15) from bias3 m ρ c]
  rfl

/-- Host stretch 4 aggregates the author → paper messages: its sixteen operations on that relation compose to
    `Terms.aggW` of the messages and the relation's three edge arrays. -/
theorem W9_v20 (c : Dev nD) : W9 (F := Ideal) m ρ c (Proc.devRef .tc main_v20) = sumW1 m c := by
  have e : W9 (F := Ideal) m ρ c (Proc.devRef .tc main_v20)
      = Terms.aggW (F := Ideal) (W8 m ρ c (Proc.devRef .tc main_v5)) (W8 m ρ c (Proc.devRef .tc main_arg2))
          (W8 m ρ c (Proc.devRef .tc main_arg3)) (W8 m ρ c (Proc.devRef .tc main_arg4)) := by
    show StableHlo.after hostOps4 (W8 m ρ c) (Proc.devRef .tc main_v20) = _
    after_results_simp
    rfl
  rw [e, W8_v5 m ρ c, launch8 m ρ c main_arg2 (by decide), launch8 m ρ c main_arg3 (by decide),
    launch8 m ρ c main_arg4 (by decide)]
  rfl

/-- … and the paper → paper messages, to `Terms.aggC`. -/
theorem W9_v33 (c : Dev nD) : W9 (F := Ideal) m ρ c (Proc.devRef .tc main_v33) = sumC1 m c := by
  have e : W9 (F := Ideal) m ρ c (Proc.devRef .tc main_v33)
      = Terms.aggC (F := Ideal) (W8 m ρ c (Proc.devRef .tc main_v7)) (W8 m ρ c (Proc.devRef .tc main_arg5))
          (W8 m ρ c (Proc.devRef .tc main_arg6)) (W8 m ρ c (Proc.devRef .tc main_arg7)) := by
    show StableHlo.after hostOps4 (W8 m ρ c) (Proc.devRef .tc main_v33) = _
    after_results_simp
    rfl
  rw [e, W8_v7 m ρ c, launch8 m ρ c main_arg5 (by decide), launch8 m ρ c main_arg6 (by decide),
    launch8 m ρ c main_arg7 (by decide)]
  rfl

/-- Region 4 sums the three terms at the papers and activates the sum. -/
theorem W10_v34 (c : Dev nD) : W10 (F := Ideal) m ρ c (Proc.devRef .tc main_v34) = hidP m c := by
  refine ((W10_arr m ρ c 3).trans (region4_value (V9 m ρ) c)).trans ?_
  rw [show V9 m ρ c main_v1 = selfP1 m c from W9_v1 m ρ c,
    show V9 m ρ c main_v20 = sumW1 m c from W9_v20 m ρ c,
    show V9 m ρ c main_v33 = sumC1 m c from W9_v33 m ρ c]
  rfl

/-! ## The second layer -/

/-- The papers' activated first layer at region 5's entry. -/
theorem W11_v34 (c : Dev nD) : W11 (F := Ideal) m ρ c (Proc.devRef .tc main_v34) = hidP m c :=
  (keepH5 m ρ c main_v34 (by decide)).trans <| W10_v34 m ρ c

/-- … and at region 8's entry. -/
theorem W17_v34 (c : Dev nD) : W17 (F := Ideal) m ρ c (Proc.devRef .tc main_v34) = hidP m c :=
  (keepH8 m ρ c main_v34 (by decide)).trans <| (keepR7 m ρ c main_v34 (by decide)).trans <|
  (keepH7 m ρ c main_v34 (by decide)).trans <| (keepR6 m ρ c main_v34 (by decide)).trans <|
  (keepH6 m ρ c main_v34 (by decide)).trans <| (keepR5 m ρ c main_v34 (by decide)).trans <| W11_v34 m ρ c

/-- Region 5 writes the papers' own affine map of the second layer. -/
theorem W12_v36 (c : Dev nD) : W12 (F := Ideal) m ρ c (Proc.devRef .tc main_v36) = selfP2 m c := by
  refine ((W12_arr m ρ c 3).trans (region5_value (V11 m ρ) c)).trans ?_
  rw [show V11 m ρ c main_v34 = hidP m c from W11_v34 m ρ c,
    show V11 m ρ c main_arg16 = mem0 m c main_arg16 from launch11 m ρ c main_arg16 (by decide),
    show Hetero.row0 (V11 m ρ c main_v35) = Hetero.col (mem0 m c main_arg17) from bias5 m ρ c]
  rfl

/-- … carried to region 9's entry. -/
theorem W19_v36 (c : Dev nD) : W19 (F := Ideal) m ρ c (Proc.devRef .tc main_v36) = selfP2 m c :=
  (keepH9 m ρ c main_v36 (by decide)).trans <| (keepR8 m ρ c main_v36 (by decide)).trans <|
  (keepH8 m ρ c main_v36 (by decide)).trans <| (keepR7 m ρ c main_v36 (by decide)).trans <|
  (keepH7 m ρ c main_v36 (by decide)).trans <| (keepR6 m ρ c main_v36 (by decide)).trans <|
  (keepH6 m ρ c main_v36 (by decide)).trans <| W12_v36 m ρ c

/-- Region 6 writes the authors' result. -/
theorem W14_v38 (c : Dev nD) : W14 (F := Ideal) m ρ c (Proc.devRef .tc main_v38) = resA m c := by
  refine ((W14_arr m ρ c 3).trans (region6_value (V13 m ρ) c)).trans ?_
  rw [show V13 m ρ c main_v3 = hidA m c from W13_v3 m ρ c,
    show V13 m ρ c main_arg18 = mem0 m c main_arg18 from launch13 m ρ c main_arg18 (by decide),
    show Hetero.row0 (V13 m ρ c main_v37) = Hetero.col (mem0 m c main_arg19) from bias6 m ρ c]
  rfl

/-- … carried to the return. -/
theorem W20_v38' (c : Dev nD) : W20 (F := Ideal) m ρ c (Proc.devRef .tc main_v38) = resA m c :=
  (keepR9 m ρ c main_v38 (by decide)).trans <| (keepH9 m ρ c main_v38 (by decide)).trans <|
  (keepR8 m ρ c main_v38 (by decide)).trans <| (keepH8 m ρ c main_v38 (by decide)).trans <|
  (keepR7 m ρ c main_v38 (by decide)).trans <| (keepH7 m ρ c main_v38 (by decide)).trans <| W14_v38 m ρ c

/-- Region 7 writes the second layer's author → paper messages. -/
theorem W16_v40 (c : Dev nD) : W16 (F := Ideal) m ρ c (Proc.devRef .tc main_v40) = msgW2 m c := by
  refine ((W16_arr m ρ c 3).trans (region7_value (V15 m ρ) c)).trans ?_
  rw [show V15 m ρ c main_v3 = hidA m c from W15_v3 m ρ c,
    show V15 m ρ c main_arg20 = mem0 m c main_arg20 from launch15 m ρ c main_arg20 (by decide),
    show Hetero.row0 (V15 m ρ c main_v39) = Hetero.col (mem0 m c main_arg21) from bias7 m ρ c]
  rfl

/-- … carried to the host stretch that aggregates them. -/
theorem W18_v40 (c : Dev nD) : W18 (F := Ideal) m ρ c (Proc.devRef .tc main_v40) = msgW2 m c :=
  (keepR8 m ρ c main_v40 (by decide)).trans <| (keepH8 m ρ c main_v40 (by decide)).trans <| W16_v40 m ρ c

/-- Region 8 writes the second layer's paper → paper messages. -/
theorem W18_v42 (c : Dev nD) : W18 (F := Ideal) m ρ c (Proc.devRef .tc main_v42) = msgC2 m c := by
  refine ((W18_arr m ρ c 3).trans (region8_value (V17 m ρ) c)).trans ?_
  rw [show V17 m ρ c main_v34 = hidP m c from W17_v34 m ρ c,
    show V17 m ρ c main_arg22 = mem0 m c main_arg22 from launch17 m ρ c main_arg22 (by decide),
    show Hetero.row0 (V17 m ρ c main_v41) = Hetero.col (mem0 m c main_arg23) from bias8 m ρ c]
  rfl

/-- Host stretch 9 aggregates the second layer's author → paper messages. -/
theorem W19_v55 (c : Dev nD) : W19 (F := Ideal) m ρ c (Proc.devRef .tc main_v55) = sumW2 m c := by
  have e : W19 (F := Ideal) m ρ c (Proc.devRef .tc main_v55)
      = Terms.aggW (F := Ideal) (W18 m ρ c (Proc.devRef .tc main_v40)) (W18 m ρ c (Proc.devRef .tc main_arg2))
          (W18 m ρ c (Proc.devRef .tc main_arg3)) (W18 m ρ c (Proc.devRef .tc main_arg4)) := by
    show StableHlo.after hostOps9 (W18 m ρ c) (Proc.devRef .tc main_v55) = _
    after_results_simp
    rfl
  rw [e, W18_v40 m ρ c, launch18 m ρ c main_arg2 (by decide), launch18 m ρ c main_arg3 (by decide),
    launch18 m ρ c main_arg4 (by decide)]
  rfl

/-- … and its paper → paper messages. -/
theorem W19_v68 (c : Dev nD) : W19 (F := Ideal) m ρ c (Proc.devRef .tc main_v68) = sumC2 m c := by
  have e : W19 (F := Ideal) m ρ c (Proc.devRef .tc main_v68)
      = Terms.aggC (F := Ideal) (W18 m ρ c (Proc.devRef .tc main_v42)) (W18 m ρ c (Proc.devRef .tc main_arg5))
          (W18 m ρ c (Proc.devRef .tc main_arg6)) (W18 m ρ c (Proc.devRef .tc main_arg7)) := by
    show StableHlo.after hostOps9 (W18 m ρ c) (Proc.devRef .tc main_v68) = _
    after_results_simp
    rfl
  rw [e, W18_v42 m ρ c, launch18 m ρ c main_arg5 (by decide), launch18 m ρ c main_arg6 (by decide),
    launch18 m ρ c main_arg7 (by decide)]
  rfl

/-- Region 9 sums the three terms at the papers: the papers' result. -/
theorem W20_v69' (c : Dev nD) : W20 (F := Ideal) m ρ c (Proc.devRef .tc main_v69) = resP m c := by
  refine ((W20_arr m ρ c 3).trans (region9_value (V19 m ρ) c)).trans ?_
  rw [show V19 m ρ c main_v36 = selfP2 m c from W19_v36 m ρ c,
    show V19 m ρ c main_v55 = sumW2 m c from W19_v55 m ρ c,
    show V19 m ρ c main_v68 = sumC2 m c from W19_v68 m ρ c]
  rfl

/-! ## The two results -/

theorem W20_v38 (c : Dev nD) :
    W20 (F := Ideal) m ρ c (Proc.devRef .tc main_v38)
      = Hetero.outA 20000 128 256 (m ((c : Thread nD τ).loc main_arg1)) (m ((c : Thread nD τ).loc main_arg10)) (Hetero.col (m ((c : Thread nD τ).loc main_arg11))) (m ((c : Thread nD τ).loc main_arg18)) (Hetero.col (m ((c : Thread nD τ).loc main_arg19))) :=
  (W20_v38' m ρ c).trans rfl

theorem W20_v69 (c : Dev nD) :
    W20 (F := Ideal) m ρ c (Proc.devRef .tc main_v69)
      = Hetero.outP 100000 20000 512 128 256
          (fun t => Terms.aggW t (m ((c : Thread nD τ).loc main_arg2)) (m ((c : Thread nD τ).loc main_arg3)) (m ((c : Thread nD τ).loc main_arg4)))
          (fun t => Terms.aggC t (m ((c : Thread nD τ).loc main_arg5)) (m ((c : Thread nD τ).loc main_arg6)) (m ((c : Thread nD τ).loc main_arg7)))
          (m ((c : Thread nD τ).loc main_arg0)) (m ((c : Thread nD τ).loc main_arg1))
          (m ((c : Thread nD τ).loc main_arg8)) (Hetero.col (m ((c : Thread nD τ).loc main_arg9))) (m ((c : Thread nD τ).loc main_arg10)) (Hetero.col (m ((c : Thread nD τ).loc main_arg11)))
          (m ((c : Thread nD τ).loc main_arg12)) (Hetero.col (m ((c : Thread nD τ).loc main_arg13))) (m ((c : Thread nD τ).loc main_arg14)) (Hetero.col (m ((c : Thread nD τ).loc main_arg15)))
          (m ((c : Thread nD τ).loc main_arg16)) (Hetero.col (m ((c : Thread nD τ).loc main_arg17))) (m ((c : Thread nD τ).loc main_arg20)) (Hetero.col (m ((c : Thread nD τ).loc main_arg21)))
          (m ((c : Thread nD τ).loc main_arg22)) (Hetero.col (m ((c : Thread nD τ).loc main_arg23))) :=
  (W20_v69' m ρ c).trans rfl

end Cert.KernelIdeal.Chain

end
-- ==== Proof.RTerms.lean ====
/-
  The reference program's result terms, named.  Each definition is one stretch of the reference's host operations
  composed into a single pure term of its operands, in the operations' own spelling; `resP` and `resA` are the two
  results as terms of the launch memory.
-/
import proofs.«143226_j11252814315838_1_alg».proof.ReferenceIdeal
import proofs.«143226_j11252814315838_1_alg».proof.Proof.Gen.ReferenceIdeal

noncomputable section

namespace Cert.ReferenceIdeal.Terms

open Cert.ReferenceIdeal Cert.ReferenceIdeal.Facts₀ Cert.ReferenceIdeal.Facts Idealize.ShloMosaic Idealize.ShloMosaic.TcCoe Idealize.SL.Sem

variable {F : FTy → Type} [FloatOps F]

/-- The affine map of a 100000×512 table as the host spells it: the matrix product, plus the bias broadcast over the rows. -/
def linP1 (x : (⟨S100000x512, .f32⟩ : BufTy).Contents (Elt F)) (w : (⟨S512x256, .f32⟩ : BufTy).Contents (Elt F))
    (b : (⟨S256, .f32⟩ : BufTy).Contents (Elt F)) : (⟨S100000x256, .f32⟩ : BufTy).Contents (Elt F) :=
  addf (Host.dotGeneral dot_S100000x512_S512x256_S100000x256_1_0_0_1_n_n none x w)
    (broadcastInDim S100000x256 ![0, 1] bcast_S1x256_S100000x256_0_1 (broadcastInDim S1x256 ![1] bcast_S256_S1x256_1 b))

/-- The affine map of a 20000×128 table as the host spells it: the matrix product, plus the bias broadcast over the rows. -/
def linA1 (x : (⟨S20000x128, .f32⟩ : BufTy).Contents (Elt F)) (w : (⟨S128x256, .f32⟩ : BufTy).Contents (Elt F))
    (b : (⟨S256, .f32⟩ : BufTy).Contents (Elt F)) : (⟨S20000x256, .f32⟩ : BufTy).Contents (Elt F) :=
  addf (Host.dotGeneral dot_S20000x128_S128x256_S20000x256_1_0_0_1_n_n none x w)
    (broadcastInDim S20000x256 ![0, 1] bcast_S1x256_S20000x256_0_1 (broadcastInDim S1x256 ![1] bcast_S256_S1x256_1 b))

/-- The affine map of a 100000×256 table as the host spells it: the matrix product, plus the bias broadcast over the rows. -/
def linP2 (x : (⟨S100000x256, .f32⟩ : BufTy).Contents (Elt F)) (w : (⟨S256x256, .f32⟩ : BufTy).Contents (Elt F))
    (b : (⟨S256, .f32⟩ : BufTy).Contents (Elt F)) : (⟨S100000x256, .f32⟩ : BufTy).Contents (Elt F) :=
  addf (Host.dotGeneral dot_S100000x256_S256x256_S100000x256_1_0_0_1_n_n none x w)
    (broadcastInDim S100000x256 ![0, 1] bcast_S1x256_S100000x256_0_1 (broadcastInDim S1x256 ![1] bcast_S256_S1x256_1 b))

/-- The affine map of a 20000×256 table as the host spells it: the matrix product, plus the bias broadcast over the rows. -/
def linA2 (x : (⟨S20000x256, .f32⟩ : BufTy).Contents (Elt F)) (w : (⟨S256x256, .f32⟩ : BufTy).Contents (Elt F))
    (b : (⟨S256, .f32⟩ : BufTy).Contents (Elt F)) : (⟨S20000x256, .f32⟩ : BufTy).Contents (Elt F) :=
  addf (Host.dotGeneral dot_S20000x256_S256x256_S20000x256_1_0_0_1_n_n none x w)
    (broadcastInDim S20000x256 ![0, 1] bcast_S1x256_S20000x256_0_1 (broadcastInDim S1x256 ![1] bcast_S256_S1x256_1 b))

/-- The exponential linear unit on a 100000×256 table as the host spells it: where the entry is positive the entry, elsewhere
    one times `expm1` of the entry (taken of zero at the positive entries, which the outer choice discards). -/
def eluP (x : (⟨S100000x256, .f32⟩ : BufTy).Contents (Elt F)) : (⟨S100000x256, .f32⟩ : BufTy).Contents (Elt F) :=
  select (cmpf .ogt x (broadcastInDim S100000x256 ![] bcast_S_S100000x256 (constant S_ .f32 0x00000000#32))) x
    (mulf (broadcastInDim S100000x256 ![] bcast_S_S100000x256 (constant S_ .f32 0x3F800000#32))
      (Host.expm1 (select (cmpf .ogt x (broadcastInDim S100000x256 ![] bcast_S_S100000x256 (constant S_ .f32 0x00000000#32)))
        (broadcastInDim S100000x256 ![] bcast_S_S100000x256 (id (constant S_ .f32 0x00000000#32))) x)))

/-- The exponential linear unit on a 20000×256 table as the host spells it: where the entry is positive the entry, elsewhere
    one times `expm1` of the entry (taken of zero at the positive entries, which the outer choice discards). -/
def eluA (x : (⟨S20000x256, .f32⟩ : BufTy).Contents (Elt F)) : (⟨S20000x256, .f32⟩ : BufTy).Contents (Elt F) :=
  select (cmpf .ogt x (broadcastInDim S20000x256 ![] bcast_S_S20000x256 (constant S_ .f32 0x00000000#32))) x
    (mulf (broadcastInDim S20000x256 ![] bcast_S_S20000x256 (constant S_ .f32 0x3F800000#32))
      (Host.expm1 (select (cmpf .ogt x (broadcastInDim S20000x256 ![] bcast_S_S20000x256 (constant S_ .f32 0x00000000#32)))
        (broadcastInDim S20000x256 ![] bcast_S_S20000x256 (id (constant S_ .f32 0x00000000#32))) x)))

/-- The author → paper relation's aggregation, as the host operations spell it: source indices below zero are
    wrapped once, the message rows are gathered at them, each gathered row is scaled by its edge's weight, and the
    scaled rows are added into a zero table at the destination indices. -/
def aggW (msg : (⟨S20000x256, .f32⟩ : BufTy).Contents (Elt F)) (src dst : (⟨S200000, .i32⟩ : BufTy).Contents (Elt F))
    (ew : (⟨S200000, .f32⟩ : BufTy).Contents (Elt F)) : (⟨S100000x256, .f32⟩ : BufTy).Contents (Elt F) :=
  Host.scatterAdd scatter_S100000x256_S200000x1_S200000x256_1_0_0_1
    (broadcastInDim S100000x256 ![] bcast_S_S100000x256 (constant S_ .f32 0x00000000#32))
    (broadcastInDim S200000x1 ![0] bcast_S200000_S200000x1_0 dst)
    (mulf (Host.gather gather_S20000x256_S200000x1_S200000x256_1_0_n_n_0_1_1256 msg
        (broadcastInDim S200000x1 ![0] bcast_S200000_S200000x1_0
          (select (cmpi .slt src (broadcastInDim S200000 ![] bcast_S_S200000 (constantI S_ 32 0#32)))
            (addi src (broadcastInDim S200000 ![] bcast_S_S200000 (constantI S_ 32 20000#32))) src)))
      (broadcastInDim S200000x256 ![0, 1] bcast_S200000x1_S200000x256_0_1 (broadcastInDim S200000x1 ![0] bcast_S200000_S200000x1_0 ew)))

/-- The paper → paper relation's aggregation: the same four steps over that relation's edges. -/
def aggC (msg : (⟨S100000x256, .f32⟩ : BufTy).Contents (Elt F)) (src dst : (⟨S400000, .i32⟩ : BufTy).Contents (Elt F))
    (ew : (⟨S400000, .f32⟩ : BufTy).Contents (Elt F)) : (⟨S100000x256, .f32⟩ : BufTy).Contents (Elt F) :=
  Host.scatterAdd scatter_S100000x256_S400000x1_S400000x256_1_0_0_1
    (broadcastInDim S100000x256 ![] bcast_S_S100000x256 (constant S_ .f32 0x00000000#32))
    (broadcastInDim S400000x1 ![0] bcast_S400000_S400000x1_0 dst)
    (mulf (Host.gather gather_S100000x256_S400000x1_S400000x256_1_0_n_n_0_1_1256 msg
        (broadcastInDim S400000x1 ![0] bcast_S400000_S400000x1_0
          (select (cmpi .slt src (broadcastInDim S400000 ![] bcast_S_S400000 (constantI S_ 32 0#32)))
            (addi src (broadcastInDim S400000 ![] bcast_S_S400000 (constantI S_ 32 100000#32))) src)))
      (broadcastInDim S400000x256 ![0, 1] bcast_S400000x1_S400000x256_0_1 (broadcastInDim S400000x1 ![0] bcast_S400000_S400000x1_0 ew)))

variable (m : (ℓ : Loc nD τ sig) → Buf (Elt F) ℓ) (c : Dev nD)

/-- The authors after the first layer. -/
def xa1 : (⟨S20000x256, .f32⟩ : BufTy).Contents (Elt F) := eluA (linA1 (m ((c.tc : Thread nD τ).loc main_arg1)) (m ((c.tc : Thread nD τ).loc main_arg10)) (m ((c.tc : Thread nD τ).loc main_arg11)))

/-- The papers after the first layer. -/
def xp1 : (⟨S100000x256, .f32⟩ : BufTy).Contents (Elt F) :=
  eluP (addf (addf (linP1 (m ((c.tc : Thread nD τ).loc main_arg0)) (m ((c.tc : Thread nD τ).loc main_arg8)) (m ((c.tc : Thread nD τ).loc main_arg9)))
      (aggW (linA1 (m ((c.tc : Thread nD τ).loc main_arg1)) (m ((c.tc : Thread nD τ).loc main_arg12)) (m ((c.tc : Thread nD τ).loc main_arg13))) (m ((c.tc : Thread nD τ).loc main_arg2)) (m ((c.tc : Thread nD τ).loc main_arg3)) (m ((c.tc : Thread nD τ).loc main_arg4))))
    (aggC (linP1 (m ((c.tc : Thread nD τ).loc main_arg0)) (m ((c.tc : Thread nD τ).loc main_arg14)) (m ((c.tc : Thread nD τ).loc main_arg15))) (m ((c.tc : Thread nD τ).loc main_arg5)) (m ((c.tc : Thread nD τ).loc main_arg6)) (m ((c.tc : Thread nD τ).loc main_arg7))))

/-- The authors' result. -/
def resA : (⟨S20000x256, .f32⟩ : BufTy).Contents (Elt F) := linA2 (xa1 m c) (m ((c.tc : Thread nD τ).loc main_arg18)) (m ((c.tc : Thread nD τ).loc main_arg19))

/-- The papers' result. -/
def resP : (⟨S100000x256, .f32⟩ : BufTy).Contents (Elt F) :=
  addf (addf (linP2 (xp1 m c) (m ((c.tc : Thread nD τ).loc main_arg16)) (m ((c.tc : Thread nD τ).loc main_arg17)))
      (aggW (linA2 (xa1 m c) (m ((c.tc : Thread nD τ).loc main_arg20)) (m ((c.tc : Thread nD τ).loc main_arg21))) (m ((c.tc : Thread nD τ).loc main_arg2)) (m ((c.tc : Thread nD τ).loc main_arg3)) (m ((c.tc : Thread nD τ).loc main_arg4))))
    (aggC (linP2 (xp1 m c) (m ((c.tc : Thread nD τ).loc main_arg22)) (m ((c.tc : Thread nD τ).loc main_arg23))) (m ((c.tc : Thread nD τ).loc main_arg5)) (m ((c.tc : Thread nD τ).loc main_arg6)) (m ((c.tc : Thread nD τ).loc main_arg7)))

end Cert.ReferenceIdeal.Terms

end
-- ==== Proof.RRun.lean ====
/-
  The reference program's run: every weakly fair execution ends with the two results at their named terms.

  @main is a straight line of 130 host operations once the two exponential-linear-unit functions (and the choice
  functions they call) are written out in place over their calls' buffers.  The line is cut into four stretches:
  `opsA` (the first layer up to the papers' pre-activation), `opsE` (the two exponential linear units), `opsB`
  (the second layer's first two affine maps) and `opsC` (the second layer's aggregations and sums).  The contents
  after the whole line are the fourth stretch's fold over the third's over the second's over the first's
  (`after_ops`), so each result is read back stretch by stretch: what a stretch computes at a buffer it writes is
  a term of the contents before it (`readA_v43` … `readC_v89`), and a buffer a stretch does not write keeps its
  contents through it (`frameA` … `frameC`).  Composed, the two results are `Terms.resP` and `Terms.resA` of the
  launch memory, and no stretch writes an argument.
-/
import proofs.«143226_j11252814315838_1_alg».proof.Proof.RTerms
import Idealize.ShloMosaic.Lib.StableHlo.Run
import Idealize.ShloMosaic.Lib.ValueIdx

noncomputable section

namespace Cert.ReferenceIdeal.Value

open Cert.ReferenceIdeal Cert.ReferenceIdeal.Gen Idealize.ShloMosaic Idealize.ShloMosaic.TcCoe Idealize.ShloMosaic.ValueIdx
open Idealize.SL Idealize.SL.Sem
open Idealize.ShloMosaic.StableHlo
variable {F : FTy → Type} [FloatOps F]

/-- The contents after two stretches run one after the other: the second's fold over the first's. -/
private theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => after_app l₁ l₂ (op.result V)

/-- An operation whose one written buffer is a member of a list of references writes inside that list. -/
private theorem writes_sub_of_mem {W : List (Ref sig .tc)} {op : HloOp τ sig (Elt F)} {y : Ref sig .tc}
    (hw : op.writes = {Proc.devRef .tc y}) (hy : y ∈ W) :
    op.writes ⊆ ((W.map (Proc.devRef (τ := τ) .tc)).toFinset : Finset (DevRef τ sig)) := by
  rw [hw, Finset.singleton_subset_iff, List.mem_toFinset]
  exact List.mem_map.2 ⟨y, hy, rfl⟩

/-! ## The four stretches -/

/-- The first layer up to the papers' pre-activation, fifty operations: the papers' own affine map (`main_v3`), the
    authors' own affine map (`main_v7`), the authors' message map (`main_v11`), the author → paper aggregation (source
    indices below zero wrapped once, the message rows gathered, each scaled by its edge's weight, the scaled rows added
    into a zero table at the destinations: `main_v24`), the first sum (`main_v25`), the papers' message map (`main_v29`),
    the paper → paper aggregation (`main_v42`), and the second sum `main_v43`. -/
abbrev opsA : List (HloOp τ sig (Elt F)) :=
  [ binary main_arg0 main_arg8 main_v0 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg9 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    binary main_arg1 main_arg10 main_v4 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    unary main_arg11 main_v5 (broadcastInDim S1x256 ![1] bcast_S256_S1x256_1 : (⟨S256, .f32⟩ : BufTy).Contents (Elt F) → (⟨S1x256, .f32⟩ : BufTy).Contents (Elt F)),
    unary main_v5 main_v6 (broadcastInDim S20000x256 ![0, 1] bcast_S1x256_S20000x256_0_1 : (⟨S1x256, .f32⟩ : BufTy).Contents (Elt F) → (⟨S20000x256, .f32⟩ : BufTy).Contents (Elt F)),
    binary main_v4 main_v6 main_v7 (addf : (⟨S20000x256, .f32⟩ : BufTy).Contents (Elt F) → (⟨S20000x256, .f32⟩ : BufTy).Contents (Elt F) → (⟨S20000x256, .f32⟩ : BufTy).Contents (Elt F)),
    binary main_arg1 main_arg12 main_v8 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    unary main_arg13 main_v9 (broadcastInDim S1x256 ![1] bcast_S256_S1x256_1 : (⟨S256, .f32⟩ : BufTy).Contents (Elt F) → (⟨S1x256, .f32⟩ : BufTy).Contents (Elt F)),
    unary main_v9 main_v10 (broadcastInDim S20000x256 ![0, 1] bcast_S1x256_S20000x256_0_1 : (⟨S1x256, .f32⟩ : BufTy).Contents (Elt F) → (⟨S20000x256, .f32⟩ : BufTy).Contents (Elt F)),
    binary main_v8 main_v10 main_v11 (addf : (⟨S20000x256, .f32⟩ : BufTy).Contents (Elt F) → (⟨S20000x256, .f32⟩ : BufTy).Contents (Elt F) → (⟨S20000x256, .f32⟩ : BufTy).Contents (Elt F)),
    nullary main_c (constantI S_ 32 0#32),
    unary main_c main_v12 (broadcastInDim S200000 ![] bcast_S_S200000 : (⟨S_, .i32⟩ : BufTy).Contents (Elt F) → (⟨S200000, .i32⟩ : BufTy).Contents (Elt F)),
    binary main_arg2 main_v12 main_v13 (cmpi .slt : (⟨S200000, .i32⟩ : BufTy).Contents (Elt F) → (⟨S200000, .i32⟩ : BufTy).Contents (Elt F) → (⟨S200000, .i1⟩ : BufTy).Contents (Elt F)),
    nullary main_c_0 (constantI S_ 32 20000#32),
    unary main_c_0 main_v14 (broadcastInDim S200000 ![] bcast_S_S200000 : (⟨S_, .i32⟩ : BufTy).Contents (Elt F) → (⟨S200000, .i32⟩ : BufTy).Contents (Elt F)),
    binary main_arg2 main_v14 main_v15 (addi : (⟨S200000, .i32⟩ : BufTy).Contents (Elt F) → (⟨S200000, .i32⟩ : BufTy).Contents (Elt F) → (⟨S200000, .i32⟩ : BufTy).Contents (Elt F)),
    ternary main_v13 main_v15 main_arg2 main_v16 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v16 main_v17 (broadcastInDim S200000x1 ![0] bcast_S200000_S200000x1_0 : (⟨S200000, .i32⟩ : BufTy).Contents (Elt F) → (⟨S200000x1, .i32⟩ : BufTy).Contents (Elt F)),
    binary main_v11 main_v17 main_v18 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    unary main_arg4 main_v19 (broadcastInDim S200000x1 ![0] bcast_S200000_S200000x1_0 : (⟨S200000, .f32⟩ : BufTy).Contents (Elt F) → (⟨S200000x1, .f32⟩ : BufTy).Contents (Elt F)),
    unary main_v19 main_v20 (broadcastInDim S200000x256 ![0, 1] bcast_S200000x1_S200000x256_0_1 : (⟨S200000x1, .f32⟩ : BufTy).Contents (Elt F) → (⟨S200000x256, .f32⟩ : BufTy).Contents (Elt F)),
    binary main_v18 main_v20 main_v21 (mulf : (⟨S200000x256, .f32⟩ : BufTy).Contents (Elt F) → (⟨S200000x256, .f32⟩ : BufTy).Contents (Elt F) → (⟨S200000x256, .f32⟩ : BufTy).Contents (Elt F)),
    nullary main_cst (constant S_ .f32 0x00000000#32),
    unary main_cst main_v22 (broadcastInDim S100000x256 ![] bcast_S_S100000x256 : (⟨S_, .f32⟩ : BufTy).Contents (Elt F) → (⟨S100000x256, .f32⟩ : BufTy).Contents (Elt F)),
    unary main_arg3 main_v23 (broadcastInDim S200000x1 ![0] bcast_S200000_S200000x1_0 : (⟨S200000, .i32⟩ : BufTy).Contents (Elt F) → (⟨S200000x1, .i32⟩ : BufTy).Contents (Elt F)),
    ternary main_v22 main_v23 main_v21 main_v24 ((fun x i u => Host.scatterAdd scatter_S100000x256_S200000x1_S200000x256_1_0_0_1 x i u) : (⟨S100000x256, .f32⟩ : BufTy).Contents (Elt F) → (⟨S200000x1, .i32⟩ : BufTy).Contents (Elt F) → (⟨S200000x256, .f32⟩ : BufTy).Contents (Elt F) → (⟨S100000x256, .f32⟩ : BufTy).Contents (Elt F)),
    binary main_v3 main_v24 main_v25 (addf : (⟨S100000x256, .f32⟩ : BufTy).Contents (Elt F) → (⟨S100000x256, .f32⟩ : BufTy).Contents (Elt F) → (⟨S100000x256, .f32⟩ : BufTy).Contents (Elt F)),
    binary main_arg0 main_arg14 main_v26 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg15 main_v27 (broadcastInDim S1x256 ![1] bcast_S256_S1x256_1 : (⟨S256, .f32⟩ : BufTy).Contents (Elt F) → (⟨S1x256, .f32⟩ : BufTy).Contents (Elt F)),
    unary main_v27 main_v28 (broadcastInDim S100000x256 ![0, 1] bcast_S1x256_S100000x256_0_1 : (⟨S1x256, .f32⟩ : BufTy).Contents (Elt F) → (⟨S100000x256, .f32⟩ : BufTy).Contents (Elt F)),
    binary main_v26 main_v28 main_v29 (addf : (⟨S100000x256, .f32⟩ : BufTy).Contents (Elt F) → (⟨S100000x256, .f32⟩ : BufTy).Contents (Elt F) → (⟨S100000x256, .f32⟩ : BufTy).Contents (Elt F)),
    nullary main_c_1 (constantI S_ 32 0#32),
    unary main_c_1 main_v30 (broadcastInDim S400000 ![] bcast_S_S400000 : (⟨S_, .i32⟩ : BufTy).Contents (Elt F) → (⟨S400000, .i32⟩ : BufTy).Contents (Elt F)),
    binary main_arg5 main_v30 main_v31 (cmpi .slt : (⟨S400000, .i32⟩ : BufTy).Contents (Elt F) → (⟨S400000, .i32⟩ : BufTy).Contents (Elt F) → (⟨S400000, .i1⟩ : BufTy).Contents (Elt F)),
    nullary main_c_2 (constantI S_ 32 100000#32),
    unary main_c_2 main_v32 (broadcastInDim S400000 ![] bcast_S_S400000 : (⟨S_, .i32⟩ : BufTy).Contents (Elt F) → (⟨S400000, .i32⟩ : BufTy).Contents (Elt F)),
    binary main_arg5 main_v32 main_v33 (addi : (⟨S400000, .i32⟩ : BufTy).Contents (Elt F) → (⟨S400000, .i32⟩ : BufTy).Contents (Elt F) → (⟨S400000, .i32⟩ : BufTy).Contents (Elt F)),
    ternary main_v31 main_v33 main_arg5 main_v34 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v34 main_v35 (broadcastInDim S400000x1 ![0] bcast_S400000_S400000x1_0 : (⟨S400000, .i32⟩ : BufTy).Contents (Elt F) → (⟨S400000x1, .i32⟩ : BufTy).Contents (Elt F)),
    binary main_v29 main_v35 main_v36 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    unary main_arg7 main_v37 (broadcastInDim S400000x1 ![0] bcast_S400000_S400000x1_0 : (⟨S400000, .f32⟩ : BufTy).Contents (Elt F) → (⟨S400000x1, .f32⟩ : BufTy).Contents (Elt F)),
    unary main_v37 main_v38 (broadcastInDim S400000x256 ![0, 1] bcast_S400000x1_S400000x256_0_1 : (⟨S400000x1, .f32⟩ : BufTy).Contents (Elt F) → (⟨S400000x256, .f32⟩ : BufTy).Contents (Elt F)),
    binary main_v36 main_v38 main_v39 (mulf : (⟨S400000x256, .f32⟩ : BufTy).Contents (Elt F) → (⟨S400000x256, .f32⟩ : BufTy).Contents (Elt F) → (⟨S400000x256, .f32⟩ : BufTy).Contents (Elt F)),
    nullary main_cst_3 (constant S_ .f32 0x00000000#32),
    unary main_cst_3 main_v40 (broadcastInDim S100000x256 ![] bcast_S_S100000x256 : (⟨S_, .f32⟩ : BufTy).Contents (Elt F) → (⟨S100000x256, .f32⟩ : BufTy).Contents (Elt F)),
    unary main_arg6 main_v41 (broadcastInDim S400000x1 ![0] bcast_S400000_S400000x1_0 : (⟨S400000, .i32⟩ : BufTy).Contents (Elt F) → (⟨S400000x1, .i32⟩ : BufTy).Contents (Elt F)),
    ternary main_v40 main_v41 main_v39 main_v42 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)),
    binary main_v25 main_v42 main_v43 (addf : (⟨S100000x256, .f32⟩ : BufTy).Contents (Elt F) → (⟨S100000x256, .f32⟩ : BufTy).Contents (Elt F) → (⟨S100000x256, .f32⟩ : BufTy).Contents (Elt F)) ]

set_option maxRecDepth 8192 in
/-- Every buffer stretch A touches is a TensorCore reference. -/
theorem opsA_sub : (opsA : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub ..⟩

set_option maxRecDepth 8192 in
/-- Every operation of stretch A determines its result. -/
theorem opsA_fresh : ∀ op ∈ (opsA : List (HloOp τ sig (Elt F))), op.fresh = ∅ := by
  intro _ h; (repeat (cases h with | head => rfl | tail _ h => ?_)); exact nomatch h

/-- The buffers stretch A writes, in order: one per operation. -/
abbrev WA : List (Ref sig .tc) :=
  [main_v0, main_v1, main_v2, main_v3, main_v4, main_v5, main_v6, main_v7, main_v8, main_v9, main_v10, main_v11, main_c, main_v12, main_v13, main_c_0, main_v14, main_v15, main_v16, main_v17, main_v18, main_v19, main_v20, main_v21, main_cst, main_v22, main_v23, main_v24, main_v25, main_v26, main_v27, main_v28, main_v29, main_c_1, main_v30, main_v31, main_c_2, main_v32, main_v33, main_v34, main_v35, main_v36, main_v37, main_v38, main_v39, main_cst_3, main_v40, main_v41, main_v42, main_v43]

set_option maxRecDepth 8192 in
/-- Each operation of stretch A writes its one result buffer, a member of `WA`. -/
theorem opsA_writes : (opsA : List (HloOp τ sig (Elt F))).Forall fun op =>
    op.writes ⊆ ((WA.map (Proc.devRef (τ := τ) .tc)).toFinset : Finset (DevRef τ sig)) :=
  ⟨writes_sub_of_mem (y := main_v0) rfl (by decide),
    writes_sub_of_mem (y := main_v1) rfl (by decide),
    writes_sub_of_mem (y := main_v2) rfl (by decide),
    writes_sub_of_mem (y := main_v3) rfl (by decide),
    writes_sub_of_mem (y := main_v4) rfl (by decide),
    writes_sub_of_mem (y := main_v5) rfl (by decide),
    writes_sub_of_mem (y := main_v6) rfl (by decide),
    writes_sub_of_mem (y := main_v7) rfl (by decide),
    writes_sub_of_mem (y := main_v8) rfl (by decide),
    writes_sub_of_mem (y := main_v9) rfl (by decide),
    writes_sub_of_mem (y := main_v10) rfl (by decide),
    writes_sub_of_mem (y := main_v11) rfl (by decide),
    writes_sub_of_mem (y := main_c) rfl (by decide),
    writes_sub_of_mem (y := main_v12) rfl (by decide),
    writes_sub_of_mem (y := main_v13) rfl (by decide),
    writes_sub_of_mem (y := main_c_0) rfl (by decide),
    writes_sub_of_mem (y := main_v14) rfl (by decide),
    writes_sub_of_mem (y := main_v15) rfl (by decide),
    writes_sub_of_mem (y := main_v16) rfl (by decide),
    writes_sub_of_mem (y := main_v17) rfl (by decide),
    writes_sub_of_mem (y := main_v18) rfl (by decide),
    writes_sub_of_mem (y := main_v19) rfl (by decide),
    writes_sub_of_mem (y := main_v20) rfl (by decide),
    writes_sub_of_mem (y := main_v21) rfl (by decide),
    writes_sub_of_mem (y := main_cst) rfl (by decide),
    writes_sub_of_mem (y := main_v22) rfl (by decide),
    writes_sub_of_mem (y := main_v23) rfl (by decide),
    writes_sub_of_mem (y := main_v24) rfl (by decide),
    writes_sub_of_mem (y := main_v25) rfl (by decide),
    writes_sub_of_mem (y := main_v26) rfl (by decide),
    writes_sub_of_mem (y := main_v27) rfl (by decide),
    writes_sub_of_mem (y := main_v28) rfl (by decide),
    writes_sub_of_mem (y := main_v29) rfl (by decide),
    writes_sub_of_mem (y := main_c_1) rfl (by decide),
    writes_sub_of_mem (y := main_v30) rfl (by decide),
    writes_sub_of_mem (y := main_v31) rfl (by decide),
    writes_sub_of_mem (y := main_c_2) rfl (by decide),
    writes_sub_of_mem (y := main_v32) rfl (by decide),
    writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_v38) rfl (by decide),
    writes_sub_of_mem (y := main_v39) rfl (by decide),
    writes_sub_of_mem (y := main_cst_3) rfl (by decide),
    writes_sub_of_mem (y := main_v40) rfl (by decide),
    writes_sub_of_mem (y := main_v41) rfl (by decide),
    writes_sub_of_mem (y := main_v42) rfl (by decide),
    writes_sub_of_mem (y := main_v43) rfl (by decide)⟩

/-- A buffer stretch A does not write keeps its contents through it. -/
theorem frameA (V : Valuation τ sig (Elt F)) {r : Ref sig .tc} (hr : r ∉ WA) :
    after opsA V (Proc.devRef .tc r) = V (Proc.devRef .tc r) :=
  after_of_writes_sub opsA V opsA_writes hr

/-- The two exponential linear units, each function's operations written out in place over its call's buffers (the
    choice functions it calls likewise), fifteen operations each: on the papers' pre-activation `main_v43` into
    `main_v44`, then on the authors' `main_v7` into `main_v45`.  One unit is: the zero and its broadcast, the test
    `x > 0`, the same again, a third zero, converted to its own type and broadcast, the choice of zero or `x` by the second test,
    `expm1` of that, the one and its broadcast, their product, and the choice of `x` or the product by the first test. -/
abbrev opsE : List (HloOp τ sig (Elt F)) :=
  [ TRef.nullary main_call0.cst (constant S_ .f32 0x00000000#32),
    TRef.unary main_call0.cst main_call0.v0 (broadcastInDim S100000x256 ![] bcast_S_S100000x256),
    TRef.binary (.of main_v43 : TRef sig ⟨S100000x256, .f32⟩) main_call0.v0 main_call0.v1 (cmpf .ogt),
    TRef.nullary main_call0.cst_0 (constant S_ .f32 0x00000000#32),
    TRef.unary main_call0.cst_0 main_call0.v2 (broadcastInDim S100000x256 ![] bcast_S_S100000x256),
    TRef.binary (.of main_v43 : TRef sig ⟨S100000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x256 ![] bcast_S_S100000x256),
    TRef.ternary main_call0.v3 main_call0.call0.v1 (.of main_v43 : TRef sig ⟨S100000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x256 ![] bcast_S_S100000x256),
    TRef.binary main_call0.v6 main_call0.v5 main_call0.v7 mulf,
    TRef.ternary main_call0.v1 (.of main_v43 : TRef sig ⟨S100000x256, .f32⟩) main_call0.v7 main_call0.call1.v0 select,
    TRef.nullary main_call1.cst (constant S_ .f32 0x00000000#32),
    TRef.unary main_call1.cst main_call1.v0 (broadcastInDim S20000x256 ![] bcast_S_S20000x256),
    TRef.binary (.of main_v7 : TRef sig ⟨S20000x256, .f32⟩) main_call1.v0 main_call1.v1 (cmpf .ogt),
    TRef.nullary main_call1.cst_0 (constant S_ .f32 0x00000000#32),
    TRef.unary main_call1.cst_0 main_call1.v2 (broadcastInDim S20000x256 ![] bcast_S_S20000x256),
    TRef.binary (.of main_v7 : TRef sig ⟨S20000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S20000x256 ![] bcast_S_S20000x256),
    TRef.ternary main_call1.v3 main_call1.call0.v1 (.of main_v7 : TRef sig ⟨S20000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S20000x256 ![] bcast_S_S20000x256),
    TRef.binary main_call1.v6 main_call1.v5 main_call1.v7 mulf,
    TRef.ternary main_call1.v1 (.of main_v7 : TRef sig ⟨S20000x256, .f32⟩) main_call1.v7 main_call1.call1.v0 select ]

set_option maxRecDepth 8192 in
/-- Every buffer stretch E touches is a TensorCore reference. -/
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
/-- Every operation of stretch E determines its result. -/
theorem opsE_fresh : ∀ op ∈ (opsE : List (HloOp τ sig (Elt F))), op.fresh = ∅ := by
  intro _ h; (repeat (cases h with | head => rfl | tail _ h => ?_)); exact nomatch h

/-- The buffers stretch E writes, in order: one per operation. -/
abbrev WE : List (Ref sig .tc) :=
  [main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]

set_option maxRecDepth 8192 in
/-- Each operation of stretch E writes its one result buffer, a member of `WE`. -/
theorem opsE_writes : (opsE : List (HloOp τ sig (Elt F))).Forall fun op =>
    op.writes ⊆ ((WE.map (Proc.devRef (τ := τ) .tc)).toFinset : Finset (DevRef τ sig)) :=
  ⟨writes_sub_of_mem (y := main_call0.cst.ref) rfl (by decide),
    writes_sub_of_mem (y := main_call0.v0.ref) rfl (by decide),
    writes_sub_of_mem (y := main_call0.v1.ref) rfl (by decide),
    writes_sub_of_mem (y := main_call0.cst_0.ref) rfl (by decide),
    writes_sub_of_mem (y := main_call0.v2.ref) rfl (by decide),
    writes_sub_of_mem (y := main_call0.v3.ref) rfl (by decide),
    writes_sub_of_mem (y := main_call0.cst_1.ref) rfl (by decide),
    writes_sub_of_mem (y := main_call0.call0.v0.ref) rfl (by decide),
    writes_sub_of_mem (y := main_call0.call0.v1.ref) rfl (by decide),
    writes_sub_of_mem (y := main_call0.call0.v2.ref) rfl (by decide),
    writes_sub_of_mem (y := main_call0.v5.ref) rfl (by decide),
    writes_sub_of_mem (y := main_call0.cst_2.ref) rfl (by decide),
    writes_sub_of_mem (y := main_call0.v6.ref) rfl (by decide),
    writes_sub_of_mem (y := main_call0.v7.ref) rfl (by decide),
    writes_sub_of_mem (y := main_call0.call1.v0.ref) rfl (by decide),
    writes_sub_of_mem (y := main_call1.cst.ref) rfl (by decide),
    writes_sub_of_mem (y := main_call1.v0.ref) rfl (by decide),
    writes_sub_of_mem (y := main_call1.v1.ref) rfl (by decide),
    writes_sub_of_mem (y := main_call1.cst_0.ref) rfl (by decide),
    writes_sub_of_mem (y := main_call1.v2.ref) rfl (by decide),
    writes_sub_of_mem (y := main_call1.v3.ref) rfl (by decide),
    writes_sub_of_mem (y := main_call1.cst_1.ref) rfl (by decide),
    writes_sub_of_mem (y := main_call1.call0.v0.ref) rfl (by decide),
    writes_sub_of_mem (y := main_call1.call0.v1.ref) rfl (by decide),
    writes_sub_of_mem (y := main_call1.call0.v2.ref) rfl (by decide),
    writes_sub_of_mem (y := main_call1.v5.ref) rfl (by decide),
    writes_sub_of_mem (y := main_call1.cst_2.ref) rfl (by decide),
    writes_sub_of_mem (y := main_call1.v6.ref) rfl (by decide),
    writes_sub_of_mem (y := main_call1.v7.ref) rfl (by decide),
    writes_sub_of_mem (y := main_call1.call1.v0.ref) rfl (by decide)⟩

/-- A buffer stretch E does not write keeps its contents through it. -/
theorem frameE (V : Valuation τ sig (Elt F)) {r : Ref sig .tc} (hr : r ∉ WE) :
    after opsE V (Proc.devRef .tc r) = V (Proc.devRef .tc r) :=
  after_of_writes_sub opsE V opsE_writes hr

/-- The second layer's first eight operations: the papers' own affine map of `main_v44` (`main_v49`) and the authors' own
    affine map of `main_v45`, which is the authors' result `main_v53`. -/
abbrev opsB : List (HloOp τ sig (Elt F)) :=
  [ binary main_v44 main_arg16 main_v46 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg17 main_v47 (broadcastInDim S1x256 ![1] bcast_S256_S1x256_1 : (⟨S256, .f32⟩ : BufTy).Contents (Elt F) → (⟨S1x256, .f32⟩ : BufTy).Contents (Elt F)),
    unary main_v47 main_v48 (broadcastInDim S100000x256 ![0, 1] bcast_S1x256_S100000x256_0_1 : (⟨S1x256, .f32⟩ : BufTy).Contents (Elt F) → (⟨S100000x256, .f32⟩ : BufTy).Contents (Elt F)),
    binary main_v46 main_v48 main_v49 (addf : (⟨S100000x256, .f32⟩ : BufTy).Contents (Elt F) → (⟨S100000x256, .f32⟩ : BufTy).Contents (Elt F) → (⟨S100000x256, .f32⟩ : BufTy).Contents (Elt F)),
    binary main_v45 main_arg18 main_v50 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg19 main_v51 (broadcastInDim S1x256 ![1] bcast_S256_S1x256_1 : (⟨S256, .f32⟩ : BufTy).Contents (Elt F) → (⟨S1x256, .f32⟩ : BufTy).Contents (Elt F)),
    unary main_v51 main_v52 (broadcastInDim S20000x256 ![0, 1] bcast_S1x256_S20000x256_0_1 : (⟨S1x256, .f32⟩ : BufTy).Contents (Elt F) → (⟨S20000x256, .f32⟩ : BufTy).Contents (Elt F)),
    binary main_v50 main_v52 main_v53 (addf : (⟨S20000x256, .f32⟩ : BufTy).Contents (Elt F) → (⟨S20000x256, .f32⟩ : BufTy).Contents (Elt F) → (⟨S20000x256, .f32⟩ : BufTy).Contents (Elt F)) ]

/-- Every buffer stretch B touches is a TensorCore reference. -/
theorem opsB_sub : (opsB : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩

/-- Every operation of stretch B determines its result. -/
theorem opsB_fresh : ∀ op ∈ (opsB : List (HloOp τ sig (Elt F))), op.fresh = ∅ := by
  intro _ h; (repeat (cases h with | head => rfl | tail _ h => ?_)); exact nomatch h

/-- The buffers stretch B writes, in order: one per operation. -/
abbrev WB : List (Ref sig .tc) :=
  [main_v46, main_v47, main_v48, main_v49, main_v50, main_v51, main_v52, main_v53]

/-- Each operation of stretch B writes its one result buffer, a member of `WB`. -/
theorem opsB_writes : (opsB : List (HloOp τ sig (Elt F))).Forall fun op =>
    op.writes ⊆ ((WB.map (Proc.devRef (τ := τ) .tc)).toFinset : Finset (DevRef τ sig)) :=
  ⟨writes_sub_of_mem (y := main_v46) rfl (by decide),
    writes_sub_of_mem (y := main_v47) rfl (by decide),
    writes_sub_of_mem (y := main_v48) rfl (by decide),
    writes_sub_of_mem (y := main_v49) rfl (by decide),
    writes_sub_of_mem (y := main_v50) rfl (by decide),
    writes_sub_of_mem (y := main_v51) rfl (by decide),
    writes_sub_of_mem (y := main_v52) rfl (by decide),
    writes_sub_of_mem (y := main_v53) rfl (by decide)⟩

/-- A buffer stretch B does not write keeps its contents through it. -/
theorem frameB (V : Valuation τ sig (Elt F)) {r : Ref sig .tc} (hr : r ∉ WB) :
    after opsB V (Proc.devRef .tc r) = V (Proc.devRef .tc r) :=
  after_of_writes_sub opsB V opsB_writes hr

/-- The rest of the second layer, forty-two operations: the authors' message map of `main_v45` (`main_v57`), its
    aggregation into the papers (`main_v70`), the first sum (`main_v71`), the papers' message map of `main_v44`
    (`main_v75`), its aggregation (`main_v88`), and the second sum, the papers' result `main_v89`. -/
abbrev opsC : List (HloOp τ sig (Elt F)) :=
  [ binary main_v45 main_arg20 main_v54 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg21 main_v55 (broadcastInDim S1x256 ![1] bcast_S256_S1x256_1 : (⟨S256, .f32⟩ : BufTy).Contents (Elt F) → (⟨S1x256, .f32⟩ : BufTy).Contents (Elt F)),
    unary main_v55 main_v56 (broadcastInDim S20000x256 ![0, 1] bcast_S1x256_S20000x256_0_1 : (⟨S1x256, .f32⟩ : BufTy).Contents (Elt F) → (⟨S20000x256, .f32⟩ : BufTy).Contents (Elt F)),
    binary main_v54 main_v56 main_v57 (addf : (⟨S20000x256, .f32⟩ : BufTy).Contents (Elt F) → (⟨S20000x256, .f32⟩ : BufTy).Contents (Elt F) → (⟨S20000x256, .f32⟩ : BufTy).Contents (Elt F)),
    nullary main_c_4 (constantI S_ 32 0#32),
    unary main_c_4 main_v58 (broadcastInDim S200000 ![] bcast_S_S200000 : (⟨S_, .i32⟩ : BufTy).Contents (Elt F) → (⟨S200000, .i32⟩ : BufTy).Contents (Elt F)),
    binary main_arg2 main_v58 main_v59 (cmpi .slt : (⟨S200000, .i32⟩ : BufTy).Contents (Elt F) → (⟨S200000, .i32⟩ : BufTy).Contents (Elt F) → (⟨S200000, .i1⟩ : BufTy).Contents (Elt F)),
    nullary main_c_5 (constantI S_ 32 20000#32),
    unary main_c_5 main_v60 (broadcastInDim S200000 ![] bcast_S_S200000 : (⟨S_, .i32⟩ : BufTy).Contents (Elt F) → (⟨S200000, .i32⟩ : BufTy).Contents (Elt F)),
    binary main_arg2 main_v60 main_v61 (addi : (⟨S200000, .i32⟩ : BufTy).Contents (Elt F) → (⟨S200000, .i32⟩ : BufTy).Contents (Elt F) → (⟨S200000, .i32⟩ : BufTy).Contents (Elt F)),
    ternary main_v59 main_v61 main_arg2 main_v62 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v62 main_v63 (broadcastInDim S200000x1 ![0] bcast_S200000_S200000x1_0 : (⟨S200000, .i32⟩ : BufTy).Contents (Elt F) → (⟨S200000x1, .i32⟩ : BufTy).Contents (Elt F)),
    binary main_v57 main_v63 main_v64 ((fun x i => Host.gather gather_S20000x256_S200000x1_S200000x256_1_0_n_n_0_1_1256 x i) : (⟨S20000x256, .f32⟩ : BufTy).Contents (Elt F) → (⟨S200000x1, .i32⟩ : BufTy).Contents (Elt F) → (⟨S200000x256, .f32⟩ : BufTy).Contents (Elt F)),
    unary main_arg4 main_v65 (broadcastInDim S200000x1 ![0] bcast_S200000_S200000x1_0 : (⟨S200000, .f32⟩ : BufTy).Contents (Elt F) → (⟨S200000x1, .f32⟩ : BufTy).Contents (Elt F)),
    unary main_v65 main_v66 (broadcastInDim S200000x256 ![0, 1] bcast_S200000x1_S200000x256_0_1 : (⟨S200000x1, .f32⟩ : BufTy).Contents (Elt F) → (⟨S200000x256, .f32⟩ : BufTy).Contents (Elt F)),
    binary main_v64 main_v66 main_v67 (mulf : (⟨S200000x256, .f32⟩ : BufTy).Contents (Elt F) → (⟨S200000x256, .f32⟩ : BufTy).Contents (Elt F) → (⟨S200000x256, .f32⟩ : BufTy).Contents (Elt F)),
    nullary main_cst_6 (constant S_ .f32 0x00000000#32),
    unary main_cst_6 main_v68 (broadcastInDim S100000x256 ![] bcast_S_S100000x256 : (⟨S_, .f32⟩ : BufTy).Contents (Elt F) → (⟨S100000x256, .f32⟩ : BufTy).Contents (Elt F)),
    unary main_arg3 main_v69 (broadcastInDim S200000x1 ![0] bcast_S200000_S200000x1_0 : (⟨S200000, .i32⟩ : BufTy).Contents (Elt F) → (⟨S200000x1, .i32⟩ : BufTy).Contents (Elt F)),
    ternary main_v68 main_v69 main_v67 main_v70 ((fun x i u => Host.scatterAdd scatter_S100000x256_S200000x1_S200000x256_1_0_0_1 x i u) : (⟨S100000x256, .f32⟩ : BufTy).Contents (Elt F) → (⟨S200000x1, .i32⟩ : BufTy).Contents (Elt F) → (⟨S200000x256, .f32⟩ : BufTy).Contents (Elt F) → (⟨S100000x256, .f32⟩ : BufTy).Contents (Elt F)),
    binary main_v49 main_v70 main_v71 (addf : (⟨S100000x256, .f32⟩ : BufTy).Contents (Elt F) → (⟨S100000x256, .f32⟩ : BufTy).Contents (Elt F) → (⟨S100000x256, .f32⟩ : BufTy).Contents (Elt F)),
    binary main_v44 main_arg22 main_v72 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg23 main_v73 (broadcastInDim S1x256 ![1] bcast_S256_S1x256_1 : (⟨S256, .f32⟩ : BufTy).Contents (Elt F) → (⟨S1x256, .f32⟩ : BufTy).Contents (Elt F)),
    unary main_v73 main_v74 (broadcastInDim S100000x256 ![0, 1] bcast_S1x256_S100000x256_0_1 : (⟨S1x256, .f32⟩ : BufTy).Contents (Elt F) → (⟨S100000x256, .f32⟩ : BufTy).Contents (Elt F)),
    binary main_v72 main_v74 main_v75 (addf : (⟨S100000x256, .f32⟩ : BufTy).Contents (Elt F) → (⟨S100000x256, .f32⟩ : BufTy).Contents (Elt F) → (⟨S100000x256, .f32⟩ : BufTy).Contents (Elt F)),
    nullary main_c_7 (constantI S_ 32 0#32),
    unary main_c_7 main_v76 (broadcastInDim S400000 ![] bcast_S_S400000 : (⟨S_, .i32⟩ : BufTy).Contents (Elt F) → (⟨S400000, .i32⟩ : BufTy).Contents (Elt F)),
    binary main_arg5 main_v76 main_v77 (cmpi .slt : (⟨S400000, .i32⟩ : BufTy).Contents (Elt F) → (⟨S400000, .i32⟩ : BufTy).Contents (Elt F) → (⟨S400000, .i1⟩ : BufTy).Contents (Elt F)),
    nullary main_c_8 (constantI S_ 32 100000#32),
    unary main_c_8 main_v78 (broadcastInDim S400000 ![] bcast_S_S400000 : (⟨S_, .i32⟩ : BufTy).Contents (Elt F) → (⟨S400000, .i32⟩ : BufTy).Contents (Elt F)),
    binary main_arg5 main_v78 main_v79 (addi : (⟨S400000, .i32⟩ : BufTy).Contents (Elt F) → (⟨S400000, .i32⟩ : BufTy).Contents (Elt F) → (⟨S400000, .i32⟩ : BufTy).Contents (Elt F)),
    ternary main_v77 main_v79 main_arg5 main_v80 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v80 main_v81 (broadcastInDim S400000x1 ![0] bcast_S400000_S400000x1_0 : (⟨S400000, .i32⟩ : BufTy).Contents (Elt F) → (⟨S400000x1, .i32⟩ : BufTy).Contents (Elt F)),
    binary main_v75 main_v81 main_v82 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    unary main_arg7 main_v83 (broadcastInDim S400000x1 ![0] bcast_S400000_S400000x1_0 : (⟨S400000, .f32⟩ : BufTy).Contents (Elt F) → (⟨S400000x1, .f32⟩ : BufTy).Contents (Elt F)),
    unary main_v83 main_v84 (broadcastInDim S400000x256 ![0, 1] bcast_S400000x1_S400000x256_0_1 : (⟨S400000x1, .f32⟩ : BufTy).Contents (Elt F) → (⟨S400000x256, .f32⟩ : BufTy).Contents (Elt F)),
    binary main_v82 main_v84 main_v85 (mulf : (⟨S400000x256, .f32⟩ : BufTy).Contents (Elt F) → (⟨S400000x256, .f32⟩ : BufTy).Contents (Elt F) → (⟨S400000x256, .f32⟩ : BufTy).Contents (Elt F)),
    nullary main_cst_9 (constant S_ .f32 0x00000000#32),
    unary main_cst_9 main_v86 (broadcastInDim S100000x256 ![] bcast_S_S100000x256 : (⟨S_, .f32⟩ : BufTy).Contents (Elt F) → (⟨S100000x256, .f32⟩ : BufTy).Contents (Elt F)),
    unary main_arg6 main_v87 (broadcastInDim S400000x1 ![0] bcast_S400000_S400000x1_0 : (⟨S400000, .i32⟩ : BufTy).Contents (Elt F) → (⟨S400000x1, .i32⟩ : BufTy).Contents (Elt F)),
    ternary main_v86 main_v87 main_v85 main_v88 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)),
    binary main_v71 main_v88 main_v89 (addf : (⟨S100000x256, .f32⟩ : BufTy).Contents (Elt F) → (⟨S100000x256, .f32⟩ : BufTy).Contents (Elt F) → (⟨S100000x256, .f32⟩ : BufTy).Contents (Elt F)) ]

set_option maxRecDepth 8192 in
/-- Every buffer stretch C touches is a TensorCore reference. -/
theorem opsC_sub : (opsC : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub ..⟩

set_option maxRecDepth 8192 in
/-- Every operation of stretch C determines its result. -/
theorem opsC_fresh : ∀ op ∈ (opsC : List (HloOp τ sig (Elt F))), op.fresh = ∅ := by
  intro _ h; (repeat (cases h with | head => rfl | tail _ h => ?_)); exact nomatch h

/-- The buffers stretch C writes, in order: one per operation. -/
abbrev WC : List (Ref sig .tc) :=
  [main_v54, main_v55, main_v56, main_v57, main_c_4, main_v58, main_v59, main_c_5, main_v60, main_v61, main_v62, main_v63, main_v64, main_v65, main_v66, main_v67, main_cst_6, main_v68, main_v69, main_v70, main_v71, main_v72, main_v73, main_v74, main_v75, main_c_7, main_v76, main_v77, main_c_8, main_v78, main_v79, main_v80, main_v81, main_v82, main_v83, main_v84, main_v85, main_cst_9, main_v86, main_v87, main_v88, main_v89]

set_option maxRecDepth 8192 in
/-- Each operation of stretch C writes its one result buffer, a member of `WC`. -/
theorem opsC_writes : (opsC : List (HloOp τ sig (Elt F))).Forall fun op =>
    op.writes ⊆ ((WC.map (Proc.devRef (τ := τ) .tc)).toFinset : Finset (DevRef τ sig)) :=
  ⟨writes_sub_of_mem (y := main_v54) rfl (by decide),
    writes_sub_of_mem (y := main_v55) rfl (by decide),
    writes_sub_of_mem (y := main_v56) rfl (by decide),
    writes_sub_of_mem (y := main_v57) rfl (by decide),
    writes_sub_of_mem (y := main_c_4) rfl (by decide),
    writes_sub_of_mem (y := main_v58) rfl (by decide),
    writes_sub_of_mem (y := main_v59) rfl (by decide),
    writes_sub_of_mem (y := main_c_5) rfl (by decide),
    writes_sub_of_mem (y := main_v60) rfl (by decide),
    writes_sub_of_mem (y := main_v61) rfl (by decide),
    writes_sub_of_mem (y := main_v62) rfl (by decide),
    writes_sub_of_mem (y := main_v63) rfl (by decide),
    writes_sub_of_mem (y := main_v64) rfl (by decide),
    writes_sub_of_mem (y := main_v65) rfl (by decide),
    writes_sub_of_mem (y := main_v66) rfl (by decide),
    writes_sub_of_mem (y := main_v67) rfl (by decide),
    writes_sub_of_mem (y := main_cst_6) rfl (by decide),
    writes_sub_of_mem (y := main_v68) rfl (by decide),
    writes_sub_of_mem (y := main_v69) rfl (by decide),
    writes_sub_of_mem (y := main_v70) rfl (by decide),
    writes_sub_of_mem (y := main_v71) rfl (by decide),
    writes_sub_of_mem (y := main_v72) rfl (by decide),
    writes_sub_of_mem (y := main_v73) rfl (by decide),
    writes_sub_of_mem (y := main_v74) rfl (by decide),
    writes_sub_of_mem (y := main_v75) rfl (by decide),
    writes_sub_of_mem (y := main_c_7) rfl (by decide),
    writes_sub_of_mem (y := main_v76) rfl (by decide),
    writes_sub_of_mem (y := main_v77) rfl (by decide),
    writes_sub_of_mem (y := main_c_8) rfl (by decide),
    writes_sub_of_mem (y := main_v78) rfl (by decide),
    writes_sub_of_mem (y := main_v79) rfl (by decide),
    writes_sub_of_mem (y := main_v80) rfl (by decide),
    writes_sub_of_mem (y := main_v81) rfl (by decide),
    writes_sub_of_mem (y := main_v82) rfl (by decide),
    writes_sub_of_mem (y := main_v83) rfl (by decide),
    writes_sub_of_mem (y := main_v84) rfl (by decide),
    writes_sub_of_mem (y := main_v85) rfl (by decide),
    writes_sub_of_mem (y := main_cst_9) rfl (by decide),
    writes_sub_of_mem (y := main_v86) rfl (by decide),
    writes_sub_of_mem (y := main_v87) rfl (by decide),
    writes_sub_of_mem (y := main_v88) rfl (by decide),
    writes_sub_of_mem (y := main_v89) rfl (by decide)⟩

/-- A buffer stretch C does not write keeps its contents through it. -/
theorem frameC (V : Valuation τ sig (Elt F)) {r : Ref sig .tc} (hr : r ∉ WC) :
    after opsC V (Proc.devRef .tc r) = V (Proc.devRef .tc r) :=
  after_of_writes_sub opsC V opsC_writes hr

/-! ## What each stretch computes

Each equation is the stretch's fold unrolled at one buffer: an operation's result at its own buffer is its function of
the contents of its operands' buffers, at any other buffer what was there; what is left is the named term's own
spelling.  The gather, the scatter-add and `expm1` are kept folded meanwhile: the equations never look inside them. -/

attribute [local irreducible] Host.gather Host.scatterAdd Host.expm1 in
set_option maxRecDepth 8192 in
set_option maxHeartbeats 4000000 in
/-- After the first stretch `main_v43` holds the papers' pre-activation: their own affine map plus the two aggregations. -/
theorem readA_v43 (V : Valuation τ sig (Elt F)) :
    after opsA V (main_v43 : DevRef τ sig)
      = addf (addf (Terms.linP1 (V (main_arg0 : DevRef τ sig)) (V (main_arg8 : DevRef τ sig)) (V (main_arg9 : DevRef τ sig)))
            (Terms.aggW (Terms.linA1 (V (main_arg1 : DevRef τ sig)) (V (main_arg12 : DevRef τ sig)) (V (main_arg13 : DevRef τ sig))) (V (main_arg2 : DevRef τ sig)) (V (main_arg3 : DevRef τ sig)) (V (main_arg4 : DevRef τ sig))))
          (Terms.aggC (Terms.linP1 (V (main_arg0 : DevRef τ sig)) (V (main_arg14 : DevRef τ sig)) (V (main_arg15 : DevRef τ sig))) (V (main_arg5 : DevRef τ sig)) (V (main_arg6 : DevRef τ sig)) (V (main_arg7 : DevRef τ sig))) := by
  after_results_simp <;> rfl

attribute [local irreducible] Host.gather Host.scatterAdd Host.expm1 in
set_option maxRecDepth 8192 in
set_option maxHeartbeats 4000000 in
/-- After the first stretch `main_v7` holds the authors' pre-activation: their own affine map. -/
theorem readA_v7 (V : Valuation τ sig (Elt F)) :
    after opsA V (main_v7 : DevRef τ sig) = Terms.linA1 (V (main_arg1 : DevRef τ sig)) (V (main_arg10 : DevRef τ sig)) (V (main_arg11 : DevRef τ sig)) := by
  after_results_simp <;> rfl

attribute [local irreducible] Host.gather Host.scatterAdd Host.expm1 in
set_option maxRecDepth 8192 in
set_option maxHeartbeats 4000000 in
/-- The second stretch leaves at `main_v44` the exponential linear unit of what `main_v43` held (a typed reference's
    transport of contents along its type equation is the identity at these literal references). -/
theorem readE_v44 (V : Valuation τ sig (Elt F)) :
    after opsE V (main_v44 : DevRef τ sig) = Terms.eluP (V (main_v43 : DevRef τ sig)) := by
  after_results_simp <;> (try simp only [TRef.ofBuf, TRef.toBuf, cast_eq]) <;> rfl

attribute [local irreducible] Host.gather Host.scatterAdd Host.expm1 in
set_option maxRecDepth 8192 in
set_option maxHeartbeats 4000000 in
/-- The second stretch leaves at `main_v45` the exponential linear unit of what `main_v7` held. -/
theorem readE_v45 (V : Valuation τ sig (Elt F)) :
    after opsE V (main_v45 : DevRef τ sig) = Terms.eluA (V (main_v7 : DevRef τ sig)) := by
  after_results_simp <;> (try simp only [TRef.ofBuf, TRef.toBuf, cast_eq]) <;> rfl

attribute [local irreducible] Host.gather Host.scatterAdd Host.expm1 in
/-- The third stretch leaves at `main_v49` the papers' own affine map of what `main_v44` held. -/
theorem readB_v49 (V : Valuation τ sig (Elt F)) :
    after opsB V (main_v49 : DevRef τ sig) = Terms.linP2 (V (main_v44 : DevRef τ sig)) (V (main_arg16 : DevRef τ sig)) (V (main_arg17 : DevRef τ sig)) := by
  after_results_simp <;> rfl

attribute [local irreducible] Host.gather Host.scatterAdd Host.expm1 in
/-- The third stretch leaves at `main_v53` the authors' own affine map of what `main_v45` held. -/
theorem readB_v53 (V : Valuation τ sig (Elt F)) :
    after opsB V (main_v53 : DevRef τ sig) = Terms.linA2 (V (main_v45 : DevRef τ sig)) (V (main_arg18 : DevRef τ sig)) (V (main_arg19 : DevRef τ sig)) := by
  after_results_simp <;> rfl

attribute [local irreducible] Host.gather Host.scatterAdd Host.expm1 in
set_option maxRecDepth 8192 in
set_option maxHeartbeats 4000000 in
/-- The fourth stretch leaves at `main_v89` what `main_v49` held plus the two second-layer aggregations, of what
    `main_v45` and `main_v44` held. -/
theorem readC_v89 (V : Valuation τ sig (Elt F)) :
    after opsC V (main_v89 : DevRef τ sig)
      = addf (addf (V (main_v49 : DevRef τ sig))
            (Terms.aggW (Terms.linA2 (V (main_v45 : DevRef τ sig)) (V (main_arg20 : DevRef τ sig)) (V (main_arg21 : DevRef τ sig))) (V (main_arg2 : DevRef τ sig)) (V (main_arg3 : DevRef τ sig)) (V (main_arg4 : DevRef τ sig))))
          (Terms.aggC (Terms.linP2 (V (main_v44 : DevRef τ sig)) (V (main_arg22 : DevRef τ sig)) (V (main_arg23 : DevRef τ sig))) (V (main_arg5 : DevRef τ sig)) (V (main_arg6 : DevRef τ sig)) (V (main_arg7 : DevRef τ sig))) := by
  after_results_simp <;> rfl

/-! ## The whole line -/

/-- @main's 130 operations, in order: the four stretches. -/
abbrev ops : List (HloOp τ sig (Elt F)) := (opsA ++ opsE ++ opsB) ++ opsC

set_option maxRecDepth 8192 in
set_option maxHeartbeats 4000000 in
/-- @main's second window is the fourth stretch. -/
theorem main_part1_eq (c : Dev nD) : main_part1 (F := F) c = seq opsC := rfl

set_option maxRecDepth 8192 in
set_option maxHeartbeats 4000000 in
/-- @main's first window is the first three stretches: the functions' definitions unfolded at their calls and the
    calls' records at their fields, both sides are one chain of steps once sequencing is reassociated. -/
theorem main_part0_eq (c : Dev nD) : main_part0 (F := F) c = seq (opsA ++ opsE ++ opsB) := by
  simp only [main_part0, fn_elu.body, fn_elu_1.body, fn_where.body, fn_where_0.body, fn_where_2.body, fn_where_3.body,
    List.cons_append, List.nil_append, seq, bind_assoc, pure_bind]
  rfl

/-- @main is the line. -/
theorem main_eq (c : Dev nD) : main (F := F) c = seq ops := by
  rw [seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨List.forall_append.2 ⟨List.forall_append.2 ⟨opsA_sub, opsE_sub⟩, opsB_sub⟩, opsC_sub⟩

theorem ops_fresh : ∀ op ∈ (ops : List (HloOp τ sig (Elt F))), op.fresh = ∅ := by
  intro op h
  rcases List.mem_append.1 h with h | h
  · rcases List.mem_append.1 h with h | h
    · rcases List.mem_append.1 h with h | h
      · exact opsA_fresh op h
      · exact opsE_fresh op h
    · exact opsB_fresh op h
  · exact opsC_fresh op h

/-- The contents after the whole line: each stretch's fold over the one before. -/
theorem after_ops (V : Valuation τ sig (Elt F)) :
    after ops V = after opsC (after opsB (after opsE (after opsA V))) := by
  show after ((opsA ++ opsE ++ opsB) ++ opsC) V = _
  rw [after_app, after_app, after_app]

/-- A buffer none of the four stretches writes keeps its contents through the whole line. -/
theorem frame_ops (V : Valuation τ sig (Elt F)) {r : Ref sig .tc} (hA : r ∉ WA) (hE : r ∉ WE) (hB : r ∉ WB) (hC : r ∉ WC) :
    after ops V (Proc.devRef .tc r) = V (Proc.devRef .tc r) := by
  rw [after_ops, frameC _ hC, frameB _ hB, frameE _ hE, frameA _ hA]

/-! ## The results, from the launch memory -/

section Read
variable (m : (ℓ : Loc nD τ sig) → Buf (Elt F) ℓ) (c : Dev nD)

/-- After the first two stretches `main_v44` holds the papers after the first layer. -/
theorem v44_eq : after opsE (after opsA (launchContents m c)) (main_v44 : DevRef τ sig) = Terms.xp1 m c := by
  rw [readE_v44, readA_v43]; rfl

/-- After the first two stretches `main_v45` holds the authors after the first layer. -/
theorem v45_eq : after opsE (after opsA (launchContents m c)) (main_v45 : DevRef τ sig) = Terms.xa1 m c := by
  rw [readE_v45, readA_v7]; rfl

/-- A buffer the first three stretches do not write holds its launch contents after them. -/
theorem arg3_eq {r : Ref sig .tc} (hA : r ∉ WA) (hE : r ∉ WE) (hB : r ∉ WB) :
    after opsB (after opsE (after opsA (launchContents m c))) (Proc.devRef .tc r) = m ((c.tc : Thread nD τ).loc r) := by
  rw [frameB _ hB, frameE _ hE, frameA _ hA]

/-- A buffer the first two stretches do not write holds its launch contents after them. -/
theorem arg2_eq {r : Ref sig .tc} (hA : r ∉ WA) (hE : r ∉ WE) :
    after opsE (after opsA (launchContents m c)) (Proc.devRef .tc r) = m ((c.tc : Thread nD τ).loc r) := by
  rw [frameE _ hE, frameA _ hA]

/-- The authors' result: the fourth stretch does not write `main_v53`, the third computes it from `main_v45`. -/
theorem v53_eq : after ops (launchContents m c) (main_v53 : DevRef τ sig) = Terms.resA m c := by
  rw [after_ops, frameC _ (by decide : main_v53 ∉ WC), readB_v53, v45_eq,
    arg2_eq m c (by decide : main_arg18 ∉ WA) (by decide : main_arg18 ∉ WE), arg2_eq m c (by decide : main_arg19 ∉ WA) (by decide : main_arg19 ∉ WE)]
  rfl

/-- The papers' result: the fourth stretch computes it from `main_v49`, `main_v45` and `main_v44`, which the third
    stretch computed or left as the second had them. -/
theorem v89_eq : after ops (launchContents m c) (main_v89 : DevRef τ sig) = Terms.resP m c := by
  rw [after_ops, readC_v89, readB_v49, frameB _ (by decide : main_v45 ∉ WB), frameB _ (by decide : main_v44 ∉ WB), v44_eq, v45_eq,
    arg2_eq m c (by decide : main_arg16 ∉ WA) (by decide : main_arg16 ∉ WE), arg2_eq m c (by decide : main_arg17 ∉ WA) (by decide : main_arg17 ∉ WE),
    arg3_eq m c (by decide : main_arg20 ∉ WA) (by decide : main_arg20 ∉ WE) (by decide : main_arg20 ∉ WB),
    arg3_eq m c (by decide : main_arg21 ∉ WA) (by decide : main_arg21 ∉ WE) (by decide : main_arg21 ∉ WB),
    arg3_eq m c (by decide : main_arg2 ∉ WA) (by decide : main_arg2 ∉ WE) (by decide : main_arg2 ∉ WB),
    arg3_eq m c (by decide : main_arg3 ∉ WA) (by decide : main_arg3 ∉ WE) (by decide : main_arg3 ∉ WB),
    arg3_eq m c (by decide : main_arg4 ∉ WA) (by decide : main_arg4 ∉ WE) (by decide : main_arg4 ∉ WB),
    arg3_eq m c (by decide : main_arg22 ∉ WA) (by decide : main_arg22 ∉ WE) (by decide : main_arg22 ∉ WB),
    arg3_eq m c (by decide : main_arg23 ∉ WA) (by decide : main_arg23 ∉ WE) (by decide : main_arg23 ∉ WB),
    arg3_eq m c (by decide : main_arg5 ∉ WA) (by decide : main_arg5 ∉ WE) (by decide : main_arg5 ∉ WB),
    arg3_eq m c (by decide : main_arg6 ∉ WA) (by decide : main_arg6 ∉ WE) (by decide : main_arg6 ∉ WB),
    arg3_eq m c (by decide : main_arg7 ∉ WA) (by decide : main_arg7 ∉ WE) (by decide : main_arg7 ∉ WB)]
  rfl

end Read

/-- On every device, for any float values, from any memory with zero counters: every weakly fair execution of @main
    terminates with the two results at their named terms of the launch memory and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = Terms.resP m c
      ∧ r.2.mem ((c.tc : Thread nD τ).loc main_v53) = Terms.resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v89).trans (v89_eq m c), (h c main_v53).trans (v53_eq m c),
      (h c main_arg0).trans (frame_ops _ (by decide) (by decide) (by decide) (by decide)),
      (h c main_arg1).trans (frame_ops _ (by decide) (by decide) (by decide) (by decide)),
      (h c main_arg2).trans (frame_ops _ (by decide) (by decide) (by decide) (by decide)),
      (h c main_arg3).trans (frame_ops _ (by decide) (by decide) (by decide) (by decide)),
      (h c main_arg4).trans (frame_ops _ (by decide) (by decide) (by decide) (by decide)),
      (h c main_arg5).trans (frame_ops _ (by decide) (by decide) (by decide) (by decide)),
      (h c main_arg6).trans (frame_ops _ (by decide) (by decide) (by decide) (by decide)),
      (h c main_arg7).trans (frame_ops _ (by decide) (by decide) (by decide) (by decide)),
      (h c main_arg8).trans (frame_ops _ (by decide) (by decide) (by decide) (by decide)),
      (h c main_arg9).trans (frame_ops _ (by decide) (by decide) (by decide) (by decide)),
      (h c main_arg10).trans (frame_ops _ (by decide) (by decide) (by decide) (by decide)),
      (h c main_arg11).trans (frame_ops _ (by decide) (by decide) (by decide) (by decide)),
      (h c main_arg12).trans (frame_ops _ (by decide) (by decide) (by decide) (by decide)),
      (h c main_arg13).trans (frame_ops _ (by decide) (by decide) (by decide) (by decide)),
      (h c main_arg14).trans (frame_ops _ (by decide) (by decide) (by decide) (by decide)),
      (h c main_arg15).trans (frame_ops _ (by decide) (by decide) (by decide) (by decide)),
      (h c main_arg16).trans (frame_ops _ (by decide) (by decide) (by decide) (by decide)),
      (h c main_arg17).trans (frame_ops _ (by decide) (by decide) (by decide) (by decide)),
      (h c main_arg18).trans (frame_ops _ (by decide) (by decide) (by decide) (by decide)),
      (h c main_arg19).trans (frame_ops _ (by decide) (by decide) (by decide) (by decide)),
      (h c main_arg20).trans (frame_ops _ (by decide) (by decide) (by decide) (by decide)),
      (h c main_arg21).trans (frame_ops _ (by decide) (by decide) (by decide) (by decide)),
      (h c main_arg22).trans (frame_ops _ (by decide) (by decide) (by decide) (by decide)),
      (h c main_arg23).trans (frame_ops _ (by decide) (by decide) (by decide) (by decide))⟩)
    (run_seq scopedRefs_eq scopedSems_eq defs main (fun _ => ops) main_eq (fun _ => ops_sub) m ρ (fun _ => ops_fresh))

end Cert.ReferenceIdeal.Value

end
-- ==== Proof.RValue.lean ====
/-
  The reference's two result terms are the encoder's two functions of the launch memory.
-/
import proofs.«143226_j11252814315838_1_alg».proof.Proof.RTerms
import proofs.«143226_j11252814315838_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.StackMember

noncomputable section

namespace Cert.ReferenceIdeal.RefValue

open Cert.ReferenceIdeal Cert.ReferenceIdeal.Gen Idealize.ShloMosaic Idealize.ShloMosaic.TcCoe Idealize.ShloMosaic.ValueIdx
open Idealize.SL Idealize.SL.Sem

/-! ## The affine maps

Every affine term of the reference is a plain matrix product (rows of the left operand against columns of the right, one
contracted axis) plus a bias of 256 columns, first laid out as a single row and then repeated down the rows.  Read at
the entry `(p, q)` this is `∑ k, x (p, k) * w (k, q) + b q`, which is the specification's `lin`.  The statement is
made once, for any number of rows and any contracted extent, and the four instances follow. -/

/-- The host's affine map of an M×K table by a K×256 matrix plus a bias broadcast over the rows, entry by entry. -/
theorem affine_eq {M K : Nat} (D : DotDims ⟨2, ![M, K]⟩ ⟨2, ![K, 256]⟩ ⟨2, ![M, 256]⟩) (hD : D = DotDims.plain M K 256)
    (h1 : (⟨1, ![256]⟩ : Shape).BroadcastsInDim ⟨2, ![1, 256]⟩ ![1])
    (h2 : (⟨2, ![1, 256]⟩ : Shape).BroadcastsInDim ⟨2, ![M, 256]⟩ ![0, 1])
    (x : FVec Ideal ⟨2, ![M, K]⟩ .f32) (w : FVec Ideal ⟨2, ![K, 256]⟩ .f32) (b : FVec Ideal ⟨1, ![256]⟩ .f32) :
    addf (F := Ideal) (Host.dotGeneral (F := Ideal) D none x w)
        (broadcastInDim ⟨2, ![M, 256]⟩ ![0, 1] h2 (broadcastInDim ⟨2, ![1, 256]⟩ ![1] h1 b))
      = Hetero.lin M K 256 x w (Hetero.col b) := by
  subst hD
  funext i
  obtain ⟨p, q, rfl⟩ : ∃ (p : Fin M) (q : Fin 256), i = ix2 p q := ⟨i 0, i 1, eq_ix2 i⟩
  -- the sum at (p, q): the product's contraction re-indexed by its one coordinate
  rw [addf_apply, StackMember.dotGeneral_plain_apply]
  -- the bias at (p, q): the one-row table at (0, q), which is the vector at q
  rw [broadcastInDim_apply ![0, 1] h2 _ (ix2 p q) (ix2 0 q) (by
        intro a; match a with
        | ⟨0, _⟩ => rfl
        | ⟨1, _⟩ => rfl),
      broadcastInDim_apply ![1] h1 b (ix2 0 q) (ix1 q) (by
        intro a; match a with
        | ⟨0, _⟩ => rfl)]
  rfl

/-- The papers' first-layer affine map (100000×512 by 512×256). -/
theorem linP1_eq (x : (⟨S100000x512, .f32⟩ : BufTy).Contents (Elt Ideal)) (w : (⟨S512x256, .f32⟩ : BufTy).Contents (Elt Ideal))
    (b : (⟨S256, .f32⟩ : BufTy).Contents (Elt Ideal)) :
    Terms.linP1 (F := Ideal) x w b = Hetero.lin 100000 512 256 x w (Hetero.col b) := by
  unfold Terms.linP1
  exact affine_eq _ rfl _ _ x w b

/-- The authors' first-layer affine map (20000×128 by 128×256). -/
theorem linA1_eq (x : (⟨S20000x128, .f32⟩ : BufTy).Contents (Elt Ideal)) (w : (⟨S128x256, .f32⟩ : BufTy).Contents (Elt Ideal))
    (b : (⟨S256, .f32⟩ : BufTy).Contents (Elt Ideal)) :
    Terms.linA1 (F := Ideal) x w b = Hetero.lin 20000 128 256 x w (Hetero.col b) := by
  unfold Terms.linA1
  exact affine_eq _ rfl _ _ x w b

/-- The papers' second-layer affine map (100000×256 by 256×256). -/
theorem linP2_eq (x : (⟨S100000x256, .f32⟩ : BufTy).Contents (Elt Ideal)) (w : (⟨S256x256, .f32⟩ : BufTy).Contents (Elt Ideal))
    (b : (⟨S256, .f32⟩ : BufTy).Contents (Elt Ideal)) :
    Terms.linP2 (F := Ideal) x w b = Hetero.lin 100000 256 256 x w (Hetero.col b) := by
  unfold Terms.linP2
  exact affine_eq _ rfl _ _ x w b

/-- The authors' second-layer affine map (20000×256 by 256×256). -/
theorem linA2_eq (x : (⟨S20000x256, .f32⟩ : BufTy).Contents (Elt Ideal)) (w : (⟨S256x256, .f32⟩ : BufTy).Contents (Elt Ideal))
    (b : (⟨S256, .f32⟩ : BufTy).Contents (Elt Ideal)) :
    Terms.linA2 (F := Ideal) x w b = Hetero.lin 20000 256 256 x w (Hetero.col b) := by
  unfold Terms.linA2
  exact affine_eq _ rfl _ _ x w b

/-! ## The activation

The host spells the exponential linear unit with two choices on the same test `0 < x`: the outer one keeps `x` where
the test holds; elsewhere it takes `1 * expm1 y`, where the inner choice has put `y = 0` at the positive entries (the
outer choice discards those) and `y = x` elsewhere.  So at a positive entry the value is `x`, and at any other entry it is
`1 * (exp x - 1) = exp x - 1`: the specification's `eluR`. -/

/-- The host's `expm1` at the extended reals, read at an entry, is `exp` of the entry minus one. -/
theorem hostExpm1_apply {S : Shape} {φ : FTy} (v : FVec Ideal S φ) (i : S.Idx) : Host.expm1 v i = Ideal.exp (v i) - 1 := rfl

/-- The host's exponential linear unit over any shape, entry by entry. -/
theorem eluHost_eq {S : Shape} (h : (⟨0, ![]⟩ : Shape).BroadcastsInDim S ![]) (x : FVec Ideal S .f32) :
    select (cmpf .ogt x (broadcastInDim S ![] h (constant (F := Ideal) ⟨0, ![]⟩ .f32 0x00000000#32))) x
        (mulf (broadcastInDim S ![] h (constant (F := Ideal) ⟨0, ![]⟩ .f32 0x3F800000#32))
          (Host.expm1 (select (cmpf .ogt x (broadcastInDim S ![] h (constant (F := Ideal) ⟨0, ![]⟩ .f32 0x00000000#32)))
            (broadcastInDim S ![] h (id (constant (F := Ideal) ⟨0, ![]⟩ .f32 0x00000000#32))) x)))
      = Hetero.elu x := by
  funext i
  -- the two constants, read anywhere, are the extended reals 0 and 1
  have hz : broadcastInDim S ![] h (constant (F := Ideal) ⟨0, ![]⟩ .f32 0x00000000#32) i = (0 : EReal) := by
    rw [broadcastInDim_scalar_apply, constant_apply, Ideal.ofBits_zero_f32]
  have hz' : broadcastInDim S ![] h (id (constant (F := Ideal) ⟨0, ![]⟩ .f32 0x00000000#32)) i = (0 : EReal) := hz
  have ho : broadcastInDim S ![] h (constant (F := Ideal) ⟨0, ![]⟩ .f32 0x3F800000#32) i = (1 : EReal) := by
    rw [broadcastInDim_scalar_apply, constant_apply, Ideal.ofBits_one_f32]
  rw [select_apply, cmpf_apply, mulf_apply, ho, one_mul, hz, hostExpm1_apply, select_apply, cmpf_apply, hz, hz',
    Ideal.cmpf_def]
  show _ = Hetero.eluR (x i)
  unfold Hetero.eluR
  by_cases hp : (0 : EReal) < x i
  · have hc : Ideal.cmp .ogt (x i) 0 = 1#1 := by simp [Ideal.cmp, hp]
    rw [hc, select_one, if_pos hp]
  · have hc : Ideal.cmp .ogt (x i) 0 = 0#1 := by simp [Ideal.cmp, hp]
    rw [hc, select_zero, select_zero, if_neg hp]

/-- The papers' activation. -/
theorem eluP_eq (x : (⟨S100000x256, .f32⟩ : BufTy).Contents (Elt Ideal)) : Terms.eluP (F := Ideal) x = Hetero.elu x := by
  unfold Terms.eluP
  exact eluHost_eq _ x

/-- The authors' activation. -/
theorem eluA_eq (x : (⟨S20000x256, .f32⟩ : BufTy).Contents (Elt Ideal)) : Terms.eluA (F := Ideal) x = Hetero.elu x := by
  unfold Terms.eluA
  exact eluHost_eq _ x

/-- Two host additions, associated to the left, are the specification's sum of three tables. -/
theorem add3_eq {S : Shape} (a b c : FVec Ideal S .f32) : addf (addf a b) c = Hetero.add3 a b c := rfl

/-! ## The two results

With the affine maps, the activations and the three-term sums named, each result term is the specification's function
of the same operands: the authors' result is `lin ∘ elu ∘ lin`, and the papers' result is the second layer's sum of three
terms fed the activated first layer of both node types.  The two aggregations occur as the same terms on both sides and
are never opened. -/

variable (m : (ℓ : Loc nD τ sig) → Buf (Elt Ideal) ℓ) (c : Dev nD)

theorem resA_eq :
    Terms.resA (F := Ideal) m c
      = Hetero.outA 20000 128 256 (m ((c.tc : Thread nD τ).loc main_arg1)) (m ((c.tc : Thread nD τ).loc main_arg10)) (Hetero.col (m ((c.tc : Thread nD τ).loc main_arg11))) (m ((c.tc : Thread nD τ).loc main_arg18)) (Hetero.col (m ((c.tc : Thread nD τ).loc main_arg19))) := by
  unfold Terms.resA Terms.xa1
  rw [linA2_eq, eluA_eq, linA1_eq]
  rfl

theorem resP_eq :
    Terms.resP (F := Ideal) m c
      = Hetero.outP 100000 20000 512 128 256
          (fun t => Terms.aggW t (m ((c.tc : Thread nD τ).loc main_arg2)) (m ((c.tc : Thread nD τ).loc main_arg3)) (m ((c.tc : Thread nD τ).loc main_arg4)))
          (fun t => Terms.aggC t (m ((c.tc : Thread nD τ).loc main_arg5)) (m ((c.tc : Thread nD τ).loc main_arg6)) (m ((c.tc : Thread nD τ).loc main_arg7)))
          (m ((c.tc : Thread nD τ).loc main_arg0)) (m ((c.tc : Thread nD τ).loc main_arg1))
          (m ((c.tc : Thread nD τ).loc main_arg8)) (Hetero.col (m ((c.tc : Thread nD τ).loc main_arg9))) (m ((c.tc : Thread nD τ).loc main_arg10)) (Hetero.col (m ((c.tc : Thread nD τ).loc main_arg11)))
          (m ((c.tc : Thread nD τ).loc main_arg12)) (Hetero.col (m ((c.tc : Thread nD τ).loc main_arg13))) (m ((c.tc : Thread nD τ).loc main_arg14)) (Hetero.col (m ((c.tc : Thread nD τ).loc main_arg15)))
          (m ((c.tc : Thread nD τ).loc main_arg16)) (Hetero.col (m ((c.tc : Thread nD τ).loc main_arg17))) (m ((c.tc : Thread nD τ).loc main_arg20)) (Hetero.col (m ((c.tc : Thread nD τ).loc main_arg21)))
          (m ((c.tc : Thread nD τ).loc main_arg22)) (Hetero.col (m ((c.tc : Thread nD τ).loc main_arg23))) := by
  unfold Terms.resP Terms.xp1 Terms.xa1
  simp only [linP1_eq, linA1_eq, linP2_eq, linA2_eq, eluP_eq, eluA_eq, add3_eq]
  rfl

end Cert.ReferenceIdeal.RefValue

end
-- ==== Proof.Bridge.lean ====
/-
  The two programs' host glue is one function: the same operations over the same shapes.
-/
import proofs.«143226_j11252814315838_1_alg».proof.Proof.KTerms
import proofs.«143226_j11252814315838_1_alg».proof.Proof.RTerms
import Idealize.ShloMosaic.PureOps.Ideal

noncomputable section

namespace Cert.Bridge

open Idealize.ShloMosaic
theorem aggW_eq : @Cert.KernelIdeal.Terms.aggW Ideal _ = @Cert.ReferenceIdeal.Terms.aggW Ideal _ := rfl

theorem aggC_eq : @Cert.KernelIdeal.Terms.aggC Ideal _ = @Cert.ReferenceIdeal.Terms.aggC Ideal _ := rfl

end Cert.Bridge

end
-- ==== Proof.lean ====
/-
  A two-layer heterogeneous message-passing encoder (papers and authors; author → paper and paper → paper edges), computed
  by ten tiled kernels with the edge gather and scatter-add between them on the host, against the same encoder written
  as plain host operations.

  Both programs compute, over the extended reals, the same two functions of their arguments (`Cert.Hetero.outP`,
  `Cert.Hetero.outA`): a kernel's bf16 casts are the identity there and its block product into a zero accumulator is
  the row-by-column sum the host's matrix product is; the kernel's `exp y − 1` under `y > 0 ? y : ·` is the host's
  `1 · expm1 (y > 0 ? 0 : y)` under the same choice; the three-way sum is associated the same way on both sides; and the
  gather / scale / scatter-add between the kernels is the very same host operations in both programs.  No law used
  needs the inputs finite, so the precondition is never opened.
-/
import proofs.«143226_j11252814315838_1_alg».proof.Defs
import proofs.«143226_j11252814315838_1_alg».proof.Proof.Gen.Kernel
import proofs.«143226_j11252814315838_1_alg».proof.Proof.Gen.Kernel.Frame
import proofs.«143226_j11252814315838_1_alg».proof.Proof.Gen.KernelIdeal
import proofs.«143226_j11252814315838_1_alg».proof.Proof.Gen.KernelIdeal.Frame
import proofs.«143226_j11252814315838_1_alg».proof.Proof.Gen.ReferenceIdeal
import proofs.«143226_j11252814315838_1_alg».proof.Proof.Gen.Pre_finite_inputs
import proofs.«143226_j11252814315838_1_alg».proof.Proof.KRun
import proofs.«143226_j11252814315838_1_alg».proof.Proof.KChain
import proofs.«143226_j11252814315838_1_alg».proof.Proof.RRun
import proofs.«143226_j11252814315838_1_alg».proof.Proof.RValue
import proofs.«143226_j11252814315838_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments both programs end with the encoder's two tables. -/
theorem algebraic : Cert.algebraic_KernelIdeal_ReferenceIdeal := by
  intro m ρ m' ρ' _ hagree
  refine ⟨fun c => Hetero.outP 100000 20000 512 128 256
          (fun t => Cert.KernelIdeal.Terms.aggW t (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
          (fun t => Cert.KernelIdeal.Terms.aggC t (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg8)) (Hetero.col (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (Hetero.col (m ((c.tc : Thread Cert.KernelIdeal.nD Cert.KernelIdeal.τ).loc Cert.KernelIdeal.main_arg11)))
          (m ((c.tc : Thread Cert.KernelIdeal.nD Cert.KernelIdeal.τ).loc Cert.KernelIdeal.main_arg12)) (Hetero.col (m ((c.tc : Thread Cert.KernelIdeal.nD Cert.KernelIdeal.τ).loc Cert.KernelIdeal.main_arg13))) (m ((c.tc : Thread Cert.KernelIdeal.nD Cert.KernelIdeal.τ).loc Cert.KernelIdeal.main_arg14)) (Hetero.col (m ((c.tc : Thread Cert.KernelIdeal.nD Cert.KernelIdeal.τ).loc Cert.KernelIdeal.main_arg15)))
          (m ((c.tc : Thread Cert.KernelIdeal.nD Cert.KernelIdeal.τ).loc Cert.KernelIdeal.main_arg16)) (Hetero.col (m ((c.tc : Thread Cert.KernelIdeal.nD Cert.KernelIdeal.τ).loc Cert.KernelIdeal.main_arg17))) (m ((c.tc : Thread Cert.KernelIdeal.nD Cert.KernelIdeal.τ).loc Cert.KernelIdeal.main_arg20)) (Hetero.col (m ((c.tc : Thread Cert.KernelIdeal.nD Cert.KernelIdeal.τ).loc Cert.KernelIdeal.main_arg21)))
          (m ((c.tc : Thread Cert.KernelIdeal.nD Cert.KernelIdeal.τ).loc Cert.KernelIdeal.main_arg22)) (Hetero.col (m ((c.tc : Thread Cert.KernelIdeal.nD Cert.KernelIdeal.τ).loc Cert.KernelIdeal.main_arg23))),
    fun c => Hetero.outA 20000 128 256 (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (Hetero.col (m ((c.tc : Thread Cert.KernelIdeal.nD Cert.KernelIdeal.τ).loc Cert.KernelIdeal.main_arg11))) (m ((c.tc : Thread Cert.KernelIdeal.nD Cert.KernelIdeal.τ).loc Cert.KernelIdeal.main_arg18)) (Hetero.col (m ((c.tc : Thread Cert.KernelIdeal.nD Cert.KernelIdeal.τ).loc Cert.KernelIdeal.main_arg19))),
    ?_, ?_⟩
  · exact (θ_run Cert.KernelIdeal.defs _ _).mono
      (fun _ h c => ⟨(h c).1.trans (Cert.KernelIdeal.Chain.W20_v69 m ρ c), (h c).2.1.trans (Cert.KernelIdeal.Chain.W20_v38 m ρ c), (h c).2.2⟩)
      (Cert.KernelIdeal.Value.run_main (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.RefValue.resP_eq m' c, ← Cert.Bridge.aggW_eq, ← Cert.Bridge.aggC_eq]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]
    · rw [Cert.ReferenceIdeal.RefValue.resA_eq m' c]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
